-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x128 : Shape := ⟨2, ![150000, 128]⟩
abbrev S150000x6 : Shape := ⟨2, ![150000, 6]⟩
abbrev S450000x42 : Shape := ⟨2, ![450000, 42]⟩
abbrev S450000 : Shape := ⟨1, ![450000]⟩
abbrev S6x128 : Shape := ⟨2, ![6, 128]⟩
abbrev S42x8 : Shape := ⟨2, ![42, 8]⟩
abbrev S128x128 : Shape := ⟨2, ![128, 128]⟩
abbrev S128 : Shape := ⟨1, ![128]⟩
abbrev S128x8x128 : Shape := ⟨3, ![128, 8, 128]⟩
abbrev S3x2x128x128 : Shape := ⟨4, ![3, 2, 128, 128]⟩
abbrev S3x2x128 : Shape := ⟨3, ![3, 2, 128]⟩
abbrev S_ : Shape := ⟨0, ![]⟩

class Facts : Prop where
  bcast_S_S150000x128 : S_.BroadcastsInDim S150000x128 (![] : Fin 0 → Fin S150000x128.rank)
  reducesTo_S150000x128_S_d0_1 : S150000x128.ReducesTo [0, 1] S_
  h_S_ : 0 < S_.numel
  bcast_S_S150000x6 : S_.BroadcastsInDim S150000x6 (![] : Fin 0 → Fin S150000x6.rank)
  reducesTo_S150000x6_S_d0_1 : S150000x6.ReducesTo [0, 1] S_
  bcast_S_S450000x42 : S_.BroadcastsInDim S450000x42 (![] : Fin 0 → Fin S450000x42.rank)
  reducesTo_S450000x42_S_d0_1 : S450000x42.ReducesTo [0, 1] S_
  bcast_S_S6x128 : S_.BroadcastsInDim S6x128 (![] : Fin 0 → Fin S6x128.rank)
  reducesTo_S6x128_S_d0_1 : S6x128.ReducesTo [0, 1] S_
  bcast_S_S42x8 : S_.BroadcastsInDim S42x8 (![] : Fin 0 → Fin S42x8.rank)
  reducesTo_S42x8_S_d0_1 : S42x8.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8x128 : S_.BroadcastsInDim S128x8x128 (![] : Fin 0 → Fin S128x8x128.rank)
  reducesTo_S128x8x128_S_d0_1_2 : S128x8x128.ReducesTo [0, 1, 2] S_
  bcast_S_S3x2x128x128 : S_.BroadcastsInDim S3x2x128x128 (![] : Fin 0 → Fin S3x2x128x128.rank)
  reducesTo_S3x2x128x128_S_d0_1_2_3 : S3x2x128x128.ReducesTo [0, 1, 2, 3] S_
  bcast_S_S3x2x128 : S_.BroadcastsInDim S3x2x128 (![] : Fin 0 → Fin S3x2x128.rank)
  reducesTo_S3x2x128_S_d0_1_2 : S3x2x128.ReducesTo [0, 1, 2] S_
  bcast_S_S450000 : S_.BroadcastsInDim S450000 (![] : Fin 0 → Fin S450000.rank)
  reducesTo_S450000_S_d0 : S450000.ReducesTo [0] S_

variable [Facts]

def fn_part4 {F : FTy → Type} [FloatOps F] (main_arg3 : IVec S450000 32) (main_v63 : IVec S_ 1) (main_v67 : IVec S_ 1) : IVec S_ 1 :=
  let main_v68 : IVec S_ 1 := andi main_v63 main_v67
  let main_c_26 : IVec S_ 32 := constantI S_ 32 0#32
  let main_v69 : IVec S450000 32 := broadcastInDim S450000 ![] bcast_S_S450000 main_c_26
  let main_v70 : IVec S450000 1 := cmpi .sge main_arg3 main_v69
  let main_c_27 : IVec S_ 32 := constantI S_ 32 150000#32
  let main_v71 : IVec S450000 32 := broadcastInDim S450000 ![] bcast_S_S450000 main_c_27
  let main_v72 : IVec S450000 1 := cmpi .slt main_arg3 main_v71
  let main_v73 : IVec S450000 1 := andi main_v70 main_v72
  let main_c_28 : IVec S_ 1 := constantI S_ 1 1#1
  let main_v74 : IVec S_ 1 := (fun x v => Host.reduce IntOp.andi x v reducesTo_S450000_S_d0 h_S_) main_v73 main_c_28
  let main_v75 : IVec S_ 1 := andi main_v68 main_v74
  main_v75

def fn_part3 {F : FTy → Type} [FloatOps F] (main_arg3 : IVec S450000 32) (main_arg13 : FVec F S3x2x128 .f32) (main_arg14 : FVec F S128x128 .f32) (main_arg15 : FVec F S128 .f32) (main_v48 : IVec S_ 1) (main_v49 : FVec F S3x2x128x128 .f32) (main_v50 : FVec F S3x2x128x128 .f32) : IVec S_ 1 :=
  let main_v51 : IVec S3x2x128x128 1 := cmpf .olt main_v49 main_v50
  let main_c_19 : IVec S_ 1 := constantI S_ 1 1#1
  let main_v52 : IVec S_ 1 := (fun x v => Host.reduce IntOp.andi x v reducesTo_S3x2x128x128_S_d0_1_2_3 h_S_) main_v51 main_c_19
  let main_v53 : IVec S_ 1 := andi main_v48 main_v52
  let main_v54 : FVec F S3x2x128 .f32 := Host.absf main_arg13
  let main_cst_20 : FVec F S_ .f32 := constant S_ .f32 0x7F800000#32
  let main_v55 : FVec F S3x2x128 .f32 := broadcastInDim S3x2x128 ![] bcast_S_S3x2x128 main_cst_20
  let main_v56 : IVec S3x2x128 1 := cmpf .olt main_v54 main_v55
  let main_c_21 : IVec S_ 1 := constantI S_ 1 1#1
  let main_v57 : IVec S_ 1 := (fun x v => Host.reduce IntOp.andi x v reducesTo_S3x2x128_S_d0_1_2 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_v63 main_v67

def fn_part2 {F : FTy → Type} [FloatOps F] (main_arg3 : IVec S450000 32) (main_arg9 : FVec F S128x128 .f32) (main_arg10 : FVec F S128 .f32) (main_arg11 : FVec F S128x8x128 .f32) (main_arg12 : FVec F S3x2x128x128 .f32) (main_arg13 : FVec F S3x2x128 .f32) (main_arg14 : FVec F S128x128 .f32) (main_arg15 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x8x128 .f32 := Host.absf main_arg11
  let main_cst_16 : FVec F S_ .f32 := constant S_ .f32 0x7F800000#32
  let main_v45 : FVec F S128x8x128 .f32 := broadcastInDim S128x8x128 ![] bcast_S_S128x8x128 main_cst_16
  let main_v46 : IVec S128x8x128 1 := cmpf .olt main_v44 main_v45
  let main_c_17 : IVec S_ 1 := constantI S_ 1 1#1
  let main_v47 : IVec S_ 1 := (fun x v => Host.reduce IntOp.andi x v reducesTo_S128x8x128_S_d0_1_2 h_S_) main_v46 main_c_17
  let main_v48 : IVec S_ 1 := andi main_v43 main_v47
  let main_v49 : FVec F S3x2x128x128 .f32 := Host.absf main_arg12
  let main_cst_18 : FVec F S_ .f32 := constant S_ .f32 0x7F800000#32
  let main_v50 : FVec F S3x2x128x128 .f32 := broadcastInDim S3x2x128x128 ![] bcast_S_S3x2x128x128 main_cst_18
  fn_part3 (F := F) main_arg3 main_arg13 main_arg14 main_arg15 main_v48 main_v49 main_v50

def fn_part1 {F : FTy → Type} [FloatOps F] (main_arg3 : IVec S450000 32) (main_arg6 : FVec F S42x8 .f32) (main_arg7 : FVec F S128x128 .f32) (main_arg8 : FVec F S128 .f32) (main_arg9 : FVec F S128x128 .f32) (main_arg10 : FVec F S128 .f32) (main_arg11 : FVec F S128x8x128 .f32) (main_arg12 : FVec F S3x2x128x128 .f32) (main_arg13 : FVec F S3x2x128 .f32) (main_arg14 : FVec F S128x128 .f32) (main_arg15 : FVec F S128 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S42x8 .f32 := Host.absf main_arg6
  let main_cst_6 : FVec F S_ .f32 := constant S_ .f32 0x7F800000#32
  let main_v20 : FVec F S42x8 .f32 := broadcastInDim S42x8 ![] bcast_S_S42x8 main_cst_6
  let main_v21 : IVec S42x8 1 := cmpf .olt main_v19 main_v20
  let main_c_7 : IVec S_ 1 := constantI S_ 1 1#1
  let main_v22 : IVec S_ 1 := (fun x v => Host.reduce IntOp.andi x v reducesTo_S42x8_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_arg9 main_arg10 main_arg11 main_arg12 main_arg13 main_arg14 main_arg15 main_v33

def fn {F : FTy → Type} [FloatOps F] (main_arg0 : FVec F S150000x128 .f32) (main_arg1 : FVec F S150000x6 .f32) (main_arg2 : FVec F S450000x42 .f32) (main_arg3 : IVec S450000 32) (main_arg4 : IVec S450000 32) (main_arg5 : FVec F S6x128 .f32) (main_arg6 : FVec F S42x8 .f32) (main_arg7 : FVec F S128x128 .f32) (main_arg8 : FVec F S128 .f32) (main_arg9 : FVec F S128x128 .f32) (main_arg10 : FVec F S128 .f32) (main_arg11 : FVec F S128x8x128 .f32) (main_arg12 : FVec F S3x2x128x128 .f32) (main_arg13 : FVec F S3x2x128 .f32) (main_arg14 : FVec F S128x128 .f32) (main_arg15 : FVec F S128 .f32) : IVec S_ 1 :=
  let main_v0 : FVec F S150000x128 .f32 := Host.absf main_arg0
  let main_cst : FVec F S_ .f32 := constant S_ .f32 0x7F800000#32
  let main_v1 : FVec F S150000x128 .f32 := broadcastInDim S150000x128 ![] bcast_S_S150000x128 main_cst
  let main_v2 : IVec S150000x128 1 := cmpf .olt main_v0 main_v1
  let main_c : IVec S_ 1 := constantI S_ 1 1#1
  let main_v3 : IVec S_ 1 := (fun x v => Host.reduce IntOp.andi x v reducesTo_S150000x128_S_d0_1 h_S_) main_v2 main_c
  let main_v4 : FVec F S150000x6 .f32 := Host.absf main_arg1
  let main_cst_0 : FVec F S_ .f32 := constant S_ .f32 0x7F800000#32
  let main_v5 : FVec F S150000x6 .f32 := broadcastInDim S150000x6 ![] bcast_S_S150000x6 main_cst_0
  let main_v6 : IVec S150000x6 1 := cmpf .olt main_v4 main_v5
  let main_c_1 : IVec S_ 1 := constantI S_ 1 1#1
  let main_v7 : IVec S_ 1 := (fun x v => Host.reduce IntOp.andi x v reducesTo_S150000x6_S_d0_1 h_S_) main_v6 main_c_1
  let main_v8 : IVec S_ 1 := andi main_v3 main_v7
  let main_v9 : FVec F S450000x42 .f32 := Host.absf main_arg2
  let main_cst_2 : FVec F S_ .f32 := constant S_ .f32 0x7F800000#32
  let main_v10 : FVec F S450000x42 .f32 := broadcastInDim S450000x42 ![] bcast_S_S450000x42 main_cst_2
  let main_v11 : IVec S450000x42 1 := cmpf .olt main_v9 main_v10
  let main_c_3 : IVec S_ 1 := constantI S_ 1 1#1
  let main_v12 : IVec S_ 1 := (fun x v => Host.reduce IntOp.andi x v reducesTo_S450000x42_S_d0_1 h_S_) main_v11 main_c_3
  let main_v13 : IVec S_ 1 := andi main_v8 main_v12
  let main_v14 : FVec F S6x128 .f32 := Host.absf main_arg5
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg3 main_arg6 main_arg7 main_arg8 main_arg9 main_arg10 main_arg11 main_arg12 main_arg13 main_arg14 main_arg15 main_v13 main_v16
-- ==== Kernel.lean ====
abbrev S150000x128 : Shape := ⟨2, ![150000, 128]⟩
abbrev S150000x6 : Shape := ⟨2, ![150000, 6]⟩
abbrev S450000x42 : Shape := ⟨2, ![450000, 42]⟩
abbrev S450000 : Shape := ⟨1, ![450000]⟩
abbrev S6x128 : Shape := ⟨2, ![6, 128]⟩
abbrev S42x8 : Shape := ⟨2, ![42, 8]⟩
abbrev S128x128 : Shape := ⟨2, ![128, 128]⟩
abbrev S128 : Shape := ⟨1, ![128]⟩
abbrev S128x8x128 : Shape := ⟨3, ![128, 8, 128]⟩
abbrev S3x2x128x128 : Shape := ⟨4, ![3, 2, 128, 128]⟩
abbrev S3x2x128 : Shape := ⟨3, ![3, 2, 128]⟩
abbrev S5000x128 : Shape := ⟨2, ![5000, 128]⟩
abbrev S5000x6 : Shape := ⟨2, ![5000, 6]⟩
abbrev S1x128 : Shape := ⟨2, ![1, 128]⟩
abbrev S_ : Shape := ⟨0, ![]⟩
abbrev S450000x1 : Shape := ⟨2, ![450000, 1]⟩
abbrev S1 : Shape := ⟨1, ![1]⟩
abbrev S1x1 : Shape := ⟨2, ![1, 1]⟩
abbrev S450000x128 : Shape := ⟨2, ![450000, 128]⟩
abbrev S8x128x128 : Shape := ⟨3, ![8, 128, 128]⟩
abbrev S9000x128 : Shape := ⟨2, ![9000, 128]⟩
abbrev S9000x42 : Shape := ⟨2, ![9000, 42]⟩
abbrev S9000x8 : Shape := ⟨2, ![9000, 8]⟩
abbrev S9000x1 : Shape := ⟨2, ![9000, 1]⟩
abbrev S1x128x128 : Shape := ⟨3, ![1, 128, 128]⟩
abbrev S1x1x128x128 : Shape := ⟨4, ![1, 1, 128, 128]⟩
abbrev S1x1x128 : Shape := ⟨3, ![1, 1, 128]⟩

abbrev nBuf : Space → Nat
  | .hbm => 48
  | .vmem => 33
  | .smem => 0
  | _ => 0

abbrev bufTy : (tb : Table) → Fin (tcTables nBuf tb) → BufTy
  | .hbm, ⟨0, _⟩ => ⟨S150000x128, .f32⟩
  | .hbm, ⟨1, _⟩ => ⟨S150000x6, .f32⟩
  | .hbm, ⟨2, _⟩ => ⟨S450000x42, .f32⟩
  | .hbm, ⟨3, _⟩ => ⟨S450000, .i32⟩
  | .hbm, ⟨4, _⟩ => ⟨S450000, .i32⟩
  | .hbm, ⟨5, _⟩ => ⟨S6x128, .f32⟩
  | .hbm, ⟨6, _⟩ => ⟨S42x8, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x8x128, .f32⟩
  | .hbm, ⟨12, _⟩ => ⟨S3x2x128x128, .f32⟩
  | .hbm, ⟨13, _⟩ => ⟨S3x2x128, .f32⟩
  | .hbm, ⟨14, _⟩ => ⟨S128x128, .f32⟩
  | .hbm, ⟨15, _⟩ => ⟨S128, .f32⟩
  | .hbm, ⟨16, _⟩ => ⟨S150000x128, .f32⟩
  | .hbm, ⟨17, _⟩ => ⟨S150000x128, .f32⟩
  | .hbm, ⟨18, _⟩ => ⟨S_, .i32⟩
  | .hbm, ⟨19, _⟩ => ⟨S450000, .i32⟩
  | .hbm, ⟨20, _⟩ => ⟨S450000, .i1⟩
  | .hbm, ⟨21, _⟩ => ⟨S_, .i32⟩
  | .hbm, ⟨22, _⟩ => ⟨S450000, .i32⟩
  | .hbm, ⟨23, _⟩ => ⟨S450000, .i32⟩
  | .hbm, ⟨24, _⟩ => ⟨S450000, .i32⟩
  | .hbm, ⟨25, _⟩ => ⟨S450000x1, .i32⟩
  | .hbm, ⟨26, _⟩ => ⟨S1, .i32⟩
  | .hbm, ⟨27, _⟩ => ⟨S_, .i32⟩
  | .hbm, ⟨28, _⟩ => ⟨S450000x1, .i32⟩
  | .hbm, ⟨29, _⟩ => ⟨S450000x1, .i1⟩
  | .hbm, ⟨30, _⟩ => ⟨S1x1, .i32⟩
  | .hbm, ⟨31, _⟩ => ⟨S450000x1, .i32⟩
  | .hbm, ⟨32, _⟩ => ⟨S450000x1, .i1⟩
  | .hbm, ⟨33, _⟩ => ⟨S450000x1, .i1⟩
  | .hbm, ⟨34, _⟩ => ⟨S_, .i1⟩
  | .hbm, ⟨35, _⟩ => ⟨S450000, .i1⟩
  | .hbm, ⟨36, _⟩ => ⟨S450000x128, .f32⟩
  | .hbm, ⟨37, _⟩ => ⟨S450000x128, .i1⟩
  | .hbm, ⟨38, _⟩ => ⟨S_, .f32⟩
  | .hbm, ⟨39, _⟩ => ⟨S450000x128, .f32⟩
  | .hbm, ⟨40, _⟩ => ⟨S450000x128, .f32⟩
  | .hbm, ⟨41, _⟩ => ⟨S8x128x128, .f32⟩
  | .hbm, ⟨42, _⟩ => ⟨S450000x128, .f32⟩
  | .hbm, ⟨43, _⟩ => ⟨S_, .f32⟩
  | .hbm, ⟨44, _⟩ => ⟨S150000x128, .f32⟩
  | .hbm, ⟨45, _⟩ => ⟨S450000x1, .i32⟩
  | .hbm, ⟨46, _⟩ => ⟨S150000x128, .f32⟩
  | .hbm, ⟨47, _⟩ => ⟨S150000x128, .f32⟩
  | .local _ .vmem, ⟨0, _⟩ => ⟨S5000x128, .f32⟩
  | .local _ .vmem, ⟨1, _⟩ => ⟨S5000x128, .f32⟩
  | .local _ .vmem, ⟨2, _⟩ => ⟨S5000x6, .f32⟩
  | .local _ .vmem, ⟨3, _⟩ => ⟨S5000x6, .f32⟩
  | .local _ .vmem, ⟨4, _⟩ => ⟨S6x128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S9000x128, .f32⟩
  | .local _ .vmem, ⟨14, _⟩ => ⟨S9000x128, .f32⟩
  | .local _ .vmem, ⟨15, _⟩ => ⟨S9000x42, .f32⟩
  | .local _ .vmem, ⟨16, _⟩ => ⟨S9000x42, .f32⟩
  | .local _ .vmem, ⟨17, _⟩ => ⟨S42x8, .f32⟩
  | .local _ .vmem, ⟨18, _⟩ => ⟨S8x128x128, .f32⟩
  | .local _ .vmem, ⟨19, _⟩ => ⟨S9000x128, .f32⟩
  | .local _ .vmem, ⟨20, _⟩ => ⟨S9000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S3x2x128x128, .f32⟩
  | .local _ .vmem, ⟨28, _⟩ => ⟨S3x2x128, .f32⟩
  | .local _ .vmem, ⟨29, _⟩ => ⟨S128x128, .f32⟩
  | .local _ .vmem, ⟨30, _⟩ => ⟨S128, .f32⟩
  | .local _ .vmem, ⟨31, _⟩ => ⟨S5000x128, .f32⟩
  | .local _ .vmem, ⟨32, _⟩ => ⟨S5000x128, .f32⟩
  | _, _ => ⟨S150000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_cst : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S9000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S9000x42 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S42x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S9000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x2x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x2x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  inb_S5000x6_S5000x6_0_0 : ∀ a, (![0, 0] : Fin 2 → Nat) a + S5000x6.size a ≤ S5000x6.size a
  h_S5000x6 : 0 < S5000x6.numel
  inb_S6x128_S6x128_0_0 : ∀ a, (![0, 0] : Fin 2 → Nat) a + S6x128.size a ≤ S6x128.size a
  h_S6x128 : 0 < S6x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S450000 : S_.BroadcastsInDim S450000 (![] : Fin 0 → Fin S450000.rank)
  bcast_S450000_S450000x1_0 : S450000.BroadcastsInDim S450000x1 (![0] : Fin 1 → Fin S450000x1.rank)
  bcast_S_S450000x1 : S_.BroadcastsInDim S450000x1 (![] : Fin 0 → Fin S450000x1.rank)
  bcast_S1_S1x1_1 : S1.BroadcastsInDim S1x1 (![1] : Fin 1 → Fin S1x1.rank)
  bcast_S1x1_S450000x1_0_1 : S1x1.BroadcastsInDim S450000x1 (![0, 1] : Fin 2 → Fin S450000x1.rank)
  reducesTo_S450000x1_S450000_d1 : S450000x1.ReducesTo [1] S450000
  h_S_ : 0 < S_.numel
  bcast_S450000_S450000x128_0 : S450000.BroadcastsInDim S450000x128 (![0] : Fin 1 → Fin S450000x128.rank)
  bcast_S_S450000x128 : S_.BroadcastsInDim S450000x128 (![] : Fin 0 → Fin S450000x128.rank)
  transposes_S128x8x128_S8x128x128_1_2_0 : S128x8x128.Transposes [1, 2, 0] S8x128x128
  inb_S9000x128_S9000x128_0_0 : ∀ a, (![0, 0] : Fin 2 → Nat) a + S9000x128.size a ≤ S9000x128.size a
  h_S9000x128 : 0 < S9000x128.numel
  shapeCasts_S9000x128_S9000x128 : S9000x128.ShapeCasts S9000x128
  inb_S9000x42_S9000x42_0_0 : ∀ a, (![0, 0] : Fin 2 → Nat) a + S9000x42.size a ≤ S9000x42.size a
  h_S9000x42 : 0 < S9000x42.numel
  inb_S42x8_S42x8_0_0 : ∀ a, (![0, 0] : Fin 2 → Nat) a + S42x8.size a ≤ S42x8.size a
  h_S42x8 : 0 < S42x8.numel
  slices_S9000x8_o0_0_S9000x1 : S9000x8.Slices ![0, 0] S9000x1
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  broadcasts_S9000x1_S9000x128 : S9000x1.Broadcasts S9000x128
  slices_S9000x8_o0_1_S9000x1 : S9000x8.Slices ![0, 1] S9000x1
  inb_S8x128x128_S1x128x128_1_0_0 : ∀ a, (![1, 0, 0] : Fin 3 → Nat) a + S1x128x128.size a ≤ S8x128x128.size a
  slices_S9000x8_o0_2_S9000x1 : S9000x8.Slices ![0, 2] S9000x1
  inb_S8x128x128_S1x128x128_2_0_0 : ∀ a, (![2, 0, 0] : Fin 3 → Nat) a + S1x128x128.size a ≤ S8x128x128.size a
  slices_S9000x8_o0_3_S9000x1 : S9000x8.Slices ![0, 3] S9000x1
  inb_S8x128x128_S1x128x128_3_0_0 : ∀ a, (![3, 0, 0] : Fin 3 → Nat) a + S1x128x128.size a ≤ S8x128x128.size a
  slices_S9000x8_o0_4_S9000x1 : S9000x8.Slices ![0, 4] S9000x1
  inb_S8x128x128_S1x128x128_4_0_0 : ∀ a, (![4, 0, 0] : Fin 3 → Nat) a + S1x128x128.size a ≤ S8x128x128.size a
  slices_S9000x8_o0_5_S9000x1 : S9000x8.Slices ![0, 5] S9000x1
  inb_S8x128x128_S1x128x128_5_0_0 : ∀ a, (![5, 0, 0] : Fin 3 → Nat) a + S1x128x128.size a ≤ S8x128x128.size a
  slices_S9000x8_o0_6_S9000x1 : S9000x8.Slices ![0, 6] S9000x1
  inb_S8x128x128_S1x128x128_6_0_0 : ∀ a, (![6, 0, 0] : Fin 3 → Nat) a + S1x128x128.size a ≤ S8x128x128.size a
  slices_S9000x8_o0_7_S9000x1 : S9000x8.Slices ![0, 7] S9000x1
  inb_S8x128x128_S1x128x128_7_0_0 : ∀ a, (![7, 0, 0] : Fin 3 → Nat) a + S1x128x128.size a ≤ S8x128x128.size a
  bcast_S_S150000x128 : S_.BroadcastsInDim S150000x128 (![] : Fin 0 → Fin S150000x128.rank)
  shapeCasts_S5000x128_S5000x128 : S5000x128.ShapeCasts S5000x128
  inb_S3x2x128x128_S1x1x128x128_0_0_0_0 : ∀ a, (![0, 0, 0, 0] : Fin 4 → Nat) a + S1x1x128x128.size a ≤ S3x2x128x128.size a
  h_S1x1x128x128 : 0 < S1x1x128x128.numel
  shapeCasts_S1x1x128x128_S128x128 : S1x1x128x128.ShapeCasts S128x128
  inb_S3x2x128_S1x1x128_0_0_0 : ∀ a, (![0, 0, 0] : Fin 3 → Nat) a + S1x1x128.size a ≤ S3x2x128.size a
  h_S1x1x128 : 0 < S1x1x128.numel
  shapeCasts_S1x1x128_S128 : S1x1x128.ShapeCasts S128
  inb_S3x2x128x128_S1x1x128x128_0_1_0_0 : ∀ a, (![0, 1, 0, 0] : Fin 4 → Nat) a + S1x1x128x128.size a ≤ S3x2x128x128.size a
  inb_S3x2x128_S1x1x128_0_1_0 : ∀ a, (![0, 1, 0] : Fin 3 → Nat) a + S1x1x128.size a ≤ S3x2x128.size a
  inb_S3x2x128x128_S1x1x128x128_1_0_0_0 : ∀ a, (![1, 0, 0, 0] : Fin 4 → Nat) a + S1x1x128x128.size a ≤ S3x2x128x128.size a
  inb_S3x2x128_S1x1x128_1_0_0 : ∀ a, (![1, 0, 0] : Fin 3 → Nat) a + S1x1x128.size a ≤ S3x2x128.size a
  inb_S3x2x128x128_S1x1x128x128_1_1_0_0 : ∀ a, (![1, 1, 0, 0] : Fin 4 → Nat) a + S1x1x128x128.size a ≤ S3x2x128x128.size a
  inb_S3x2x128_S1x1x128_1_1_0 : ∀ a, (![1, 1, 0] : Fin 3 → Nat) a + S1x1x128.size a ≤ S3x2x128.size a
  inb_S3x2x128x128_S1x1x128x128_2_0_0_0 : ∀ a, (![2, 0, 0, 0] : Fin 4 → Nat) a + S1x1x128x128.size a ≤ S3x2x128x128.size a
  inb_S3x2x128_S1x1x128_2_0_0 : ∀ a, (![2, 0, 0] : Fin 3 → Nat) a + S1x1x128.size a ≤ S3x2x128.size a
  inb_S3x2x128x128_S1x1x128x128_2_1_0_0 : ∀ a, (![2, 1, 0, 0] : Fin 4 → Nat) a + S1x1x128x128.size a ≤ S3x2x128x128.size a
  inb_S3x2x128_S1x1x128_2_1_0 : ∀ a, (![2, 1, 0] : Fin 3 → Nat) a + S1x1x128.size a ≤ S3x2x128.size a
  dot_S5000x6_S6x128_S5000x128_1_0_0_1_n_n_wf : DotDims.WF S5000x6 S6x128 S5000x128 [1] [0] [0] [1] [] []
  dot_S5000x128_S128x128_S5000x128_1_0_0_1_n_n_wf : DotDims.WF S5000x128 S128x128 S5000x128 [1] [0] [0] [1] [] []
  gather_S150000x128_S450000x1_S450000x128_1_0_n_n_0_1_1128_wf : GatherDims.WF S150000x128 S450000x1 S450000x128 [1] [0] [] [0] [] 1 ![1, 128]
  dot_S9000x42_S42x8_S9000x8_1_0_0_1_n_n_wf : DotDims.WF S9000x42 S42x8 S9000x8 [1] [0] [0] [1] [] []
  dot_S9000x128_S128x128_S9000x128_1_0_0_1_n_n_wf : DotDims.WF S9000x128 S128x128 S9000x128 [1] [0] [0] [1] [] []
  scatter_S150000x128_S450000x1_S450000x128_1_0_0_1_wf : ScatterDims.WF S150000x128 S450000x1 S450000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S150000x128.size a
  hwx0_0 : ∀ i : grid0.Coords, EltTy.bits .f32 = 32 ∨ (Rect.block (s := S150000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x6.size a ≤ S150000x6.size a
  hwx0_1 : ∀ i : grid0.Coords, EltTy.bits .f32 = 32 ∨ (Rect.block (s := S150000x6) S5000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x128.size a ≤ S6x128.size a
  hwx0_2 : ∀ i : grid0.Coords, EltTy.bits .f32 = 32 ∨ (Rect.block (s := S6x128) S6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S150000x128.size a
  hwx0_7 : ∀ i : grid0.Coords, EltTy.bits .f32 = 32 ∨ (Rect.block (s := S150000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S150000x128.size a
  hwx0_8 : ∀ i : grid0.Coords, EltTy.bits .f32 = 32 ∨ (Rect.block (s := S150000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9000x128.size a ≤ S450000x128.size a
  hwx1_0 : ∀ i : grid1.Coords, EltTy.bits .f32 = 32 ∨ (Rect.block (s := S450000x128) S9000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S9000x42.size a ≤ S450000x42.size a
  hwx1_1 : ∀ i : grid1.Coords, EltTy.bits .f32 = 32 ∨ (Rect.block (s := S450000x42) S9000x42.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S42x8.size a ≤ S42x8.size a
  hwx1_2 : ∀ i : grid1.Coords, EltTy.bits .f32 = 32 ∨ (Rect.block (s := S42x8) S42x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x128x128.size a ≤ S8x128x128.size a
  hwx1_3 : ∀ i : grid1.Coords, EltTy.bits .f32 = 32 ∨ (Rect.block (s := S8x128x128) S8x128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S9000x128.size a ≤ S450000x128.size a
  hwx1_4 : ∀ i : grid1.Coords, EltTy.bits .f32 = 32 ∨ (Rect.block (s := S450000x128) S9000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S150000x128.size a
  hwx2_0 : ∀ i : grid2.Coords, EltTy.bits .f32 = 32 ∨ (Rect.block (s := S150000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S150000x128.size a
  hwx2_1 : ∀ i : grid2.Coords, EltTy.bits .f32 = 32 ∨ (Rect.block (s := S150000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S150000x128.size a
  hwx2_2 : ∀ i : grid2.Coords, EltTy.bits .f32 = 32 ∨ (Rect.block (s := S150000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x2x128x128.size a ≤ S3x2x128x128.size a
  hwx2_3 : ∀ i : grid2.Coords, EltTy.bits .f32 = 32 ∨ (Rect.block (s := S3x2x128x128) S3x2x128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x2x128.size a ≤ S3x2x128.size a
  hwx2_4 : ∀ i : grid2.Coords, EltTy.bits .f32 = 32 ∨ (Rect.block (s := S3x2x128) S3x2x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S150000x128.size a
  hwx2_7 : ∀ i : grid2.Coords, EltTy.bits .f32 = 32 ∨ (Rect.block (s := S150000x128) S5000x128.size (cc2_transform_7 i) (hinb2_7 i)).WholeWords (EltTy.packing .f32)

variable [Facts₀]

def dot_S5000x6_S6x128_S5000x128_1_0_0_1_n_n : DotDims S5000x6 S6x128 S5000x128 where
  lhsContracting := [1]
  rhsContracting := [0]
  lhsNonContracting := [0]
  rhsNonContracting := [1]
  lhsBatch := []
  rhsBatch := []
  wf := dot_S5000x6_S6x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S150000x128_S450000x1_S450000x128_1_0_n_n_0_1_1128 : GatherDims S150000x128 S450000x1 S450000x128 where
  offsetDims := [1]
  collapsedSliceDims := [0]
  operandBatchingDims := []
  startIndicesBatchingDims := []
  startIndexMap := [0]
  indexVectorDim := 1
  sliceSizes := ![1, 128]
  wf := gather_S150000x128_S450000x1_S450000x128_1_0_n_n_0_1_1128_wf
def dot_S9000x42_S42x8_S9000x8_1_0_0_1_n_n : DotDims S9000x42 S42x8 S9000x8 where
  lhsContracting := [1]
  rhsContracting := [0]
  lhsNonContracting := [0]
  rhsNonContracting := [1]
  lhsBatch := []
  rhsBatch := []
  wf := dot_S9000x42_S42x8_S9000x8_1_0_0_1_n_n_wf
def dot_S9000x128_S128x128_S9000x128_1_0_0_1_n_n : DotDims S9000x128 S128x128 S9000x128 where
  lhsContracting := [1]
  rhsContracting := [0]
  lhsNonContracting := [0]
  rhsNonContracting := [1]
  lhsBatch := []
  rhsBatch := []
  wf := dot_S9000x128_S128x128_S9000x128_1_0_0_1_n_n_wf
def scatter_S150000x128_S450000x1_S450000x128_1_0_0_1 : ScatterDims S150000x128 S450000x1 S450000x128 where
  updateWindowDims := [1]
  insertedWindowDims := [0]
  scatterDimsToOperandDims := [0]
  indexVectorDim := 1
  wf := scatter_S150000x128_S450000x1_S450000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v1) S9000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S9000x42.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S42x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S8x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S9000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S3x2x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S3x2x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S150000x128 : Shape := ⟨2, ![150000, 128]⟩
abbrev S150000x6 : Shape := ⟨2, ![150000, 6]⟩
abbrev S450000x42 : Shape := ⟨2, ![450000, 42]⟩
abbrev S450000 : Shape := ⟨1, ![450000]⟩
abbrev S6x128 : Shape := ⟨2, ![6, 128]⟩
abbrev S42x8 : Shape := ⟨2, ![42, 8]⟩
abbrev S128x128 : Shape := ⟨2, ![128, 128]⟩
abbrev S128 : Shape := ⟨1, ![128]⟩
abbrev S128x8x128 : Shape := ⟨3, ![128, 8, 128]⟩
abbrev S3x2x128x128 : Shape := ⟨4, ![3, 2, 128, 128]⟩
abbrev S3x2x128 : Shape := ⟨3, ![3, 2, 128]⟩
abbrev S450000x8 : Shape := ⟨2, ![450000, 8]⟩
abbrev S1x128 : Shape := ⟨2, ![1, 128]⟩
abbrev S_ : Shape := ⟨0, ![]⟩
abbrev S450000x1 : Shape := ⟨2, ![450000, 1]⟩
abbrev S450000x128 : Shape := ⟨2, ![450000, 128]⟩
abbrev S128x1x128 : Shape := ⟨3, ![128, 1, 128]⟩
abbrev S1x2x128x128 : Shape := ⟨4, ![1, 2, 128, 128]⟩
abbrev S2x128x128 : Shape := ⟨3, ![2, 128, 128]⟩
abbrev S1x2x128 : Shape := ⟨3, ![1, 2, 128]⟩
abbrev S2x128 : Shape := ⟨2, ![2, 128]⟩
abbrev S1x128x128 : Shape := ⟨3, ![1, 128, 128]⟩

abbrev nBuf : Space → Nat
  | .hbm => 253
  | .vmem => 0
  | .smem => 0
  | _ => 0

abbrev hbmTy0_0 (i : Nat) : BufTy := match i % 128 with
  | 0 => ⟨S150000x128, .f32⟩
  | 1 => ⟨S150000x6, .f32⟩
  | 2 => ⟨S450000x42, .f32⟩
  | 3 => ⟨S450000, .i32⟩
  | 4 => ⟨S450000, .i32⟩
  | 5 => ⟨S6x128, .f32⟩
  | 6 => ⟨S42x8, .f32⟩
  | 7 => ⟨S128x128, .f32⟩
  | 8 => ⟨S128, .f32⟩
  | 9 => ⟨S128x128, .f32⟩
  | 10 => ⟨S128, .f32⟩
  | 11 => ⟨S128x8x128, .f32⟩
  | 12 => ⟨S3x2x128x128, .f32⟩
  | 13 => ⟨S3x2x128, .f32⟩
  | 14 => ⟨S128x128, .f32⟩
  | 15 => ⟨S128, .f32⟩
  | 16 => ⟨S150000x128, .f32⟩
  | 17 => ⟨S450000x8, .f32⟩
  | 18 => ⟨S150000x128, .f32⟩
  | 19 => ⟨S1x128, .f32⟩
  | 20 => ⟨S150000x128, .f32⟩
  | 21 => ⟨S150000x128, .f32⟩
  | 22 => ⟨S150000x128, .f32⟩
  | 23 => ⟨S150000x128, .f32⟩
  | 24 => ⟨S_, .f32⟩
  | 25 => ⟨S150000x128, .f32⟩
  | 26 => ⟨S150000x128, .f32⟩
  | 27 => ⟨S_, .f32⟩
  | 28 => ⟨S150000x128, .f32⟩
  | 29 => ⟨S150000x128, .f32⟩
  | 30 => ⟨S150000x128, .f32⟩
  | 31 => ⟨S150000x128, .f32⟩
  | 32 => ⟨S1x128, .f32⟩
  | 33 => ⟨S150000x128, .f32⟩
  | 34 => ⟨S150000x128, .f32⟩
  | 35 => ⟨S150000x128, .f32⟩
  | 36 => ⟨S150000x128, .f32⟩
  | 37 => ⟨S_, .f32⟩
  | 38 => ⟨S150000x128, .f32⟩
  | 39 => ⟨S150000x128, .f32⟩
  | 40 => ⟨S_, .f32⟩
  | 41 => ⟨S150000x128, .f32⟩
  | 42 => ⟨S150000x128, .f32⟩
  | 43 => ⟨S150000x128, .f32⟩
  | 44 => ⟨S150000x128, .f32⟩
  | 45 => ⟨S_, .i32⟩
  | 46 => ⟨S450000, .i32⟩
  | 47 => ⟨S450000, .i1⟩
  | 48 => ⟨S_, .i32⟩
  | 49 => ⟨S450000, .i32⟩
  | 50 => ⟨S450000, .i32⟩
  | 51 => ⟨S450000, .i32⟩
  | 52 => ⟨S450000x1, .i32⟩
  | 53 => ⟨S450000x128, .f32⟩
  | 54 => ⟨S450000x1, .f32⟩
  | 55 => ⟨S128x1x128, .f32⟩
  | 56 => ⟨S128x128, .f32⟩
  | 57 => ⟨S128x128, .f32⟩
  | 58 => ⟨S450000x128, .f32⟩
  | 59 => ⟨S450000x128, .f32⟩
  | 60 => ⟨S450000x128, .f32⟩
  | 61 => ⟨S450000x1, .f32⟩
  | 62 => ⟨S128x1x128, .f32⟩
  | 63 => ⟨S128x128, .f32⟩
  | 64 => ⟨S128x128, .f32⟩
  | 65 => ⟨S450000x128, .f32⟩
  | 66 => ⟨S450000x128, .f32⟩
  | 67 => ⟨S450000x128, .f32⟩
  | 68 => ⟨S450000x128, .f32⟩
  | 69 => ⟨S450000x1, .f32⟩
  | 70 => ⟨S128x1x128, .f32⟩
  | 71 => ⟨S128x128, .f32⟩
  | 72 => ⟨S128x128, .f32⟩
  | 73 => ⟨S450000x128, .f32⟩
  | 74 => ⟨S450000x128, .f32⟩
  | 75 => ⟨S450000x128, .f32⟩
  | 76 => ⟨S450000x128, .f32⟩
  | 77 => ⟨S450000x1, .f32⟩
  | 78 => ⟨S128x1x128, .f32⟩
  | 79 => ⟨S128x128, .f32⟩
  | 80 => ⟨S128x128, .f32⟩
  | 81 => ⟨S450000x128, .f32⟩
  | 82 => ⟨S450000x128, .f32⟩
  | 83 => ⟨S450000x128, .f32⟩
  | 84 => ⟨S450000x128, .f32⟩
  | 85 => ⟨S450000x1, .f32⟩
  | 86 => ⟨S128x1x128, .f32⟩
  | 87 => ⟨S128x128, .f32⟩
  | 88 => ⟨S128x128, .f32⟩
  | 89 => ⟨S450000x128, .f32⟩
  | 90 => ⟨S450000x128, .f32⟩
  | 91 => ⟨S450000x128, .f32⟩
  | 92 => ⟨S450000x128, .f32⟩
  | 93 => ⟨S450000x1, .f32⟩
  | 94 => ⟨S128x1x128, .f32⟩
  | 95 => ⟨S128x128, .f32⟩
  | 96 => ⟨S128x128, .f32⟩
  | 97 => ⟨S450000x128, .f32⟩
  | 98 => ⟨S450000x128, .f32⟩
  | 99 => ⟨S450000x128, .f32⟩
  | 100 => ⟨S450000x128, .f32⟩
  | 101 => ⟨S450000x1, .f32⟩
  | 102 => ⟨S128x1x128, .f32⟩
  | 103 => ⟨S128x128, .f32⟩
  | 104 => ⟨S128x128, .f32⟩
  | 105 => ⟨S450000x128, .f32⟩
  | 106 => ⟨S450000x128, .f32⟩
  | 107 => ⟨S450000x128, .f32⟩
  | 108 => ⟨S450000x128, .f32⟩
  | 109 => ⟨S450000x1, .f32⟩
  | 110 => ⟨S128x1x128, .f32⟩
  | 111 => ⟨S128x128, .f32⟩
  | 112 => ⟨S128x128, .f32⟩
  | 113 => ⟨S450000x128, .f32⟩
  | 114 => ⟨S450000x128, .f32⟩
  | 115 => ⟨S450000x128, .f32⟩
  | 116 => ⟨S450000x128, .f32⟩
  | 117 => ⟨S_, .f32⟩
  | 118 => ⟨S150000x128, .f32⟩
  | 119 => ⟨S450000x1, .i32⟩
  | 120 => ⟨S150000x128, .f32⟩
  | 121 => ⟨S150000x128, .f32⟩
  | 122 => ⟨S1x2x128x128, .f32⟩
  | 123 => ⟨S2x128x128, .f32⟩
  | 124 => ⟨S1x2x128, .f32⟩
  | 125 => ⟨S2x128, .f32⟩
  | 126 => ⟨S1x128x128, .f32⟩
  | 127 => ⟨S128x128, .f32⟩
  | _ => ⟨S150000x128, .f32⟩

abbrev hbmTy0_1 (i : Nat) : BufTy := match i % 128 with
  | 0 => ⟨S150000x128, .f32⟩
  | 1 => ⟨S1x128, .f32⟩
  | 2 => ⟨S128, .f32⟩
  | 3 => ⟨S1x128, .f32⟩
  | 4 => ⟨S150000x128, .f32⟩
  | 5 => ⟨S150000x128, .f32⟩
  | 6 => ⟨S150000x128, .f32⟩
  | 7 => ⟨S150000x128, .f32⟩
  | 8 => ⟨S_, .f32⟩
  | 9 => ⟨S150000x128, .f32⟩
  | 10 => ⟨S150000x128, .f32⟩
  | 11 => ⟨S_, .f32⟩
  | 12 => ⟨S150000x128, .f32⟩
  | 13 => ⟨S150000x128, .f32⟩
  | 14 => ⟨S150000x128, .f32⟩
  | 15 => ⟨S1x128x128, .f32⟩
  | 16 => ⟨S128x128, .f32⟩
  | 17 => ⟨S150000x128, .f32⟩
  | 18 => ⟨S1x128, .f32⟩
  | 19 => ⟨S128, .f32⟩
  | 20 => ⟨S1x128, .f32⟩
  | 21 => ⟨S150000x128, .f32⟩
  | 22 => ⟨S150000x128, .f32⟩
  | 23 => ⟨S150000x128, .f32⟩
  | 24 => ⟨S150000x128, .f32⟩
  | 25 => ⟨S_, .f32⟩
  | 26 => ⟨S150000x128, .f32⟩
  | 27 => ⟨S150000x128, .f32⟩
  | 28 => ⟨S_, .f32⟩
  | 29 => ⟨S150000x128, .f32⟩
  | 30 => ⟨S150000x128, .f32⟩
  | 31 => ⟨S150000x128, .f32⟩
  | 32 => ⟨S150000x128, .f32⟩
  | 33 => ⟨S150000x128, .f32⟩
  | 34 => ⟨S1x128, .f32⟩
  | 35 => ⟨S150000x128, .f32⟩
  | 36 => ⟨S150000x128, .f32⟩
  | 37 => ⟨S150000x128, .f32⟩
  | 38 => ⟨S150000x128, .f32⟩
  | 39 => ⟨S_, .f32⟩
  | 40 => ⟨S150000x128, .f32⟩
  | 41 => ⟨S150000x128, .f32⟩
  | 42 => ⟨S_, .f32⟩
  | 43 => ⟨S150000x128, .f32⟩
  | 44 => ⟨S150000x128, .f32⟩
  | 45 => ⟨S150000x128, .f32⟩
  | 46 => ⟨S150000x128, .f32⟩
  | 47 => ⟨S1x2x128x128, .f32⟩
  | 48 => ⟨S2x128x128, .f32⟩
  | 49 => ⟨S1x2x128, .f32⟩
  | 50 => ⟨S2x128, .f32⟩
  | 51 => ⟨S1x128x128, .f32⟩
  | 52 => ⟨S128x128, .f32⟩
  | 53 => ⟨S150000x128, .f32⟩
  | 54 => ⟨S1x128, .f32⟩
  | 55 => ⟨S128, .f32⟩
  | 56 => ⟨S1x128, .f32⟩
  | 57 => ⟨S150000x128, .f32⟩
  | 58 => ⟨S150000x128, .f32⟩
  | 59 => ⟨S150000x128, .f32⟩
  | 60 => ⟨S150000x128, .f32⟩
  | 61 => ⟨S_, .f32⟩
  | 62 => ⟨S150000x128, .f32⟩
  | 63 => ⟨S150000x128, .f32⟩
  | 64 => ⟨S_, .f32⟩
  | 65 => ⟨S150000x128, .f32⟩
  | 66 => ⟨S150000x128, .f32⟩
  | 67 => ⟨S150000x128, .f32⟩
  | 68 => ⟨S1x128x128, .f32⟩
  | 69 => ⟨S128x128, .f32⟩
  | 70 => ⟨S150000x128, .f32⟩
  | 71 => ⟨S1x128, .f32⟩
  | 72 => ⟨S128, .f32⟩
  | 73 => ⟨S1x128, .f32⟩
  | 74 => ⟨S150000x128, .f32⟩
  | 75 => ⟨S150000x128, .f32⟩
  | 76 => ⟨S150000x128, .f32⟩
  | 77 => ⟨S150000x128, .f32⟩
  | 78 => ⟨S_, .f32⟩
  | 79 => ⟨S150000x128, .f32⟩
  | 80 => ⟨S150000x128, .f32⟩
  | 81 => ⟨S_, .f32⟩
  | 82 => ⟨S150000x128, .f32⟩
  | 83 => ⟨S150000x128, .f32⟩
  | 84 => ⟨S150000x128, .f32⟩
  | 85 => ⟨S150000x128, .f32⟩
  | 86 => ⟨S1x2x128x128, .f32⟩
  | 87 => ⟨S2x128x128, .f32⟩
  | 88 => ⟨S1x2x128, .f32⟩
  | 89 => ⟨S2x128, .f32⟩
  | 90 => ⟨S1x128x128, .f32⟩
  | 91 => ⟨S128x128, .f32⟩
  | 92 => ⟨S150000x128, .f32⟩
  | 93 => ⟨S1x128, .f32⟩
  | 94 => ⟨S128, .f32⟩
  | 95 => ⟨S1x128, .f32⟩
  | 96 => ⟨S150000x128, .f32⟩
  | 97 => ⟨S150000x128, .f32⟩
  | 98 => ⟨S150000x128, .f32⟩
  | 99 => ⟨S150000x128, .f32⟩
  | 100 => ⟨S_, .f32⟩
  | 101 => ⟨S150000x128, .f32⟩
  | 102 => ⟨S150000x128, .f32⟩
  | 103 => ⟨S_, .f32⟩
  | 104 => ⟨S150000x128, .f32⟩
  | 105 => ⟨S150000x128, .f32⟩
  | 106 => ⟨S150000x128, .f32⟩
  | 107 => ⟨S1x128x128, .f32⟩
  | 108 => ⟨S128x128, .f32⟩
  | 109 => ⟨S150000x128, .f32⟩
  | 110 => ⟨S1x128, .f32⟩
  | 111 => ⟨S128, .f32⟩
  | 112 => ⟨S1x128, .f32⟩
  | 113 => ⟨S150000x128, .f32⟩
  | 114 => ⟨S150000x128, .f32⟩
  | 115 => ⟨S150000x128, .f32⟩
  | 116 => ⟨S150000x128, .f32⟩
  | 117 => ⟨S_, .f32⟩
  | 118 => ⟨S150000x128, .f32⟩
  | 119 => ⟨S150000x128, .f32⟩
  | 120 => ⟨S_, .f32⟩
  | 121 => ⟨S150000x128, .f32⟩
  | 122 => ⟨S150000x128, .f32⟩
  | 123 => ⟨S150000x128, .f32⟩
  | 124 => ⟨S150000x128, .f32⟩
  | _ => ⟨S150000x128, .f32⟩

abbrev hbmTy (i : Nat) : BufTy := match i / 128 with
  | 0 => hbmTy0_0 i
  | 1 => hbmTy0_1 i
  | _ => ⟨S150000x128, .f32⟩

abbrev bufTy : (tb : Table) → Fin (tcTables nBuf tb) → BufTy
  | .hbm, ⟨i, _⟩ => hbmTy i
  | _, _ => ⟨S150000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v11 : Ref sig .tc := ⟨.hbm, 43, rfl⟩
abbrev main_v12 : Ref sig .tc := ⟨.hbm, 44, rfl⟩
abbrev main_c : Ref sig .tc := ⟨.hbm, 45, rfl⟩
abbrev main_v13 : Ref sig .tc := ⟨.hbm, 46, rfl⟩
abbrev main_v14 : Ref sig .tc := ⟨.hbm, 47, rfl⟩
abbrev main_c_0 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call2_v0 : Ref sig .tc := ⟨.hbm, 134, rfl⟩
abbrev main_call2_v1 : Ref sig .tc := ⟨.hbm, 135, rfl⟩
abbrev main_call2_cst : Ref sig .tc := ⟨.hbm, 136, rfl⟩
abbrev main_call2_v2 : Ref sig .tc := ⟨.hbm, 137, rfl⟩
abbrev main_call2_v3 : Ref sig .tc := ⟨.hbm, 138, rfl⟩
abbrev main_call2_cst_0 : Ref sig .tc := ⟨.hbm, 139, rfl⟩
abbrev main_call2_v4 : Ref sig .tc := ⟨.hbm, 140, rfl⟩
abbrev main_call2_v5 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_call3_v0 : Ref sig .tc := ⟨.hbm, 151, rfl⟩
abbrev main_call3_v1 : Ref sig .tc := ⟨.hbm, 152, rfl⟩
abbrev main_call3_cst : Ref sig .tc := ⟨.hbm, 153, rfl⟩
abbrev main_call3_v2 : Ref sig .tc := ⟨.hbm, 154, rfl⟩
abbrev main_call3_v3 : Ref sig .tc := ⟨.hbm, 155, rfl⟩
abbrev main_call3_cst_0 : Ref sig .tc := ⟨.hbm, 156, rfl⟩
abbrev main_call3_v4 : Ref sig .tc := ⟨.hbm, 157, rfl⟩
abbrev main_call3_v5 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_call4_v0 : Ref sig .tc := ⟨.hbm, 165, rfl⟩
abbrev main_call4_v1 : Ref sig .tc := ⟨.hbm, 166, rfl⟩
abbrev main_call4_cst : Ref sig .tc := ⟨.hbm, 167, rfl⟩
abbrev main_call4_v2 : Ref sig .tc := ⟨.hbm, 168, rfl⟩
abbrev main_call4_v3 : Ref sig .tc := ⟨.hbm, 169, rfl⟩
abbrev main_call4_cst_0 : Ref sig .tc := ⟨.hbm, 170, rfl⟩
abbrev main_call4_v4 : Ref sig .tc := ⟨.hbm, 171, rfl⟩
abbrev main_call4_v5 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_call5_v0 : Ref sig .tc := ⟨.hbm, 187, rfl⟩
abbrev main_call5_v1 : Ref sig .tc := ⟨.hbm, 188, rfl⟩
abbrev main_call5_cst : Ref sig .tc := ⟨.hbm, 189, rfl⟩
abbrev main_call5_v2 : Ref sig .tc := ⟨.hbm, 190, rfl⟩
abbrev main_call5_v3 : Ref sig .tc := ⟨.hbm, 191, rfl⟩
abbrev main_call5_cst_0 : Ref sig .tc := ⟨.hbm, 192, rfl⟩
abbrev main_call5_v4 : Ref sig .tc := ⟨.hbm, 193, rfl⟩
abbrev main_call5_v5 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_call6_v0 : Ref sig .tc := ⟨.hbm, 204, rfl⟩
abbrev main_call6_v1 : Ref sig .tc := ⟨.hbm, 205, rfl⟩
abbrev main_call6_cst : Ref sig .tc := ⟨.hbm, 206, rfl⟩
abbrev main_call6_v2 : Ref sig .tc := ⟨.hbm, 207, rfl⟩
abbrev main_call6_v3 : Ref sig .tc := ⟨.hbm, 208, rfl⟩
abbrev main_call6_cst_0 : Ref sig .tc := ⟨.hbm, 209, rfl⟩
abbrev main_call6_v4 : Ref sig .tc := ⟨.hbm, 210, rfl⟩
abbrev main_call6_v5 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_call7_v0 : Ref sig .tc := ⟨.hbm, 226, rfl⟩
abbrev main_call7_v1 : Ref sig .tc := ⟨.hbm, 227, rfl⟩
abbrev main_call7_cst : Ref sig .tc := ⟨.hbm, 228, rfl⟩
abbrev main_call7_v2 : Ref sig .tc := ⟨.hbm, 229, rfl⟩
abbrev main_call7_v3 : Ref sig .tc := ⟨.hbm, 230, rfl⟩
abbrev main_call7_cst_0 : Ref sig .tc := ⟨.hbm, 231, rfl⟩
abbrev main_call7_v4 : Ref sig .tc := ⟨.hbm, 232, rfl⟩
abbrev main_call7_v5 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_call8_v0 : Ref sig .tc := ⟨.hbm, 243, rfl⟩
abbrev main_call8_v1 : Ref sig .tc := ⟨.hbm, 244, rfl⟩
abbrev main_call8_cst : Ref sig .tc := ⟨.hbm, 245, rfl⟩
abbrev main_call8_v2 : Ref sig .tc := ⟨.hbm, 246, rfl⟩
abbrev main_call8_v3 : Ref sig .tc := ⟨.hbm, 247, rfl⟩
abbrev main_call8_cst_0 : Ref sig .tc := ⟨.hbm, 248, rfl⟩
abbrev main_call8_v4 : Ref sig .tc := ⟨.hbm, 249, rfl⟩
abbrev main_call8_v5 : Ref sig .tc := ⟨.hbm, 250, rfl⟩
abbrev main_v160 : Ref sig .tc := ⟨.hbm, 251, rfl⟩
abbrev main_v161 : Ref sig .tc := ⟨.hbm, 252, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S150000x128_0_1 : S1x128.BroadcastsInDim S150000x128 (![0, 1] : Fin 2 → Fin S150000x128.rank)
  bcast_S_S150000x128 : S_.BroadcastsInDim S150000x128 (![] : Fin 0 → Fin S150000x128.rank)
  bcast_S_S450000 : S_.BroadcastsInDim S450000 (![] : Fin 0 → Fin S450000.rank)
  bcast_S450000_S450000x1_0 : S450000.BroadcastsInDim S450000x1 (![0] : Fin 1 → Fin S450000x1.rank)
  slices_S450000x8_S450000x1_0_0 : S450000x8.Slices ![0, 0] S450000x1
  slices_S128x8x128_S128x1x128_0_0_0 : S128x8x128.Slices ![0, 0, 0] S128x1x128
  shapeCasts_S128x1x128_S128x128 : S128x1x128.ShapeCasts S128x128
  transposes_S128x128_S128x128_1_0 : S128x128.Transposes [1, 0] S128x128
  bcast_S450000x1_S450000x128_0_1 : S450000x1.BroadcastsInDim S450000x128 (![0, 1] : Fin 2 → Fin S450000x128.rank)
  slices_S450000x8_S450000x1_0_1 : S450000x8.Slices ![0, 1] S450000x1
  slices_S128x8x128_S128x1x128_0_1_0 : S128x8x128.Slices ![0, 1, 0] S128x1x128
  slices_S450000x8_S450000x1_0_2 : S450000x8.Slices ![0, 2] S450000x1
  slices_S128x8x128_S128x1x128_0_2_0 : S128x8x128.Slices ![0, 2, 0] S128x1x128
  slices_S450000x8_S450000x1_0_3 : S450000x8.Slices ![0, 3] S450000x1
  slices_S128x8x128_S128x1x128_0_3_0 : S128x8x128.Slices ![0, 3, 0] S128x1x128
  slices_S450000x8_S450000x1_0_4 : S450000x8.Slices ![0, 4] S450000x1
  slices_S128x8x128_S128x1x128_0_4_0 : S128x8x128.Slices ![0, 4, 0] S128x1x128
  slices_S450000x8_S450000x1_0_5 : S450000x8.Slices ![0, 5] S450000x1
  slices_S128x8x128_S128x1x128_0_5_0 : S128x8x128.Slices ![0, 5, 0] S128x1x128
  slices_S450000x8_S450000x1_0_6 : S450000x8.Slices ![0, 6] S450000x1
  slices_S128x8x128_S128x1x128_0_6_0 : S128x8x128.Slices ![0, 6, 0] S128x1x128
  slices_S450000x8_S450000x1_0_7 : S450000x8.Slices ![0, 7] S450000x1
  slices_S128x8x128_S128x1x128_0_7_0 : S128x8x128.Slices ![0, 7, 0] S128x1x128
  slices_S3x2x128x128_S1x2x128x128_0_0_0_0 : S3x2x128x128.Slices ![0, 0, 0, 0] S1x2x128x128
  shapeCasts_S1x2x128x128_S2x128x128 : S1x2x128x128.ShapeCasts S2x128x128
  slices_S3x2x128_S1x2x128_0_0_0 : S3x2x128.Slices ![0, 0, 0] S1x2x128
  shapeCasts_S1x2x128_S2x128 : S1x2x128.ShapeCasts S2x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  slices_S3x2x128x128_S1x2x128x128_1_0_0_0 : S3x2x128x128.Slices ![1, 0, 0, 0] S1x2x128x128
  slices_S3x2x128_S1x2x128_1_0_0 : S3x2x128.Slices ![1, 0, 0] S1x2x128
  slices_S3x2x128x128_S1x2x128x128_2_0_0_0 : S3x2x128x128.Slices ![2, 0, 0, 0] S1x2x128x128
  slices_S3x2x128_S1x2x128_2_0_0 : S3x2x128.Slices ![2, 0, 0] S1x2x128
  dot_S150000x6_S6x128_S150000x128_1_0_0_1_n_n_wf : DotDims.WF S150000x6 S6x128 S150000x128 [1] [0] [0] [1] [] []
  dot_S450000x42_S42x8_S450000x8_1_0_0_1_n_n_wf : DotDims.WF S450000x42 S42x8 S450000x8 [1] [0] [0] [1] [] []
  dot_S150000x128_S128x128_S150000x128_1_0_0_1_n_n_wf : DotDims.WF S150000x128 S128x128 S150000x128 [1] [0] [0] [1] [] []
  gather_S150000x128_S450000x1_S450000x128_1_0_n_n_0_1_1128_wf : GatherDims.WF S150000x128 S450000x1 S450000x128 [1] [0] [] [0] [] 1 ![1, 128]
  dot_S450000x128_S128x128_S450000x128_1_0_0_1_n_n_wf : DotDims.WF S450000x128 S128x128 S450000x128 [1] [0] [0] [1] [] []
  scatter_S150000x128_S450000x1_S450000x128_1_0_0_1_wf : ScatterDims.WF S150000x128 S450000x1 S450000x128 [1] [0] [0] 1

variable [Facts₀]

def dot_S150000x6_S6x128_S150000x128_1_0_0_1_n_n : DotDims S150000x6 S6x128 S150000x128 where
  lhsContracting := [1]
  rhsContracting := [0]
  lhsNonContracting := [0]
  rhsNonContracting := [1]
  lhsBatch := []
  rhsBatch := []
  wf := dot_S150000x6_S6x128_S150000x128_1_0_0_1_n_n_wf
def dot_S450000x42_S42x8_S450000x8_1_0_0_1_n_n : DotDims S450000x42 S42x8 S450000x8 where
  lhsContracting := [1]
  rhsContracting := [0]
  lhsNonContracting := [0]
  rhsNonContracting := [1]
  lhsBatch := []
  rhsBatch := []
  wf := dot_S450000x42_S42x8_S450000x8_1_0_0_1_n_n_wf
def dot_S150000x128_S128x128_S150000x128_1_0_0_1_n_n : DotDims S150000x128 S128x128 S150000x128 where
  lhsContracting := [1]
  rhsContracting := [0]
  lhsNonContracting := [0]
  rhsNonContracting := [1]
  lhsBatch := []
  rhsBatch := []
  wf := dot_S150000x128_S128x128_S150000x128_1_0_0_1_n_n_wf
def gather_S150000x128_S450000x1_S450000x128_1_0_n_n_0_1_1128 : GatherDims S150000x128 S450000x1 S450000x128 where
  offsetDims := [1]
  collapsedSliceDims := [0]
  operandBatchingDims := []
  startIndicesBatchingDims := []
  startIndexMap := [0]
  indexVectorDim := 1
  sliceSizes := ![1, 128]
  wf := gather_S150000x128_S450000x1_S450000x128_1_0_n_n_0_1_1128_wf
def dot_S450000x128_S128x128_S450000x128_1_0_0_1_n_n : DotDims S450000x128 S128x128 S450000x128 where
  lhsContracting := [1]
  rhsContracting := [0]
  lhsNonContracting := [0]
  rhsNonContracting := [1]
  lhsBatch := []
  rhsBatch := []
  wf := dot_S450000x128_S128x128_S450000x128_1_0_0_1_n_n_wf
def scatter_S150000x128_S450000x1_S450000x128_1_0_0_1 : ScatterDims S150000x128 S450000x1 S450000x128 where
  updateWindowDims := [1]
  insertedWindowDims := [0]
  scatterDimsToOperandDims := [0]
  indexVectorDim := 1
  wf := scatter_S150000x128_S450000x1_S450000x128_1_0_0_1_wf

class Facts : Prop extends Facts₀ where

variable [Facts]
-- ==== Proof.Spec.lean ====
/-
  The mathematics of the interaction block, stated once on matrices of extended reals and generic in the
  number of rows. Every stage acts row by row: a row of the result depends on the same row of the row-indexed
  operands and on the weights. So a tile of consecutive rows of a stage of whole arrays is that stage of the
  tiles (`tile_*`), which is what lets a row-tiled computation be compared with a whole-array one.
-/
import Idealize.ShloMosaic.PureOps.Ideal
import Idealize.ShloMosaic.Lib.ValueIdx

noncomputable section

namespace Cert.Spec

open Idealize.ShloMosaic Idealize.ShloMosaic.ValueIdx

/-- A matrix of extended reals with `n` rows and `c` columns. -/
abbrev Mat (n c : Nat) : Type := FVec Ideal (⟨2, ![n, c]⟩ : Shape) .f32
/-- A vector of extended reals of length `c`. -/
abbrev Vc (c : Nat) : Type := FVec Ideal (⟨1, ![c]⟩ : Shape) .f32

/-- Row and column of a matrix index, as plain `Fin`s. -/
abbrev rowOf {n c : Nat} (i : (⟨2, ![n, c]⟩ : Shape).Idx) : Fin n := ⟨(i 0).val, idx2_lt0 i⟩
abbrev colOf {n c : Nat} (i : (⟨2, ![n, c]⟩ : Shape).Idx) : Fin c := ⟨(i 1).val, idx2_lt1 i⟩

theorem rowOf_ix2 {n c : Nat} (p : Fin n) (q : Fin c) : rowOf (ix2 p q) = p := rfl
theorem colOf_ix2 {n c : Nat} (p : Fin n) (q : Fin c) : colOf (ix2 p q) = q := rfl

/-- The swish activation `z · σ(z)`, `σ(z) = 1 / (1 + e^(-z))`. -/
def swish (z : EReal) : EReal := z * Ideal.logistic z

/-- The product of a matrix with a weight matrix: entry `(r, q)` is `∑ k, A r k · w k q`. -/
def lin {n K c : Nat} (A : Mat n K) (w : Mat K c) : Mat n c :=
  fun i => ∑ k : Fin K, A (ix2 (rowOf i) k) * w (ix2 k (colOf i))

theorem lin_apply {n K c : Nat} (A : Mat n K) (w : Mat K c) (p : Fin n) (q : Fin c) :
    lin A w (ix2 p q) = ∑ k : Fin K, A (ix2 p k) * w (ix2 k q) := rfl

/-- A dense layer with swish: entry `(r, q)` is `swish (∑ k, A r k · w k q + b q)`. -/
def dense {n K c : Nat} (A : Mat n K) (w : Mat K c) (b : Vc c) : Mat n c :=
  fun i => swish (lin A w i + b (ix1 (colOf i)))

theorem dense_apply {n K c : Nat} (A : Mat n K) (w : Mat K c) (b : Vc c) (p : Fin n) (q : Fin c) :
    dense A w b (ix2 p q) = swish ((∑ k : Fin K, A (ix2 p k) * w (ix2 k q)) + b (ix1 q)) := rfl

/-- Entrywise sum and product. -/
def madd {n c : Nat} (A B : Mat n c) : Mat n c := fun i => A i + B i
def mmul {n c : Nat} (A B : Mat n c) : Mat n c := fun i => A i * B i

theorem madd_apply {n c : Nat} (A B : Mat n c) (i) : madd A B i = A i + B i := rfl
theorem mmul_apply {n c : Nat} (A B : Mat n c) (i) : mmul A B i = A i * B i := rfl

/-! ## Weights read out of their stacked arrays -/

/-- The entry of a length-`c` vector index, as a plain `Fin`. -/
abbrev elOf {c : Nat} (i : (⟨1, ![c]⟩ : Shape).Idx) : Fin c := ⟨(i 0).val, (i 0).isLt⟩

/-- Layer `(l, s)` of the stacked residual weights `[3, 2, 128, 128]`, as a matrix (rows: input feature). -/
def wres (W : FVec Ideal (⟨4, ![3, 2, 128, 128]⟩ : Shape) .f32) (l : Fin 3) (s : Fin 2) : Mat 128 128 :=
  fun i => W (ix4 l s (rowOf i) (colOf i))
/-- Layer `(l, s)` of the stacked residual biases `[3, 2, 128]`. -/
def bres (B : FVec Ideal (⟨3, ![3, 2, 128]⟩ : Shape) .f32) (l : Fin 3) (s : Fin 2) : Vc 128 :=
  fun i => B (ix3 l s (elOf i))
/-- Slice `b` of bilinear weights laid out `[8, in, out]`, as the matrix `(in, out)`. -/
def wbt (W : FVec Ideal (⟨3, ![8, 128, 128]⟩ : Shape) .f32) (b : Fin 8) : Mat 128 128 :=
  fun i => W (ix3 b (rowOf i) (colOf i))
/-- Slice `b` of bilinear weights laid out `[out, 8, in]`, as the matrix `(in, out)`: the transpose of `W[:, b, :]`. -/
def wbil (W : FVec Ideal (⟨3, ![128, 8, 128]⟩ : Shape) .f32) (b : Fin 8) : Mat 128 128 :=
  fun i => W (ix3 (colOf i) b (rowOf i))

theorem wres_apply (W) (l : Fin 3) (s : Fin 2) (a b : Fin 128) : wres W l s (ix2 a b) = W (ix4 l s a b) := rfl
theorem bres_apply (B) (l : Fin 3) (s : Fin 2) (a : Fin 128) : bres B l s (ix1 a) = B (ix3 l s a) := rfl
theorem wbt_apply (W) (b : Fin 8) (j o : Fin 128) : wbt W b (ix2 j o) = W (ix3 b j o) := rfl
theorem wbil_apply (W) (b : Fin 8) (j o : Fin 128) : wbil W b (ix2 j o) = W (ix3 o b j) := rfl

/-! ## The three stages -/

/-- The gated edge message: `swish (X · Wkj + bkj) ⊙ (RBF · Wrbf)`. -/
def gated {n : Nat} (X : Mat n 128) (RBF : Mat n 6) (Wrbf : Mat 6 128) (Wkj : Mat 128 128) (bkj : Vc 128) : Mat n 128 :=
  mmul (dense X Wkj bkj) (lin RBF Wrbf)

/-- The sum of eight terms taken from the left, as both programs add them. -/
def sum8 (f : Fin 8 → EReal) : EReal := ((((((f 0 + f 1) + f 2) + f 3) + f 4) + f 5) + f 6) + f 7

/-- The bilinear fuse: entry `(r, q)` is the left-associated sum over `b` of `(SBF · Wsbf) r b · (T · wb b) r q`. -/
def bilinear {n : Nat} (T : Mat n 128) (SBF : Mat n 42) (Wsbf : Mat 42 8) (wb : Fin 8 → Mat 128 128) : Mat n 128 :=
  fun i => sum8 fun b => lin SBF Wsbf (ix2 (rowOf i) b) * lin T (wb b) i

theorem bilinear_apply {n : Nat} (T : Mat n 128) (SBF : Mat n 42) (Wsbf : Mat 42 8) (wb : Fin 8 → Mat 128 128) (p : Fin n) (q : Fin 128) :
    bilinear T SBF Wsbf wb (ix2 p q) = sum8 fun b => lin SBF Wsbf (ix2 p b) * lin T (wb b) (ix2 p q) := rfl

/-- A residual block: `H + dense (dense H w0 b0) w1 b1`. -/
def resblock {n : Nat} (H : Mat n 128) (w0 : Mat 128 128) (b0 : Vc 128) (w1 : Mat 128 128) (b1 : Vc 128) : Mat n 128 :=
  madd H (dense (dense H w0 b0) w1 b1)

/-- The head: a residual block on `XJI + AGG`, a dense layer, the skip `+ X`, two more residual blocks. -/
def head {n : Nat} (XJI AGG X : Mat n 128) (wr : Fin 3 → Fin 2 → Mat 128 128) (br : Fin 3 → Fin 2 → Vc 128)
    (Wout : Mat 128 128) (bout : Vc 128) : Mat n 128 :=
  resblock (resblock (madd (dense (resblock (madd XJI AGG) (wr 0 0) (br 0 0) (wr 0 1) (br 0 1)) Wout bout) X)
    (wr 1 0) (br 1 0) (wr 1 1) (br 1 1)) (wr 2 0) (br 2 0) (wr 2 1) (br 2 1)

/-! ## Tiles -/

/-- Rows `off, …, off + n - 1` of a matrix with `N` rows. -/
def tile {N c : Nat} (n off : Nat) (h : off + n ≤ N) (A : Mat N c) : Mat n c :=
  fun i => A (ix2 ⟨off + (i 0).val, by have := idx2_lt0 i; omega⟩ (colOf i))

theorem tile_apply {N c : Nat} (n off : Nat) (h : off + n ≤ N) (A : Mat N c) (p : Fin n) (q : Fin c) :
    tile n off h A (ix2 p q) = A (ix2 ⟨off + p.val, by have := p.isLt; omega⟩ q) := rfl

theorem tile_lin {N K c : Nat} (n off : Nat) (h : off + n ≤ N) (A : Mat N K) (w : Mat K c) :
    tile n off h (lin A w) = lin (tile n off h A) w := rfl

theorem tile_dense {N K c : Nat} (n off : Nat) (h : off + n ≤ N) (A : Mat N K) (w : Mat K c) (b : Vc c) :
    tile n off h (dense A w b) = dense (tile n off h A) w b := rfl

theorem tile_madd {N c : Nat} (n off : Nat) (h : off + n ≤ N) (A B : Mat N c) :
    tile n off h (madd A B) = madd (tile n off h A) (tile n off h B) := rfl

theorem tile_mmul {N c : Nat} (n off : Nat) (h : off + n ≤ N) (A B : Mat N c) :
    tile n off h (mmul A B) = mmul (tile n off h A) (tile n off h B) := rfl

theorem tile_gated {N : Nat} (n off : Nat) (h : off + n ≤ N) (X : Mat N 128) (RBF : Mat N 6) (Wrbf : Mat 6 128) (Wkj : Mat 128 128) (bkj : Vc 128) :
    tile n off h (gated X RBF Wrbf Wkj bkj) = gated (tile n off h X) (tile n off h RBF) Wrbf Wkj bkj := rfl

theorem tile_bilinear {N : Nat} (n off : Nat) (h : off + n ≤ N) (T : Mat N 128) (SBF : Mat N 42) (Wsbf : Mat 42 8) (wb : Fin 8 → Mat 128 128) :
    tile n off h (bilinear T SBF Wsbf wb) = bilinear (tile n off h T) (tile n off h SBF) Wsbf wb := rfl

theorem tile_resblock {N : Nat} (n off : Nat) (h : off + n ≤ N) (H : Mat N 128) (w0 : Mat 128 128) (b0 : Vc 128) (w1 : Mat 128 128) (b1 : Vc 128) :
    tile n off h (resblock H w0 b0 w1 b1) = resblock (tile n off h H) w0 b0 w1 b1 := rfl

theorem tile_head {N : Nat} (n off : Nat) (h : off + n ≤ N) (XJI AGG X : Mat N 128) (wr : Fin 3 → Fin 2 → Mat 128 128) (br : Fin 3 → Fin 2 → Vc 128)
    (Wout : Mat 128 128) (bout : Vc 128) :
    tile n off h (head XJI AGG X wr br Wout bout) = head (tile n off h XJI) (tile n off h AGG) (tile n off h X) wr br Wout bout := rfl

end Cert.Spec

end
-- ==== Proof.Region0.lean ====
/-
  The edge transform, kernel side. Each grid point loads a tile of 5000 rows of the edge features and of the
  radial basis, and the whole weights; it stores two tiles: the dense layer with swish of the feature tile, and
  a second such layer gated entrywise by the radial basis times its weights. Both are row-local, so the tile a
  point writes back is the same tile of the whole-array function, and the thirty tiles cover the array.
-/
import proofs.«421744_j48490180772447_1_alg».proof.Proof.Spec
import proofs.«421744_j48490180772447_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Bridge.Region0

open Idealize.ShloMosaic Idealize.ShloMosaic.TcCoe Idealize.SL.Sem Idealize.ShloMosaic.ValueIdx
open Cert.KernelIdeal Cert.KernelIdeal.Gen

/-! ## The two matrix products at an entry

The operand coordinates of a product of a [5000, K] tile with a [K, 128] weight matrix, at output entry
`(p, q)` and contraction index `k`, are `(p, k)` and `(k, q)`. -/

theorem lhs_mm128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhs_mm6_0 (i : S5000x128.Idx) (q : dot_S5000x6_S6x128_S5000x128_1_0_0_1_n_n.contr.Idx) :
    (dot_S5000x6_S6x128_S5000x128_1_0_0_1_n_n.lhsIdx i q 0).val = (i 0).val := by
  unfold DotDims.lhsIdx
  rw [dif_neg (show ¬(0 : Fin S5000x6.rank) ∈ dot_S5000x6_S6x128_S5000x128_1_0_0_1_n_n.lhsBatch by decide), dif_pos (show (0 : Fin S5000x6.rank) ∈ dot_S5000x6_S6x128_S5000x128_1_0_0_1_n_n.lhsNonContracting by decide)]
  rfl
theorem lhs_mm6_1 (i : S5000x128.Idx) (q : dot_S5000x6_S6x128_S5000x128_1_0_0_1_n_n.contr.Idx) :
    (dot_S5000x6_S6x128_S5000x128_1_0_0_1_n_n.lhsIdx i q 1).val = (q ⟨0, by decide⟩).val :=
  dot_S5000x6_S6x128_S5000x128_1_0_0_1_n_n.lhsIdx_val_of_single rfl i q
theorem rhs_mm6_0 (i : S5000x128.Idx) (q : dot_S5000x6_S6x128_S5000x128_1_0_0_1_n_n.contr.Idx) :
    (dot_S5000x6_S6x128_S5000x128_1_0_0_1_n_n.rhsIdx i q 0).val = (q ⟨0, by decide⟩).val :=
  dot_S5000x6_S6x128_S5000x128_1_0_0_1_n_n.rhsIdx_val_of_single rfl i q
theorem rhs_mm6_1 (i : S5000x128.Idx) (q : dot_S5000x6_S6x128_S5000x128_1_0_0_1_n_n.contr.Idx) :
    (dot_S5000x6_S6x128_S5000x128_1_0_0_1_n_n.rhsIdx i q 1).val = (i 1).val := by
  unfold DotDims.rhsIdx
  rw [dif_neg (show ¬(1 : Fin S6x128.rank) ∈ dot_S5000x6_S6x128_S5000x128_1_0_0_1_n_n.rhsBatch by decide), dif_pos (show (1 : Fin S6x128.rank) ∈ dot_S5000x6_S6x128_S5000x128_1_0_0_1_n_n.rhsNonContracting by decide)]
  rfl

/-- A feature tile times a square weight matrix, into the zero accumulator: entry `(p, q)` is `∑ k, A p k · w k q`. -/
theorem mm128_apply (A : FVec Ideal S5000x128 .f32) (w : FVec Ideal S128x128 .f32) (p : Fin 5000) (q : Fin 128) :
    matmul dot_S5000x128_S128x128_S5000x128_1_0_0_1_n_n none A w (constant S5000x128 .f32 0x00000000#32) (ix2 p q) = ∑ k : Fin 128, A (ix2 p k) * w (ix2 k q) := by
  refine (Ideal.matmul_constant_zero_apply dot_S5000x128_S128x128_S5000x128_1_0_0_1_n_n none A w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_mm128_0 _ _
    | ⟨1, _⟩ => exact (lhs_mm128_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_mm128_0 _ _).trans hk
    | ⟨1, _⟩ => exact rhs_mm128_1 _ _)
  rw [el, er]

/-- A radial-basis tile times its weights, into the zero accumulator: entry `(p, q)` is `∑ k, A p k · w k q`. -/
theorem mm6_apply (A : FVec Ideal S5000x6 .f32) (w : FVec Ideal S6x128 .f32) (p : Fin 5000) (q : Fin 128) :
    matmul dot_S5000x6_S6x128_S5000x128_1_0_0_1_n_n none A w (constant S5000x128 .f32 0x00000000#32) (ix2 p q) = ∑ k : Fin 6, A (ix2 p k) * w (ix2 k q) := by
  refine (Ideal.matmul_constant_zero_apply dot_S5000x6_S6x128_S5000x128_1_0_0_1_n_n none A w (ix2 p q)).trans ?_
  rw [← Equiv.sum_comp (contrEquiv1 dot_S5000x6_S6x128_S5000x128_1_0_0_1_n_n 6 rfl rfl).symm]
  refine Finset.sum_congr rfl fun k _ => ?_
  have hk := contrEquiv1_symm_val dot_S5000x6_S6x128_S5000x128_1_0_0_1_n_n 6 rfl rfl k
  have el : dot_S5000x6_S6x128_S5000x128_1_0_0_1_n_n.lhsIdx (ix2 p q) ((contrEquiv1 dot_S5000x6_S6x128_S5000x128_1_0_0_1_n_n 6 rfl rfl).symm k) = ix2 p k := funext fun a => Fin.ext (by
    match a with
    | ⟨0, _⟩ => exact lhs_mm6_0 _ _
    | ⟨1, _⟩ => exact (lhs_mm6_1 _ _).trans hk)
  have er : dot_S5000x6_S6x128_S5000x128_1_0_0_1_n_n.rhsIdx (ix2 p q) ((contrEquiv1 dot_S5000x6_S6x128_S5000x128_1_0_0_1_n_n 6 rfl rfl).symm k) = ix2 k q := funext fun a => Fin.ext (by
    match a with
    | ⟨0, _⟩ => exact (rhs_mm6_0 _ _).trans hk
    | ⟨1, _⟩ => exact rhs_mm6_1 _ _)
  rw [el, er]

/-- The logistic function of a vector is taken entry by entry. -/
theorem logistic_apply {s : Shape} {φ : FTy} (a : FVec Ideal s φ) (i : s.Idx) : logistic a i = Ideal.logistic (a i) := rfl

/-! ## What each store holds -/

/-- The first store, at an entry: the swish of the affine map of the feature tile's row. -/
theorem pay1_apply (v0 : Vec Ideal S5000x128 .f32) (v4 : Vec Ideal S128x128 .f32) (v6 : Vec Ideal S128 .f32) (p : Fin 5000) (q : Fin 128) :
    k0_pay1 (F := Ideal) v0 v4 v6 (ix2 p q) = Cert.Spec.dense v0 v4 v6 (ix2 p q) := by
  rw [Cert.Spec.dense_apply]
  unfold k0_pay1
  rw [mulf_apply, logistic_apply, addf_apply, mm128_apply, broadcastTo_1b_ab_apply, shapeCast_a_1a_apply]
  rfl

/-- The first store is the dense layer with swish of the loaded tile. -/
theorem pay1_eq (v0 : Vec Ideal S5000x128 .f32) (v4 : Vec Ideal S128x128 .f32) (v6 : Vec Ideal S128 .f32) :
    k0_pay1 (F := Ideal) v0 v4 v6 = Cert.Spec.dense v0 v4 v6 := by
  funext j
  obtain ⟨p, q, rfl⟩ : ∃ (p : Fin 5000) (q : Fin 128), j = ix2 p q := ⟨j 0, j 1, eq_ix2 j⟩
  exact pay1_apply v0 v4 v6 p q

/-- The second store, at an entry: the same layer with the other weights, times the radial-basis product. -/
theorem pay2_apply (v0 : Vec Ideal S5000x128 .f32) (v1 : Vec Ideal S5000x6 .f32) (v2 : Vec Ideal S6x128 .f32) (v12 : Vec Ideal S128x128 .f32) (v14 : Vec Ideal S128 .f32) (p : Fin 5000) (q : Fin 128) :
    k0_pay2 (F := Ideal) v0 v1 v2 v12 v14 (ix2 p q) = Cert.Spec.gated v0 v1 v2 v12 v14 (ix2 p q) := by
  unfold Cert.Spec.gated
  rw [Cert.Spec.mmul_apply, Cert.Spec.dense_apply, Cert.Spec.lin_apply]
  unfold k0_pay2
  rw [mulf_apply, mulf_apply, logistic_apply, addf_apply, mm128_apply, mm6_apply, broadcastTo_1b_ab_apply, shapeCast_a_1a_apply]
  rfl

/-- The second store is the gated edge message of the loaded tiles. -/
theorem pay2_eq (v0 : Vec Ideal S5000x128 .f32) (v1 : Vec Ideal S5000x6 .f32) (v2 : Vec Ideal S6x128 .f32) (v12 : Vec Ideal S128x128 .f32) (v14 : Vec Ideal S128 .f32) :
    k0_pay2 (F := Ideal) v0 v1 v2 v12 v14 = Cert.Spec.gated v0 v1 v2 v12 v14 := by
  funext j
  obtain ⟨p, q, rfl⟩ : ∃ (p : Fin 5000) (q : Fin 128), j = ix2 p q := ⟨j 0, j 1, eq_ix2 j⟩
  exact pay2_apply v0 v1 v2 v12 v14 p q

/-! ## The index maps, decided over the thirty points

The row-tiled windows sit at block `(t, 0)`; the weights at block `0`. -/

theorem hz2 : (![0, 0] : Fin 2 → Nat) = fun _ => 0 := funext fun a => by fin_cases a <;> rfl
theorem hz1 : (![0] : Fin 1 → Nat) = fun _ => 0 := funext fun a => by fin_cases a; rfl

theorem tlt (t : Fin cfg0.N) : t.val < 30 := lt_of_lt_of_eq t.isLt N_0
theorem tile_le (t : Fin cfg0.N) : t.val * 5000 + 5000 ≤ 150000 := by have := tlt t; omega

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 1) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 1) = 0 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_8 : ∀ t : Fin cfg0.N, win0_8.index t (0 : Fin 2) = t.val ∧ win0_8.index t (1 : Fin 2) = 0 :=
  (by decide +kernel : ∀ t : Fin grid0.N, _)

/-! ## Blocks as tiles -/

/-- Block `t` of a row-tiled array with 128 columns is its tile of rows `5000 t, …, 5000 t + 4999`. -/
theorem read0_tile (t : Fin cfg0.N) (G : Cert.Spec.Mat 150000 128) :
    ((cfg0.win 0).blk t).view.read (Elt Ideal) G = Cert.Spec.tile 5000 (t.val * 5000) (tile_le t) G := by
  obtain ⟨e0, e1⟩ := idx_0 t
  funext j
  obtain ⟨p, q, rfl⟩ : ∃ (p : Fin 5000) (q : Fin 128), j = ix2 p q := ⟨j 0, j 1, eq_ix2 j⟩
  rw [Cert.Spec.tile_apply]
  show G (((cfg0.win 0).blk t).view.emb (ix2 p q)) = _
  refine congrArg G (funext fun a => Fin.ext ?_)
  match a with
  | ⟨0, _⟩ => show win0_0.index t (0 : Fin 2) * 5000 + 1 * p.val = t.val * 5000 + p.val; rw [e0, Nat.one_mul]
  | ⟨1, _⟩ => show win0_0.index t (1 : Fin 2) * 128 + 1 * q.val = q.val; rw [e1, Nat.zero_mul, Nat.zero_add, Nat.one_mul]

/-- Block `t` of a row-tiled array with 6 columns is its tile of rows `5000 t, …, 5000 t + 4999`. -/
theorem read1_tile (t : Fin cfg0.N) (G : Cert.Spec.Mat 150000 6) :
    ((cfg0.win 1).blk t).view.read (Elt Ideal) G = Cert.Spec.tile 5000 (t.val * 5000) (tile_le t) G := by
  obtain ⟨e0, e1⟩ := idx_1 t
  funext j
  obtain ⟨p, q, rfl⟩ : ∃ (p : Fin 5000) (q : Fin 6), j = ix2 p q := ⟨j 0, j 1, eq_ix2 j⟩
  rw [Cert.Spec.tile_apply]
  show G (((cfg0.win 1).blk t).view.emb (ix2 p q)) = _
  refine congrArg G (funext fun a => Fin.ext ?_)
  match a with
  | ⟨0, _⟩ => show win0_1.index t (0 : Fin 2) * 5000 + 1 * p.val = t.val * 5000 + p.val; rw [e0, Nat.one_mul]
  | ⟨1, _⟩ => show win0_1.index t (1 : Fin 2) * 6 + 1 * q.val = q.val; rw [e1, Nat.zero_mul, Nat.zero_add, Nat.one_mul]

/-- Block `t` of a row-tiled array with 128 columns is its tile of rows `5000 t, …, 5000 t + 4999`. -/
theorem read7_tile (t : Fin cfg0.N) (G : Cert.Spec.Mat 150000 128) :
    ((cfg0.win 7).blk t).view.read (Elt Ideal) G = Cert.Spec.tile 5000 (t.val * 5000) (tile_le t) G := by
  obtain ⟨e0, e1⟩ := idx_7 t
  funext j
  obtain ⟨p, q, rfl⟩ : ∃ (p : Fin 5000) (q : Fin 128), j = ix2 p q := ⟨j 0, j 1, eq_ix2 j⟩
  rw [Cert.Spec.tile_apply]
  show G (((cfg0.win 7).blk t).view.emb (ix2 p q)) = _
  refine congrArg G (funext fun a => Fin.ext ?_)
  match a with
  | ⟨0, _⟩ => show win0_7.index t (0 : Fin 2) * 5000 + 1 * p.val = t.val * 5000 + p.val; rw [e0, Nat.one_mul]
  | ⟨1, _⟩ => show win0_7.index t (1 : Fin 2) * 128 + 1 * q.val = q.val; rw [e1, Nat.zero_mul, Nat.zero_add, Nat.one_mul]

/-- Block `t` of a row-tiled array with 128 columns is its tile of rows `5000 t, …, 5000 t + 4999`. -/
theorem read8_tile (t : Fin cfg0.N) (G : Cert.Spec.Mat 150000 128) :
    ((cfg0.win 8).blk t).view.read (Elt Ideal) G = Cert.Spec.tile 5000 (t.val * 5000) (tile_le t) G := by
  obtain ⟨e0, e1⟩ := idx_8 t
  funext j
  obtain ⟨p, q, rfl⟩ : ∃ (p : Fin 5000) (q : Fin 128), j = ix2 p q := ⟨j 0, j 1, eq_ix2 j⟩
  rw [Cert.Spec.tile_apply]
  show G (((cfg0.win 8).blk t).view.emb (ix2 p q)) = _
  refine congrArg G (funext fun a => Fin.ext ?_)
  match a with
  | ⟨0, _⟩ => show win0_8.index t (0 : Fin 2) * 5000 + 1 * p.val = t.val * 5000 + p.val; rw [e0, Nat.one_mul]
  | ⟨1, _⟩ => show win0_8.index t (1 : Fin 2) * 128 + 1 * q.val = q.val; rw [e1, Nat.zero_mul, Nat.zero_add, Nat.one_mul]

variable (V : (c : Dev nD) → (b : Ref sig .tc) → Buf (Elt Ideal) ((c : Thread nD τ).loc b))

/-- The feature window's block at point `t` is tile `t` of the feature array. -/
theorem blk0 (c : Dev nD) (t : Fin cfg0.N) :
    iblk0 (F := Ideal) V c 0 t = Cert.Spec.tile 5000 (t.val * 5000) (tile_le t) (V c main_arg0) := by
  unfold iblk0
  exact read0_tile t (V c main_arg0)

/-- The radial-basis window's block at point `t` is tile `t` of the radial-basis array. -/
theorem blk1 (c : Dev nD) (t : Fin cfg0.N) :
    iblk0 (F := Ideal) V c 1 t = Cert.Spec.tile 5000 (t.val * 5000) (tile_le t) (V c main_arg1) := by
  unfold iblk0
  exact read1_tile t (V c main_arg1)

/-- Window 2 holds its whole array at every point. -/
theorem blk2 (c : Dev nD) (t : Fin cfg0.N) : iblk0 (F := Ideal) V c 2 t = V c main_arg5 := by
  obtain ⟨e0, e1⟩ := idx_2 t
  unfold iblk0
  funext j
  obtain ⟨p, q, rfl⟩ : ∃ (p : Fin 6) (q : Fin 128), j = ix2 p q := ⟨j 0, j 1, eq_ix2 j⟩
  show V c main_arg5 (((cfg0.win 2).blk t).view.emb (ix2 p q)) = V c main_arg5 (ix2 p q)
  refine congrArg (V c main_arg5) (funext fun a => Fin.ext ?_)
  match a with
  | ⟨0, _⟩ => show win0_2.index t (0 : Fin 2) * 6 + 1 * p.val = p.val; rw [e0, Nat.zero_mul, Nat.zero_add, Nat.one_mul]
  | ⟨1, _⟩ => show win0_2.index t (1 : Fin 2) * 128 + 1 * q.val = q.val; rw [e1, Nat.zero_mul, Nat.zero_add, Nat.one_mul]

/-- Window 3 holds its whole array at every point. -/
theorem blk3 (c : Dev nD) (t : Fin cfg0.N) : iblk0 (F := Ideal) V c 3 t = V c main_arg7 := by
  obtain ⟨e0, e1⟩ := idx_3 t
  unfold iblk0
  funext j
  obtain ⟨p, q, rfl⟩ : ∃ (p : Fin 128) (q : Fin 128), j = ix2 p q := ⟨j 0, j 1, eq_ix2 j⟩
  show V c main_arg7 (((cfg0.win 3).blk t).view.emb (ix2 p q)) = V c main_arg7 (ix2 p q)
  refine congrArg (V c main_arg7) (funext fun a => Fin.ext ?_)
  match a with
  | ⟨0, _⟩ => show win0_3.index t (0 : Fin 2) * 128 + 1 * p.val = p.val; rw [e0, Nat.zero_mul, Nat.zero_add, Nat.one_mul]
  | ⟨1, _⟩ => show win0_3.index t (1 : Fin 2) * 128 + 1 * q.val = q.val; rw [e1, Nat.zero_mul, Nat.zero_add, Nat.one_mul]

/-- Window 4 holds its whole array at every point. -/
theorem blk4 (c : Dev nD) (t : Fin cfg0.N) : iblk0 (F := Ideal) V c 4 t = V c main_arg8 := by
  have e0 := idx_4 t
  unfold iblk0
  funext j
  obtain ⟨p, rfl⟩ : ∃ p : Fin 128, j = ix1 p := ⟨j 0, eq_ix1 j⟩
  show V c main_arg8 (((cfg0.win 4).blk t).view.emb (ix1 p)) = V c main_arg8 (ix1 p)
  refine congrArg (V c main_arg8) (funext fun a => Fin.ext ?_)
  match a with
  | ⟨0, _⟩ => show win0_4.index t (0 : Fin 1) * 128 + 1 * p.val = p.val; rw [e0, Nat.zero_mul, Nat.zero_add, Nat.one_mul]

/-- Window 5 holds its whole array at every point. -/
theorem blk5 (c : Dev nD) (t : Fin cfg0.N) : iblk0 (F := Ideal) V c 5 t = V c main_arg9 := by
  obtain ⟨e0, e1⟩ := idx_5 t
  unfold iblk0
  funext j
  obtain ⟨p, q, rfl⟩ : ∃ (p : Fin 128) (q : Fin 128), j = ix2 p q := ⟨j 0, j 1, eq_ix2 j⟩
  show V c main_arg9 (((cfg0.win 5).blk t).view.emb (ix2 p q)) = V c main_arg9 (ix2 p q)
  refine congrArg (V c main_arg9) (funext fun a => Fin.ext ?_)
  match a with
  | ⟨0, _⟩ => show win0_5.index t (0 : Fin 2) * 128 + 1 * p.val = p.val; rw [e0, Nat.zero_mul, Nat.zero_add, Nat.one_mul]
  | ⟨1, _⟩ => show win0_5.index t (1 : Fin 2) * 128 + 1 * q.val = q.val; rw [e1, Nat.zero_mul, Nat.zero_add, Nat.one_mul]

/-- Window 6 holds its whole array at every point. -/
theorem blk6 (c : Dev nD) (t : Fin cfg0.N) : iblk0 (F := Ideal) V c 6 t = V c main_arg10 := by
  have e0 := idx_6 t
  unfold iblk0
  funext j
  obtain ⟨p, rfl⟩ : ∃ p : Fin 128, j = ix1 p := ⟨j 0, eq_ix1 j⟩
  show V c main_arg10 (((cfg0.win 6).blk t).view.emb (ix1 p)) = V c main_arg10 (ix1 p)
  refine congrArg (V c main_arg10) (funext fun a => Fin.ext ?_)
  match a with
  | ⟨0, _⟩ => show win0_6.index t (0 : Fin 1) * 128 + 1 * p.val = p.val; rw [e0, Nat.zero_mul, Nat.zero_add, Nat.one_mul]

/-! ## What a point writes back -/

/-- Point `t` writes back, to the first result, block `t` of the dense layer of the whole arrays. -/
theorem flushed7_eq (c : Dev nD) (t : Fin cfg0.N) :
    (dat0 (F := Ideal) V c).flushed 7 t
      = ((cfg0.win 7).blk t).view.read (Elt Ideal) (Cert.Spec.dense (V c main_arg0) (V c main_arg9) (V c main_arg10)) := by
  show (cfg0.win 7).cut (grid0.coords t) ((dat0 (F := Ideal) V c).after 7 t) = _
  rw [after0_7]
  unfold out0_7
  rw [View.canon_unit_zero hz2]
  simp only [View.ld_unit_zero (S := S5000x128) hz2, View.ld_unit_zero (S := S128x128) hz2, View.ld_unit_zero (S := S128) hz1]
  rw [pay1_eq, blk0, blk5, blk6, ← Cert.Spec.tile_dense, read7_tile]
  rfl

/-- Point `t` writes back, to the second result, block `t` of the gated edge message of the whole arrays. -/
theorem flushed8_eq (c : Dev nD) (t : Fin cfg0.N) :
    (dat0 (F := Ideal) V c).flushed 8 t
      = ((cfg0.win 8).blk t).view.read (Elt Ideal)
          (Cert.Spec.gated (V c main_arg0) (V c main_arg1) (V c main_arg5) (V c main_arg7) (V c main_arg8)) := by
  show (cfg0.win 8).cut (grid0.coords t) ((dat0 (F := Ideal) V c).after 8 t) = _
  rw [after0_8]
  unfold out0_8
  rw [View.canon_unit_zero hz2]
  simp only [View.ld_unit_zero (S := S5000x128) hz2, View.ld_unit_zero (S := S5000x6) hz2, View.ld_unit_zero (S := S6x128) hz2, View.ld_unit_zero (S := S128x128) hz2, View.ld_unit_zero (S := S128) hz1]
  rw [pay2_eq, blk0, blk1, blk2, blk3, blk4, ← Cert.Spec.tile_gated, read8_tile]
  rfl

/-! ## The thirty blocks cover each result -/

/-- An index of the array is in point `t`'s block iff each coordinate is in the block's range on its axis. -/
theorem mem_blk7 (t : Fin cfg0.N) (i : S150000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v0_0).slice (win0_7.rect t)).set ↔ _
  rw [View.set_slice_whole, Rect.mem_set_unit]
  exact Iff.rfl

/-- An index of the array is in point `t`'s block iff each coordinate is in the block's range on its axis. -/
theorem mem_blk8 (t : Fin cfg0.N) (i : S150000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v0_1).slice (win0_8.rect t)).set ↔ _
  rw [View.set_slice_whole, Rect.mem_set_unit]
  exact Iff.rfl

/-- Row `r` is written back by point `r / 5000`: the blocks tile the array. -/
theorem cover7 (i : S150000x128.Idx) :
    ∃ t : Fin cfg0.N, (cfg0.win 7).flush t = true ∧ i ∈ ((cfg0.win 7).blk t).view.set := by
  have hi0 : (i 0).val < 150000 := (i 0).isLt
  have hi1 : (i 1).val < 128 := (i 1).isLt
  obtain ⟨t, ht⟩ : ∃ t : Fin cfg0.N, t.val = (i 0).val / 5000 := ⟨⟨(i 0).val / 5000, lt_of_lt_of_eq (by omega) N_0.symm⟩, rfl⟩
  obtain ⟨e0, e1⟩ := idx_7 t
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; rw [e0, ht]; omega
  | ⟨1, _⟩ => show win0_7.index t (1 : Fin 2) * 128 ≤ (i 1).val ∧ (i 1).val < win0_7.index t (1 : Fin 2) * 128 + 128; rw [e1]; omega

/-- Row `r` is written back by point `r / 5000`: the blocks tile the array. -/
theorem cover8 (i : S150000x128.Idx) :
    ∃ t : Fin cfg0.N, (cfg0.win 8).flush t = true ∧ i ∈ ((cfg0.win 8).blk t).view.set := by
  have hi0 : (i 0).val < 150000 := (i 0).isLt
  have hi1 : (i 1).val < 128 := (i 1).isLt
  obtain ⟨t, ht⟩ : ∃ t : Fin cfg0.N, t.val = (i 0).val / 5000 := ⟨⟨(i 0).val / 5000, lt_of_lt_of_eq (by omega) N_0.symm⟩, rfl⟩
  obtain ⟨e0, e1⟩ := idx_8 t
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; rw [e0, ht]; omega
  | ⟨1, _⟩ => show win0_8.index t (1 : Fin 2) * 128 ≤ (i 1).val ∧ (i 1).val < win0_8.index t (1 : Fin 2) * 128 + 128; rw [e1]; omega

end Cert.Bridge.Region0

namespace Cert.Bridge

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- After the edge transform the first result holds the dense layer with swish of the edge features. -/
theorem region0_ji (c : Dev nD) :
    (dat0 (F := Ideal) V c).arrAt 7 cfg0.N = Cert.Spec.dense (V c main_arg0) (V c main_arg9) (V c main_arg10) :=
  (dat0 (F := Ideal) V c).arrAt_eq_of_cover 7 _ (fun t _ => Region0.flushed7_eq V c t) Region0.cover7

/-- After the edge transform the second result holds the gated edge message. -/
theorem region0_kj (c : Dev nD) :
    (dat0 (F := Ideal) V c).arrAt 8 cfg0.N
      = Cert.Spec.gated (V c main_arg0) (V c main_arg1) (V c main_arg5) (V c main_arg7) (V c main_arg8) :=
  (dat0 (F := Ideal) V c).arrAt_eq_of_cover 8 _ (fun t _ => Region0.flushed8_eq V c t) Region0.cover8

end Cert.Bridge

end
-- ==== Proof.Region1.lean ====
import proofs.«421744_j48490180772447_1_alg».proof.Proof.Spec
import proofs.«421744_j48490180772447_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Region1

/-! ## The two matrix products of the body, read at an entry -/

/-- The contraction of the product `[9000, 128] × [128, 128]`. -/
abbrev dotT := dot_S9000x128_S128x128_S9000x128_1_0_0_1_n_n
/-- The contraction of the product `[9000, 42] × [42, 8]`. -/
abbrev dotS := dot_S9000x42_S42x8_S9000x8_1_0_0_1_n_n

theorem lhsT_0 (i : S9000x128.Idx) (q : dot_S9000x128_S128x128_S9000x128_1_0_0_1_n_n.contr.Idx) :
    (dot_S9000x128_S128x128_S9000x128_1_0_0_1_n_n.lhsIdx i q 0).val = (i 0).val := by
  unfold DotDims.lhsIdx
  rw [dif_neg (show ¬(0 : Fin S9000x128.rank) ∈ dot_S9000x128_S128x128_S9000x128_1_0_0_1_n_n.lhsBatch by decide), dif_pos (show (0 : Fin S9000x128.rank) ∈ dot_S9000x128_S128x128_S9000x128_1_0_0_1_n_n.lhsNonContracting by decide)]
  rfl
theorem lhsT_1 (i : S9000x128.Idx) (q : dot_S9000x128_S128x128_S9000x128_1_0_0_1_n_n.contr.Idx) :
    (dot_S9000x128_S128x128_S9000x128_1_0_0_1_n_n.lhsIdx i q 1).val = (q ⟨0, by decide⟩).val :=
  dot_S9000x128_S128x128_S9000x128_1_0_0_1_n_n.lhsIdx_val_of_single rfl i q
theorem rhsT_0 (i : S9000x128.Idx) (q : dot_S9000x128_S128x128_S9000x128_1_0_0_1_n_n.contr.Idx) :
    (dot_S9000x128_S128x128_S9000x128_1_0_0_1_n_n.rhsIdx i q 0).val = (q ⟨0, by decide⟩).val :=
  dot_S9000x128_S128x128_S9000x128_1_0_0_1_n_n.rhsIdx_val_of_single rfl i q
theorem rhsT_1 (i : S9000x128.Idx) (q : dot_S9000x128_S128x128_S9000x128_1_0_0_1_n_n.contr.Idx) :
    (dot_S9000x128_S128x128_S9000x128_1_0_0_1_n_n.rhsIdx i q 1).val = (i 1).val := by
  unfold DotDims.rhsIdx
  rw [dif_neg (show ¬(1 : Fin S128x128.rank) ∈ dot_S9000x128_S128x128_S9000x128_1_0_0_1_n_n.rhsBatch by decide), dif_pos (show (1 : Fin S128x128.rank) ∈ dot_S9000x128_S128x128_S9000x128_1_0_0_1_n_n.rhsNonContracting by decide)]
  rfl

/-- Entry `(p, q)` of a product into the zero accumulator is the sum over the 128 contracted features. -/
theorem matmulT_apply (A : FVec Ideal S9000x128 .f32) (w : FVec Ideal S128x128 .f32) (p : Fin 9000) (q : Fin 128) :
    matmul dot_S9000x128_S128x128_S9000x128_1_0_0_1_n_n none A w (constant (F := Ideal) S9000x128 .f32 0x00000000#32) (ix2 p q)
      = ∑ k : Fin 128, A (ix2 p k) * w (ix2 k q) := by
  simp only [matmul]
  rw [Ideal.matmul_constant_zero_apply, ← Equiv.sum_comp (ValueIdx.contrEquiv1 dot_S9000x128_S128x128_S9000x128_1_0_0_1_n_n 128 rfl rfl).symm]
  refine Finset.sum_congr rfl fun k _ => ?_
  have hk := ValueIdx.contrEquiv1_symm_val dot_S9000x128_S128x128_S9000x128_1_0_0_1_n_n 128 rfl rfl k
  have el : dot_S9000x128_S128x128_S9000x128_1_0_0_1_n_n.lhsIdx (ix2 p q) ((ValueIdx.contrEquiv1 dot_S9000x128_S128x128_S9000x128_1_0_0_1_n_n 128 rfl rfl).symm k) = ix2 p k := funext fun a => Fin.ext (by
    match a with
    | ⟨0, _⟩ => exact lhsT_0 _ _
    | ⟨1, _⟩ => exact (lhsT_1 _ _).trans hk)
  have er : dot_S9000x128_S128x128_S9000x128_1_0_0_1_n_n.rhsIdx (ix2 p q) ((ValueIdx.contrEquiv1 dot_S9000x128_S128x128_S9000x128_1_0_0_1_n_n 128 rfl rfl).symm k) = ix2 k q := funext fun a => Fin.ext (by
    match a with
    | ⟨0, _⟩ => exact (rhsT_0 _ _).trans hk
    | ⟨1, _⟩ => exact rhsT_1 _ _)
  rw [el, er]

theorem lhsS_0 (i : S9000x8.Idx) (q : dot_S9000x42_S42x8_S9000x8_1_0_0_1_n_n.contr.Idx) :
    (dot_S9000x42_S42x8_S9000x8_1_0_0_1_n_n.lhsIdx i q 0).val = (i 0).val := by
  unfold DotDims.lhsIdx
  rw [dif_neg (show ¬(0 : Fin S9000x42.rank) ∈ dot_S9000x42_S42x8_S9000x8_1_0_0_1_n_n.lhsBatch by decide), dif_pos (show (0 : Fin S9000x42.rank) ∈ dot_S9000x42_S42x8_S9000x8_1_0_0_1_n_n.lhsNonContracting by decide)]
  rfl
theorem lhsS_1 (i : S9000x8.Idx) (q : dot_S9000x42_S42x8_S9000x8_1_0_0_1_n_n.contr.Idx) :
    (dot_S9000x42_S42x8_S9000x8_1_0_0_1_n_n.lhsIdx i q 1).val = (q ⟨0, by decide⟩).val :=
  dot_S9000x42_S42x8_S9000x8_1_0_0_1_n_n.lhsIdx_val_of_single rfl i q
theorem rhsS_0 (i : S9000x8.Idx) (q : dot_S9000x42_S42x8_S9000x8_1_0_0_1_n_n.contr.Idx) :
    (dot_S9000x42_S42x8_S9000x8_1_0_0_1_n_n.rhsIdx i q 0).val = (q ⟨0, by decide⟩).val :=
  dot_S9000x42_S42x8_S9000x8_1_0_0_1_n_n.rhsIdx_val_of_single rfl i q
theorem rhsS_1 (i : S9000x8.Idx) (q : dot_S9000x42_S42x8_S9000x8_1_0_0_1_n_n.contr.Idx) :
    (dot_S9000x42_S42x8_S9000x8_1_0_0_1_n_n.rhsIdx i q 1).val = (i 1).val := by
  unfold DotDims.rhsIdx
  rw [dif_neg (show ¬(1 : Fin S42x8.rank) ∈ dot_S9000x42_S42x8_S9000x8_1_0_0_1_n_n.rhsBatch by decide), dif_pos (show (1 : Fin S42x8.rank) ∈ dot_S9000x42_S42x8_S9000x8_1_0_0_1_n_n.rhsNonContracting by decide)]
  rfl

/-- Entry `(p, b)` of the basis projection into the zero accumulator is the sum over the 42 basis functions. -/
theorem matmulS_apply (A : FVec Ideal S9000x42 .f32) (w : FVec Ideal S42x8 .f32) (p : Fin 9000) (b : Fin 8) :
    matmul dot_S9000x42_S42x8_S9000x8_1_0_0_1_n_n none A w (constant (F := Ideal) S9000x8 .f32 0x00000000#32) (ix2 p b)
      = ∑ k : Fin 42, A (ix2 p k) * w (ix2 k b) := by
  simp only [matmul]
  rw [Ideal.matmul_constant_zero_apply, ← Equiv.sum_comp (ValueIdx.contrEquiv1 dot_S9000x42_S42x8_S9000x8_1_0_0_1_n_n 42 rfl rfl).symm]
  refine Finset.sum_congr rfl fun k _ => ?_
  have hk := ValueIdx.contrEquiv1_symm_val dot_S9000x42_S42x8_S9000x8_1_0_0_1_n_n 42 rfl rfl k
  have el : dot_S9000x42_S42x8_S9000x8_1_0_0_1_n_n.lhsIdx (ix2 p b) ((ValueIdx.contrEquiv1 dot_S9000x42_S42x8_S9000x8_1_0_0_1_n_n 42 rfl rfl).symm k) = ix2 p k := funext fun a => Fin.ext (by
    match a with
    | ⟨0, _⟩ => exact lhsS_0 _ _
    | ⟨1, _⟩ => exact (lhsS_1 _ _).trans hk)
  have er : dot_S9000x42_S42x8_S9000x8_1_0_0_1_n_n.rhsIdx (ix2 p b) ((ValueIdx.contrEquiv1 dot_S9000x42_S42x8_S9000x8_1_0_0_1_n_n 42 rfl rfl).symm k) = ix2 k b := funext fun a => Fin.ext (by
    match a with
    | ⟨0, _⟩ => exact (rhsS_0 _ _).trans hk
    | ⟨1, _⟩ => exact rhsS_1 _ _)
  rw [el, er]

/-! ## The layout operations of the body, read at an entry -/

/-- A `[1, 128, 128]` slab viewed as a `[128, 128]` matrix keeps its two inner coordinates. -/
theorem slab_cast_apply (w : Vec Ideal S1x128x128 .f32) (k q : Fin 128) :
    shapeCast S128x128 w shapeCasts_S1x128x128_S128x128 (ix2 k q) = w (ix3 0 k q) :=
  shapeCast_apply w shapeCasts_S1x128x128_S128x128 (ix2 k q) (ix3 0 k q)
    (by rewrite [Shape.rowMajor_val_three, Shape.rowMajor_val_two]
        show (0 * 128 + k.val) * 128 + q.val = k.val * 128 + q.val
        omega)

/-- Slab `b` of the `[8, 128, 128]` weights, loaded as a `[1, 128, 128]` block. -/
theorem slab_ld_apply (W : Vec Ideal S8x128x128 .f32) (off : Fin 3 → Nat)
    (inb : ∀ a, off a + S1x128x128.size a ≤ S8x128x128.size a) (b : Fin 8)
    (h0 : off 0 = b.val) (h1 : off 1 = 0) (h2 : off 2 = 0) (k q : Fin 128) :
    View.ld (Val := Elt Ideal) (e' := .f32) W (Rect.unit (s := S8x128x128) off S1x128x128.size inb) (ix3 0 k q) = W (ix3 b k q) :=
  congrArg W (funext fun a => Fin.ext (by
    match a with
    | ⟨0, _⟩ => show off 0 + 1 * 0 = b.val; omega
    | ⟨1, _⟩ => show off 1 + 1 * k.val = k.val; omega
    | ⟨2, _⟩ => show off 2 + 1 * q.val = q.val; omega))

/-- Column `b` of the `[9000, 8]` coefficients, sliced out as a `[9000, 1]` column. -/
theorem col_apply (sb : FVec Ideal S9000x8 .f32) (off : Fin 2 → Nat) (hs : S9000x8.Slices off S9000x1) (b : Fin 8)
    (h0 : off 0 = 0) (h1 : off 1 = b.val) (p : Fin 9000) :
    extractStridedSlice S9000x1 off sb hs (ix2 p 0) = sb (ix2 p b) :=
  extractStridedSlice_apply off sb hs (ix2 p 0) (ix2 p b) (fun a => match a with
    | ⟨0, _⟩ => by show p.val = off 0 + p.val; omega
    | ⟨1, _⟩ => by show b.val = off 1 + 0; omega)

/-- A `[9000, 1]` column spread over the 128 output features. -/
theorem spread_apply (col : FVec Ideal S9000x1 .f32) (p : Fin 9000) (q : Fin 128) :
    broadcastTo S9000x128 col broadcasts_S9000x1_S9000x128 (ix2 p q) = col (ix2 p 0) :=
  broadcastTo_apply col broadcasts_S9000x1_S9000x128 (ix2 p q) (ix2 p 0) (fun a => match a with
    | ⟨0, _⟩ => by show p.val = if (9000 : Nat) = 1 then 0 else p.val; rw [if_neg (by decide)]
    | ⟨1, _⟩ => by show 0 = if (1 : Nat) = 1 then 0 else q.val; rw [if_pos rfl])

/-- One term of the fuse at entry `(p, q)`: the coefficient of slice `b` in row `p`, times row `p` of the
    gathered messages sent through slice `b` of the weights. -/
theorem term_apply (T : FVec Ideal S9000x128 .f32) (sb : FVec Ideal S9000x8 .f32) (W : Vec Ideal S8x128x128 .f32)
    (offs : Fin 2 → Nat) (hs : S9000x8.Slices offs S9000x1) (offw : Fin 3 → Nat)
    (inb : ∀ a, offw a + S1x128x128.size a ≤ S8x128x128.size a) (b : Fin 8)
    (hs0 : offs 0 = 0) (hs1 : offs 1 = b.val) (hw0 : offw 0 = b.val) (hw1 : offw 1 = 0) (hw2 : offw 2 = 0)
    (p : Fin 9000) (q : Fin 128) :
    mulf (broadcastTo S9000x128 (extractStridedSlice S9000x1 offs sb hs) broadcasts_S9000x1_S9000x128)
        (matmul (φ₁ := .f32) (φ₂ := .f32) dot_S9000x128_S128x128_S9000x128_1_0_0_1_n_n none T
          (shapeCast (α := Elt Ideal .f32) S128x128 (View.ld (Val := Elt Ideal) (e' := .f32) W (Rect.unit (s := S8x128x128) offw S1x128x128.size inb)) shapeCasts_S1x128x128_S128x128)
          (constant (F := Ideal) S9000x128 .f32 0x00000000#32)) (ix2 p q)
      = sb (ix2 p b) * Cert.Spec.lin T (Cert.Spec.wbt W b) (ix2 p q) := by
  rw [mulf_apply, spread_apply, col_apply sb offs hs b hs0 hs1, matmulT_apply, Cert.Spec.lin_apply]
  refine congrArg _ (Finset.sum_congr rfl fun k _ => ?_)
  rw [slab_cast_apply, slab_ld_apply W offw inb b hw0 hw1 hw2, Cert.Spec.wbt_apply]

/-! ## What the body leaves in the output block -/

theorem hz2 : (![0, 0] : Fin 2 → Nat) = fun _ => 0 := funext fun a => by fin_cases a <;> rfl

/-- The coefficients of the body: the basis block times the projection weights. -/
theorem coef_apply (S : Vec Ideal S9000x42 .f32) (Ws : Vec Ideal S42x8 .f32) (p : Fin 9000) (b : Fin 8) :
    k1_pay3 (F := Ideal) S Ws (ix2 p b) = Cert.Spec.lin S Ws (ix2 p b) := by
  unfold k1_pay3
  exact matmulS_apply S Ws p b

/-- The block the body stores is the bilinear fuse of its input blocks: eight terms, one per slice of the
    weights, added from the left starting with slice 0. -/
theorem out_eq (x0 : Vec Ideal S9000x128 .f32) (x1 : Vec Ideal S9000x42 .f32) (x2 : Vec Ideal S42x8 .f32)
    (x3 : Vec Ideal S8x128x128 .f32) :
    out1_4 x0 x1 x2 x3 = Cert.Spec.bilinear x0 x1 x2 (Cert.Spec.wbt x3) := by
  unfold out1_4
  rw [View.canon_unit_zero hz2]
  simp only [View.ld_unit_zero (S := S9000x128) hz2, View.ld_unit_zero (S := S9000x42) hz2, View.ld_unit_zero (S := S42x8) hz2]
  funext i
  obtain ⟨p, q, rfl⟩ : ∃ (p : Fin 9000) (q : Fin 128), i = ix2 p q := ⟨i 0, i 1, eq_ix2 i⟩
  unfold k1_pay1 k1_pay4 k1_pay5 k1_pay2
  simp only [addf_apply, shapeCast_self]
  rw [term_apply x0 (k1_pay3 (F := Ideal) x1 x2) x3 ![0, 0] slices_S9000x8_o0_0_S9000x1 ![0, 0, 0] inb_S8x128x128_S1x128x128_0_0_0 0 rfl rfl rfl rfl rfl p q,
    term_apply x0 (k1_pay3 (F := Ideal) x1 x2) x3 ![0, 1] slices_S9000x8_o0_1_S9000x1 ![1, 0, 0] inb_S8x128x128_S1x128x128_1_0_0 1 rfl rfl rfl rfl rfl p q,
    term_apply x0 (k1_pay3 (F := Ideal) x1 x2) x3 ![0, 2] slices_S9000x8_o0_2_S9000x1 ![2, 0, 0] inb_S8x128x128_S1x128x128_2_0_0 2 rfl rfl rfl rfl rfl p q,
    term_apply x0 (k1_pay3 (F := Ideal) x1 x2) x3 ![0, 3] slices_S9000x8_o0_3_S9000x1 ![3, 0, 0] inb_S8x128x128_S1x128x128_3_0_0 3 rfl rfl rfl rfl rfl p q,
    term_apply x0 (k1_pay3 (F := Ideal) x1 x2) x3 ![0, 4] slices_S9000x8_o0_4_S9000x1 ![4, 0, 0] inb_S8x128x128_S1x128x128_4_0_0 4 rfl rfl rfl rfl rfl p q,
    term_apply x0 (k1_pay3 (F := Ideal) x1 x2) x3 ![0, 5] slices_S9000x8_o0_5_S9000x1 ![5, 0, 0] inb_S8x128x128_S1x128x128_5_0_0 5 rfl rfl rfl rfl rfl p q,
    term_apply x0 (k1_pay3 (F := Ideal) x1 x2) x3 ![0, 6] slices_S9000x8_o0_6_S9000x1 ![6, 0, 0] inb_S8x128x128_S1x128x128_6_0_0 6 rfl rfl rfl rfl rfl p q,
    term_apply x0 (k1_pay3 (F := Ideal) x1 x2) x3 ![0, 7] slices_S9000x8_o0_7_S9000x1 ![7, 0, 0] inb_S8x128x128_S1x128x128_7_0_0 7 rfl rfl rfl rfl rfl p q]
  simp only [coef_apply]
  rfl

/-! ## From the blocks to the array -/

/-- The block indices of the windows at point `t`: the row-tiled windows sit at block `t`, the weights at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (0 : Fin 2) = t.val ∧ win1_4.index t (1 : Fin 2) = 0 :=
  (by decide +kernel : ∀ t : Fin grid1.N, _)

/-- Tile `t` of 9000 rows lies inside the 450000 rows. -/
theorem tile_bound (t : Fin cfg1.N) : t.val * 9000 + 9000 ≤ 450000 := by
  have h : t.val < 50 := Nat.lt_of_lt_of_eq t.isLt N_1
  omega

/-- Window 0's block at point `t` is tile `t` of the gathered messages. -/
theorem blk0_eq (c : Dev nD) (t : Fin cfg1.N) :
    (iblk1 V c 0 t : S9000x128.Idx → EReal) = Cert.Spec.tile 9000 (t.val * 9000) (tile_bound t) (V c main_v1) := by
  obtain ⟨e0, e1, -⟩ := idx_facts t
  funext y
  show V c main_v1 (((cfg1.win 0).blk t).view.emb y) = V c main_v1 _
  refine congrArg (V c main_v1) (funext fun a => Fin.ext ?_)
  match a with
  | ⟨0, _⟩ => show win1_0.index t (0 : Fin 2) * 9000 + 1 * (y 0).val = t.val * 9000 + (y 0).val; omega
  | ⟨1, _⟩ => show win1_0.index t (1 : Fin 2) * 128 + 1 * (y 1).val = (y 1).val; omega

/-- Window 1's block at point `t` is tile `t` of the spherical basis. -/
theorem blk1_eq (c : Dev nD) (t : Fin cfg1.N) :
    (iblk1 V c 1 t : S9000x42.Idx → EReal) = Cert.Spec.tile 9000 (t.val * 9000) (tile_bound t) (V c main_arg2) := by
  obtain ⟨-, -, e0, e1, -⟩ := idx_facts t
  funext y
  show V c main_arg2 (((cfg1.win 1).blk t).view.emb y) = V c main_arg2 _
  refine congrArg (V c main_arg2) (funext fun a => Fin.ext ?_)
  match a with
  | ⟨0, _⟩ => show win1_1.index t (0 : Fin 2) * 9000 + 1 * (y 0).val = t.val * 9000 + (y 0).val; omega
  | ⟨1, _⟩ => show win1_1.index t (1 : Fin 2) * 42 + 1 * (y 1).val = (y 1).val; omega

/-- Window 2's block is the whole projection matrix at every point. -/
theorem blk2_eq (c : Dev nD) (t : Fin cfg1.N) :
    (iblk1 V c 2 t : S42x8.Idx → EReal) = V c main_arg6 := by
  obtain ⟨-, -, -, -, e0, e1, -⟩ := idx_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 42 + 1 * (y 0).val = (y 0).val; omega
  | ⟨1, _⟩ => show win1_2.index t (1 : Fin 2) * 8 + 1 * (y 1).val = (y 1).val; omega

/-- Window 3's block is the whole stack of bilinear weights at every point. -/
theorem blk3_eq (c : Dev nD) (t : Fin cfg1.N) :
    (iblk1 V c 3 t : S8x128x128.Idx → EReal) = V c main_v2 := by
  obtain ⟨-, -, -, -, -, -, e0, e1, e2, -⟩ := idx_facts t
  funext y
  show V c main_v2 (((cfg1.win 3).blk t).view.emb y) = V c main_v2 y
  refine congrArg (V c main_v2) (funext fun a => Fin.ext ?_)
  match a with
  | ⟨0, _⟩ => show win1_3.index t (0 : Fin 3) * 8 + 1 * (y 0).val = (y 0).val; omega
  | ⟨1, _⟩ => show win1_3.index t (1 : Fin 3) * 128 + 1 * (y 1).val = (y 1).val; omega
  | ⟨2, _⟩ => show win1_3.index t (2 : Fin 3) * 128 + 1 * (y 2).val = (y 2).val; omega

/-- Reading an array of 450000 rows through the output window's block at point `t` takes its tile `t`. -/
theorem read4_eq (t : Fin cfg1.N) (G : Cert.Spec.Mat 450000 128) :
    (((cfg1.win 4).blk t).view.read (Elt Ideal) G : S9000x128.Idx → EReal) = Cert.Spec.tile 9000 (t.val * 9000) (tile_bound t) G := by
  obtain ⟨-, -, -, -, -, -, -, -, -, e0, e1⟩ := idx_facts t
  funext y
  show G (((cfg1.win 4).blk t).view.emb y) = G _
  refine congrArg G (funext fun a => Fin.ext ?_)
  match a with
  | ⟨0, _⟩ => show win1_4.index t (0 : Fin 2) * 9000 + 1 * (y 0).val = t.val * 9000 + (y 0).val; omega
  | ⟨1, _⟩ => show win1_4.index t (1 : Fin 2) * 128 + 1 * (y 1).val = (y 1).val; omega

/-- What point `t` writes back is tile `t` of the bilinear fuse of the whole arrays. -/
theorem flushed_eq (c : Dev nD) (t : Fin cfg1.N) :
    (dat1 (F := Ideal) V c).flushed 4 t
      = ((cfg1.win 4).blk t).view.read (Elt Ideal)
          (Cert.Spec.bilinear (V c main_v1) (V c main_arg2) (V c main_arg6) (Cert.Spec.wbt (V c main_v2))) := by
  show (cfg1.win 4).cut (grid1.coords t) ((dat1 (F := Ideal) V c).after 4 t) = _
  rw [after1_4]
  refine (out_eq (iblk1 V c 0 t) (iblk1 V c 1 t) (iblk1 V c 2 t) (iblk1 V c 3 t)).trans ?_
  refine Eq.trans ?_ (read4_eq t _).symm
  rw [Cert.Spec.tile_bilinear]
  exact congr (congr (congr (congrArg Cert.Spec.bilinear (blk0_eq V c t)) (blk1_eq V c t)) (blk2_eq V c t))
    (congrArg Cert.Spec.wbt (blk3_eq V c t))

/-- An entry of the output array is in point `t`'s block iff its row is in tile `t`. -/
theorem mem_blk (t : Fin cfg1.N) (i : S450000x128.Idx) :
    i ∈ ((cfg1.win 4).blk t).view.set ↔ ∀ a : Fin 2, win1_4.index t a * S9000x128.size a ≤ (i a).val ∧ (i a).val < win1_4.index t a * S9000x128.size a + S9000x128.size a := by
  show i ∈ ((View.whole main_v3).slice (win1_4.rect t)).set ↔ _
  rw [View.set_slice_whole, Rect.mem_set_unit]
  exact Iff.rfl

/-- Every entry of the output array lies in the block of the point its row's tile names. -/
theorem cover (i : S450000x128.Idx) :
    ∃ t : Fin cfg1.N, (cfg1.win 4).flush t = true ∧ i ∈ ((cfg1.win 4).blk t).view.set := by
  have hi0 : (i 0).val < 450000 := (i 0).isLt
  have hi1 : (i 1).val < 128 := (i 1).isLt
  have hN : (i 0).val / 9000 < cfg1.N := Nat.lt_of_lt_of_eq (by omega) N_1.symm
  obtain ⟨-, -, -, -, -, -, -, -, -, e0, e1⟩ := idx_facts ⟨(i 0).val / 9000, hN⟩
  refine ⟨⟨(i 0).val / 9000, hN⟩, flush1_4 _, ?_⟩
  rw [mem_blk]
  intro a
  match a with
  | ⟨0, _⟩ =>
    show win1_4.index ⟨(i 0).val / 9000, hN⟩ (0 : Fin 2) * 9000 ≤ (i 0).val ∧ (i 0).val < win1_4.index ⟨(i 0).val / 9000, hN⟩ (0 : Fin 2) * 9000 + 9000
    rw [e0]
    show (i 0).val / 9000 * 9000 ≤ (i 0).val ∧ (i 0).val < (i 0).val / 9000 * 9000 + 9000
    omega
  | ⟨1, _⟩ =>
    show win1_4.index ⟨(i 0).val / 9000, hN⟩ (1 : Fin 2) * 128 ≤ (i 1).val ∧ (i 1).val < win1_4.index ⟨(i 0).val / 9000, hN⟩ (1 : Fin 2) * 128 + 128
    rw [e1]
    omega

end Region1

/-- After region 1 the array `m` holds the bilinear fuse of the gathered messages, the spherical basis, its
    projection and the eight slices of the bilinear weights, as the region found them. -/
theorem region1_m (c : Dev nD) :
    (dat1 (F := Ideal) V c).arrAt 4 cfg1.N
      = Cert.Spec.bilinear (V c main_v1) (V c main_arg2) (V c main_arg6) (Cert.Spec.wbt (V c main_v2)) :=
  (dat1 (F := Ideal) V c).arrAt_eq_of_cover 4 _ (fun t _ => Region1.flushed_eq V c t) Region1.cover

end Cert.Bridge

end
-- ==== Proof.Region2.lean ====
/-
  The head region of the interaction block, read off its frame: what the region leaves in its output
  array is the head of the specification, applied to the arrays the region finds. A grid point works on a
  tile of 5000 consecutive rows: each of its seven swish layers is a product of the tile with a square weight
  into the zero accumulator, a bias added to every row, and `z · σ(z)`; so the tile's result is the head of the
  tile's rows, and a tile of the head of whole arrays is the head of the tiles. The thirty tiles cover the rows.
-/
import proofs.«421744_j48490180772447_1_alg».proof.Proof.Spec
import proofs.«421744_j48490180772447_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Bridge.Region2

open Idealize.ShloMosaic Idealize.ShloMosaic.TcCoe Idealize.SL.Sem Idealize.ShloMosaic.ValueIdx
open Cert.KernelIdeal Cert.KernelIdeal.Gen
open Idealize.ShloMosaic.Pipeline (Dat)

/-! ## The product of a tile with a square weight, at an entry -/

theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of the product into the zero accumulator is `∑ k, x p k · w k q`. -/
theorem mm_apply (x : FVec Ideal S5000x128 .f32) (w : FVec Ideal S128x128 .f32) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  unfold matmul
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The layer's operands as the body builds them -/

/-- A weight slab `[1, 1, 128, 128]` viewed as a matrix. -/
def kw (v : Vec Ideal S1x1x128x128 .f32) : FVec Ideal S128x128 .f32 :=
  shapeCast S128x128 v shapeCasts_S1x1x128x128_S128x128

/-- A bias slab `[1, 1, 128]` viewed as a vector, as one row, and repeated over the tile's rows. -/
def kb (u : Vec Ideal S1x1x128 .f32) : FVec Ideal S5000x128 .f32 :=
  broadcastTo S5000x128 (shapeCast S1x128 (shapeCast S128 u shapeCasts_S1x1x128_S128) shapeCasts_S128_S1x128) broadcasts_S1x128_S5000x128

/-- A bias vector as one row, repeated over the tile's rows. -/
def kb1 (u : Vec Ideal S128 .f32) : FVec Ideal S5000x128 .f32 :=
  broadcastTo S5000x128 (shapeCast S1x128 u shapeCasts_S128_S1x128) broadcasts_S1x128_S5000x128

/-- The layer on a tile: `z · σ(z)` of `z = h · wk + bk`. -/
def kact (h : FVec Ideal S5000x128 .f32) (wk : FVec Ideal S128x128 .f32) (bk : FVec Ideal S5000x128 .f32) : FVec Ideal S5000x128 .f32 :=
  mulf (addf (matmul dot_S5000x128_S128x128_S5000x128_1_0_0_1_n_n none h wk (constant S5000x128 .f32 0x00000000#32)) bk)
    (logistic (addf (matmul dot_S5000x128_S128x128_S5000x128_1_0_0_1_n_n none h wk (constant S5000x128 .f32 0x00000000#32)) bk))

theorem kw_apply (v : Vec Ideal S1x1x128x128 .f32) (k q : Fin 128) :
    kw v (ix2 k q) = v (ix4 (0 : Fin 1) (0 : Fin 1) k q) :=
  shapeCast_apply v _ _ _ (by
    rw [Shape.rowMajor_val_four, Shape.rowMajor_val_two]
    show ((0 * 1 + 0) * 128 + k.val) * 128 + q.val = k.val * 128 + q.val
    omega)

theorem kb_apply (u : Vec Ideal S1x1x128 .f32) (p : Fin 5000) (q : Fin 128) :
    kb u (ix2 p q) = u (ix3 (0 : Fin 1) (0 : Fin 1) q) := by
  unfold kb
  rw [broadcastTo_1b_ab_apply, shapeCast_a_1a_apply]
  exact shapeCast_apply u _ _ _ (by
    rw [Shape.rowMajor_val_three, Shape.rowMajor_val_one]
    show (0 * 1 + 0) * 128 + q.val = q.val
    omega)

theorem kb1_apply (u : Vec Ideal S128 .f32) (p : Fin 5000) (q : Fin 128) :
    kb1 u (ix2 p q) = u (ix1 q) := by
  unfold kb1
  rw [broadcastTo_1b_ab_apply, shapeCast_a_1a_apply]

/-- THE LAYER IS THE SPECIFICATION'S DENSE LAYER, whenever its weight operand reads as the matrix `w` and its
    bias operand reads, in every row, as the vector `b`. -/
theorem kact_eq (h : FVec Ideal S5000x128 .f32) (wk : FVec Ideal S128x128 .f32) (bk : FVec Ideal S5000x128 .f32)
    (w : Cert.Spec.Mat 128 128) (b : Cert.Spec.Vc 128)
    (hw : ∀ k q : Fin 128, wk (ix2 k q) = w (ix2 k q)) (hb : ∀ (p : Fin 5000) (q : Fin 128), bk (ix2 p q) = b (ix1 q)) :
    kact h wk bk = Cert.Spec.dense h w b := by
  funext j
  obtain ⟨p, q, rfl⟩ : ∃ (p : Fin 5000) (q : Fin 128), j = ix2 p q := ⟨j 0, j 1, eq_ix2 j⟩
  have hz : addf (matmul dot_S5000x128_S128x128_S5000x128_1_0_0_1_n_n none h wk (constant S5000x128 .f32 0x00000000#32)) bk (ix2 p q)
      = (∑ k : Fin 128, h (ix2 p k) * w (ix2 k q)) + b (ix1 q) := by
    rw [addf_apply, mm_apply, hb]
    exact congrArg (· + b (ix1 q)) (Finset.sum_congr rfl fun k _ => by rw [hw])
  rw [Cert.Spec.dense_apply]
  show addf (matmul dot_S5000x128_S128x128_S5000x128_1_0_0_1_n_n none h wk (constant S5000x128 .f32 0x00000000#32)) bk (ix2 p q)
      * Ideal.logistic (addf (matmul dot_S5000x128_S128x128_S5000x128_1_0_0_1_n_n none h wk (constant S5000x128 .f32 0x00000000#32)) bk (ix2 p q)) = _
  rw [hz]
  rfl

/-- With the weight and the bias taken from slabs of the stacked arrays. -/
theorem kact_slab (h : FVec Ideal S5000x128 .f32) (v : Vec Ideal S1x1x128x128 .f32) (u : Vec Ideal S1x1x128 .f32)
    (w : Cert.Spec.Mat 128 128) (b : Cert.Spec.Vc 128)
    (hw : ∀ k q : Fin 128, v (ix4 (0 : Fin 1) (0 : Fin 1) k q) = w (ix2 k q))
    (hb : ∀ q : Fin 128, u (ix3 (0 : Fin 1) (0 : Fin 1) q) = b (ix1 q)) :
    kact h (kw v) (kb u) = Cert.Spec.dense h w b :=
  kact_eq h (kw v) (kb u) w b (fun k q => (kw_apply v k q).trans (hw k q)) (fun p q => (kb_apply u p q).trans (hb q))

/-- With a plain weight matrix and a plain bias vector. -/
theorem kact_plain (h : FVec Ideal S5000x128 .f32) (w : Vec Ideal S128x128 .f32) (b : Vec Ideal S128 .f32) :
    kact h w (kb1 b) = Cert.Spec.dense h w b :=
  kact_eq h w (kb1 b) w b (fun _ _ => rfl) (fun p q => kb1_apply b p q)

/-! ## The four payloads -/

section Payloads

variable (w0 w1 : Cert.Spec.Mat 128 128) (b0 b1 : Cert.Spec.Vc 128)

/-- The first part: a residual block on the sum of the two inputs, then the dense layer. -/
theorem pay2_eq (v0 v2 : Vec Ideal S5000x128 .f32) (v5 : Vec Ideal S1x1x128x128 .f32) (v8 : Vec Ideal S1x1x128 .f32)
    (v15 : Vec Ideal S1x1x128x128 .f32) (v18 : Vec Ideal S1x1x128 .f32) (v26 : Vec Ideal S128x128 .f32) (v28 : Vec Ideal S128 .f32)
    (hw0 : ∀ k q : Fin 128, v5 (ix4 (0 : Fin 1) (0 : Fin 1) k q) = w0 (ix2 k q)) (hb0 : ∀ q : Fin 128, v8 (ix3 (0 : Fin 1) (0 : Fin 1) q) = b0 (ix1 q))
    (hw1 : ∀ k q : Fin 128, v15 (ix4 (0 : Fin 1) (0 : Fin 1) k q) = w1 (ix2 k q)) (hb1 : ∀ q : Fin 128, v18 (ix3 (0 : Fin 1) (0 : Fin 1) q) = b1 (ix1 q)) :
    k2_pay2 v0 v2 v5 v8 v15 v18 v26 v28
      = Cert.Spec.dense (Cert.Spec.resblock (Cert.Spec.madd v0 v2) w0 b0 w1 b1) v26 v28 := by
  have hs : addf (shapeCast S5000x128 v0 shapeCasts_S5000x128_S5000x128) (shapeCast S5000x128 v2 shapeCasts_S5000x128_S5000x128)
      = Cert.Spec.madd v0 v2 := by
    rw [shapeCast_self, shapeCast_self]; rfl
  have e1 := kact_slab (Cert.Spec.madd v0 v2) v5 v8 w0 b0 hw0 hb0
  have e2 := kact_slab (Cert.Spec.dense (Cert.Spec.madd v0 v2) w0 b0) v15 v18 w1 b1 hw1 hb1
  have e3 := kact_plain (Cert.Spec.madd (Cert.Spec.madd v0 v2) (Cert.Spec.dense (Cert.Spec.dense (Cert.Spec.madd v0 v2) w0 b0) w1 b1)) v26 v28
  unfold Cert.Spec.resblock
  rw [← e3, ← e2, ← e1, ← hs]
  rfl

/-- The second part's first value: the skip, then a residual block. -/
theorem pay3_eq (v33 : FVec Ideal S5000x128 .f32) (v34 : Vec Ideal S5000x128 .f32) (v36 : Vec Ideal S1x1x128x128 .f32) (v39 : Vec Ideal S1x1x128 .f32)
    (v46 : Vec Ideal S1x1x128x128 .f32) (v49 : Vec Ideal S1x1x128 .f32)
    (hw0 : ∀ k q : Fin 128, v36 (ix4 (0 : Fin 1) (0 : Fin 1) k q) = w0 (ix2 k q)) (hb0 : ∀ q : Fin 128, v39 (ix3 (0 : Fin 1) (0 : Fin 1) q) = b0 (ix1 q))
    (hw1 : ∀ k q : Fin 128, v46 (ix4 (0 : Fin 1) (0 : Fin 1) k q) = w1 (ix2 k q)) (hb1 : ∀ q : Fin 128, v49 (ix3 (0 : Fin 1) (0 : Fin 1) q) = b1 (ix1 q)) :
    k2_pay3 v33 v34 v36 v39 v46 v49 = Cert.Spec.resblock (Cert.Spec.madd v33 v34) w0 b0 w1 b1 := by
  have e1 := kact_slab (Cert.Spec.madd v33 v34) v36 v39 w0 b0 hw0 hb0
  have e2 := kact_slab (Cert.Spec.dense (Cert.Spec.madd v33 v34) w0 b0) v46 v49 w1 b1 hw1 hb1
  unfold Cert.Spec.resblock
  rw [← e2, ← e1]
  rfl

/-- The second part's second value: one more layer on the first. -/
theorem pay4_eq (v33 : FVec Ideal S5000x128 .f32) (v34 : Vec Ideal S5000x128 .f32) (v36 : Vec Ideal S1x1x128x128 .f32) (v39 : Vec Ideal S1x1x128 .f32)
    (v46 : Vec Ideal S1x1x128x128 .f32) (v49 : Vec Ideal S1x1x128 .f32) (v57 : Vec Ideal S1x1x128x128 .f32) (v60 : Vec Ideal S1x1x128 .f32)
    (hw0 : ∀ k q : Fin 128, v57 (ix4 (0 : Fin 1) (0 : Fin 1) k q) = w0 (ix2 k q)) (hb0 : ∀ q : Fin 128, v60 (ix3 (0 : Fin 1) (0 : Fin 1) q) = b0 (ix1 q)) :
    k2_pay4 v33 v34 v36 v39 v46 v49 v57 v60 = Cert.Spec.dense (k2_pay3 v33 v34 v36 v39 v46 v49) w0 b0 :=
  kact_slab (k2_pay3 v33 v34 v36 v39 v46 v49) v57 v60 w0 b0 hw0 hb0

/-- The stored value: the last layer, added to the block's input. -/
theorem pay1_eq (v56 v66 : FVec Ideal S5000x128 .f32) (v67 : Vec Ideal S1x1x128x128 .f32) (v70 : Vec Ideal S1x1x128 .f32)
    (hw0 : ∀ k q : Fin 128, v67 (ix4 (0 : Fin 1) (0 : Fin 1) k q) = w0 (ix2 k q)) (hb0 : ∀ q : Fin 128, v70 (ix3 (0 : Fin 1) (0 : Fin 1) q) = b0 (ix1 q)) :
    k2_pay1 v56 v66 v67 v70 = Cert.Spec.madd v56 (Cert.Spec.dense v66 w0 b0) := by
  rw [← kact_slab v66 v67 v70 w0 b0 hw0 hb0]
  rfl

end Payloads

/-! ## The slabs of the stacked weights, as the body loads them -/

theorem ldW (x3 : Vec Ideal S3x2x128x128 .f32) (o0 o1 : Nat) (inb) (a : Fin 3) (b : Fin 2) (ha : o0 = a.val) (hb : o1 = b.val) (k q : Fin 128) :
    View.ld x3 (Rect.unit (s := S3x2x128x128) ![o0, o1, 0, 0] S1x1x128x128.size inb) (ix4 (0 : Fin 1) (0 : Fin 1) k q)
      = Cert.Spec.wres x3 a b (ix2 k q) := by
  subst ha hb
  rw [Cert.Spec.wres_apply]
  show x3 _ = x3 _
  refine congrArg x3 (funext fun d => Fin.ext ?_)
  match d with
  | ⟨0, _⟩ => show a.val + 1 * 0 = a.val; omega
  | ⟨1, _⟩ => show b.val + 1 * 0 = b.val; omega
  | ⟨2, _⟩ => show 0 + 1 * k.val = k.val; omega
  | ⟨3, _⟩ => show 0 + 1 * q.val = q.val; omega

theorem ldB (x4 : Vec Ideal S3x2x128 .f32) (o0 o1 : Nat) (inb) (a : Fin 3) (b : Fin 2) (ha : o0 = a.val) (hb : o1 = b.val) (q : Fin 128) :
    View.ld x4 (Rect.unit (s := S3x2x128) ![o0, o1, 0] S1x1x128.size inb) (ix3 (0 : Fin 1) (0 : Fin 1) q)
      = Cert.Spec.bres x4 a b (ix1 q) := by
  subst ha hb
  rw [Cert.Spec.bres_apply]
  show x4 _ = x4 _
  refine congrArg x4 (funext fun d => Fin.ext ?_)
  match d with
  | ⟨0, _⟩ => show a.val + 1 * 0 = a.val; omega
  | ⟨1, _⟩ => show b.val + 1 * 0 = b.val; omega
  | ⟨2, _⟩ => show 0 + 1 * q.val = q.val; omega

/-! ## What the body leaves in the output block: the head of the blocks -/

theorem hz2 : (![0, 0] : Fin 2 → Nat) = fun _ => 0 := funext fun a => by fin_cases a <;> rfl
theorem hz1 : (![0] : Fin 1 → Nat) = fun _ => 0 := funext fun a => by fin_cases a; rfl

theorem out_eq (x0 x1 x2 : Vec Ideal S5000x128 .f32) (x3 : Vec Ideal S3x2x128x128 .f32) (x4 : Vec Ideal S3x2x128 .f32)
    (x5 : Vec Ideal S128x128 .f32) (x6 : Vec Ideal S128 .f32) :
    out2_7 x0 x1 x2 x3 x4 x5 x6 = Cert.Spec.head x0 x1 x2 (Cert.Spec.wres x3) (Cert.Spec.bres x4) x5 x6 := by
  unfold out2_7
  rw [View.canon_unit_zero hz2]
  simp only [View.ld_unit_zero (S := S5000x128) hz2, View.ld_unit_zero (S := S128x128) hz2, View.ld_unit_zero (S := S128) hz1]
  rw [pay2_eq (Cert.Spec.wres x3 0 0) (Cert.Spec.wres x3 0 1) (Cert.Spec.bres x4 0 0) (Cert.Spec.bres x4 0 1)
        x0 x1 (View.ld x3 r2_1) (View.ld x4 r2_2) (View.ld x3 r2_3) (View.ld x4 r2_4) x5 x6
        (fun k q => ldW x3 0 0 _ 0 0 rfl rfl k q) (fun q => ldB x4 0 0 _ 0 0 rfl rfl q)
        (fun k q => ldW x3 0 1 _ 0 1 rfl rfl k q) (fun q => ldB x4 0 1 _ 0 1 rfl rfl q)]
  rw [pay4_eq (Cert.Spec.wres x3 2 0) (Cert.Spec.bres x4 2 0) _ x2 (View.ld x3 r2_7) (View.ld x4 r2_8) (View.ld x3 r2_9) (View.ld x4 r2_10)
        (View.ld x3 r2_11) (View.ld x4 r2_12)
        (fun k q => ldW x3 2 0 _ 2 0 rfl rfl k q) (fun q => ldB x4 2 0 _ 2 0 rfl rfl q)]
  rw [pay3_eq (Cert.Spec.wres x3 1 0) (Cert.Spec.wres x3 1 1) (Cert.Spec.bres x4 1 0) (Cert.Spec.bres x4 1 1)
        _ x2 (View.ld x3 r2_7) (View.ld x4 r2_8) (View.ld x3 r2_9) (View.ld x4 r2_10)
        (fun k q => ldW x3 1 0 _ 1 0 rfl rfl k q) (fun q => ldB x4 1 0 _ 1 0 rfl rfl q)
        (fun k q => ldW x3 1 1 _ 1 1 rfl rfl k q) (fun q => ldB x4 1 1 _ 1 1 rfl rfl q)]
  rw [pay1_eq (Cert.Spec.wres x3 2 1) (Cert.Spec.bres x4 2 1) _ _ (View.ld x3 r2_13) (View.ld x4 r2_14)
        (fun k q => ldW x3 2 1 _ 2 1 rfl rfl k q) (fun q => ldB x4 2 1 _ 2 1 rfl rfl q)]
  rfl

end Cert.Bridge.Region2

/-! ## The blocks a grid point works on -/

namespace Cert.Bridge.Region2

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- The printed index maps over the grid: a row window's block index is the grid point on the row axis and zero on
    the column axis; a weight window's is zero on every axis. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_7.index t (0 : Fin 2) = t.val ∧ win2_7.index t (1 : Fin 2) = 0)
    ∧ (win2_3.index t (0 : Fin 4) = 0 ∧ win2_3.index t (1 : Fin 4) = 0 ∧ win2_3.index t (2 : Fin 4) = 0 ∧ win2_3.index t (3 : Fin 4) = 0)
    ∧ (win2_4.index t (0 : Fin 3) = 0 ∧ win2_4.index t (1 : Fin 3) = 0 ∧ win2_4.index t (2 : Fin 3) = 0)
    ∧ (win2_5.index t (0 : Fin 2) = 0 ∧ win2_5.index t (1 : Fin 2) = 0)
    ∧ win2_6.index t (0 : Fin 1) = 0 :=
  (by decide +kernel : ∀ t : Fin grid2.N, _)

theorem tile_inb (t : Fin cfg2.N) : t.val * 5000 + 5000 ≤ 150000 := by
  have h : t.val < 30 := Nat.lt_of_lt_of_eq t.isLt N_2
  omega

/-- Row window 0's block at point `t` is rows `5000 t, …` of its array. -/
theorem iblk_0 (c : Dev nD) (t : Fin cfg2.N) :
    (iblk2 V c 0 t : Vec Ideal S5000x128 .f32) = Cert.Spec.tile 5000 (t.val * 5000) (tile_inb t) (V c main_v0_0) := by
  obtain ⟨⟨e0, e1⟩, -⟩ := idx_facts t
  funext j
  obtain ⟨p, q, rfl⟩ : ∃ (p : Fin 5000) (q : Fin 128), j = ix2 p q := ⟨j 0, j 1, eq_ix2 j⟩
  rw [Cert.Spec.tile_apply]
  unfold iblk2
  rw [View.read_apply]
  show (V c main_v0_0 : S150000x128.Idx → EReal) (((cfg2.win 0).blk t).view.emb (ix2 p q)) = (V c main_v0_0 : S150000x128.Idx → EReal) _
  refine congrArg (V c main_v0_0 : S150000x128.Idx → EReal) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * q.val = q.val; omega

theorem iblk_1 (c : Dev nD) (t : Fin cfg2.N) :
    (iblk2 V c 1 t : Vec Ideal S5000x128 .f32) = Cert.Spec.tile 5000 (t.val * 5000) (tile_inb t) (V c main_v6) := by
  obtain ⟨-, ⟨e0, e1⟩, -⟩ := idx_facts t
  funext j
  obtain ⟨p, q, rfl⟩ : ∃ (p : Fin 5000) (q : Fin 128), j = ix2 p q := ⟨j 0, j 1, eq_ix2 j⟩
  rw [Cert.Spec.tile_apply]
  unfold iblk2
  rw [View.read_apply]
  show (V c main_v6 : S150000x128.Idx → EReal) (((cfg2.win 1).blk t).view.emb (ix2 p q)) = (V c main_v6 : S150000x128.Idx → EReal) _
  refine congrArg (V c main_v6 : S150000x128.Idx → EReal) (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * q.val = q.val; omega

theorem iblk_2 (c : Dev nD) (t : Fin cfg2.N) :
    (iblk2 V c 2 t : Vec Ideal S5000x128 .f32) = Cert.Spec.tile 5000 (t.val * 5000) (tile_inb t) (V c main_arg0) := by
  obtain ⟨-, -, ⟨e0, e1⟩, -⟩ := idx_facts t
  funext j
  obtain ⟨p, q, rfl⟩ : ∃ (p : Fin 5000) (q : Fin 128), j = ix2 p q := ⟨j 0, j 1, eq_ix2 j⟩
  rw [Cert.Spec.tile_apply]
  unfold iblk2
  rw [View.read_apply]
  show (V c main_arg0 : S150000x128.Idx → EReal) (((cfg2.win 2).blk t).view.emb (ix2 p q)) = (V c main_arg0 : S150000x128.Idx → EReal) _
  refine congrArg (V c main_arg0 : S150000x128.Idx → EReal) (funext fun a => Fin.ext ?_)
  match a with
  | ⟨0, _⟩ => show win2_2.index t (0 : Fin 2) * 5000 + 1 * p.val = t.val * 5000 + p.val; omega
  | ⟨1, _⟩ => show win2_2.index t (1 : Fin 2) * 128 + 1 * q.val = q.val; omega

/-- A weight window's block is its whole array, at every point. -/
theorem iblk_3 (c : Dev nD) (t : Fin cfg2.N) :
    (iblk2 V c 3 t : Vec Ideal S3x2x128x128 .f32) = V c main_arg12 := by
  obtain ⟨-, -, -, -, ⟨e0, e1, e2, e3⟩, -⟩ := idx_facts t
  funext j
  unfold iblk2
  rw [View.read_apply]
  show (V c main_arg12 : S3x2x128x128.Idx → EReal) (((cfg2.win 3).blk t).view.emb j) = (V c main_arg12 : S3x2x128x128.Idx → EReal) j
  refine congrArg (V c main_arg12 : S3x2x128x128.Idx → EReal) (funext fun a => Fin.ext ?_)
  match a with
  | ⟨0, _⟩ => show win2_3.index t (0 : Fin 4) * 3 + 1 * (j 0).val = (j 0).val; omega
  | ⟨1, _⟩ => show win2_3.index t (1 : Fin 4) * 2 + 1 * (j 1).val = (j 1).val; omega
  | ⟨2, _⟩ => show win2_3.index t (2 : Fin 4) * 128 + 1 * (j 2).val = (j 2).val; omega
  | ⟨3, _⟩ => show win2_3.index t (3 : Fin 4) * 128 + 1 * (j 3).val = (j 3).val; omega

theorem iblk_4 (c : Dev nD) (t : Fin cfg2.N) :
    (iblk2 V c 4 t : Vec Ideal S3x2x128 .f32) = V c main_arg13 := by
  obtain ⟨-, -, -, -, -, ⟨e0, e1, e2⟩, -⟩ := idx_facts t
  funext j
  unfold iblk2
  rw [View.read_apply]
  show (V c main_arg13 : S3x2x128.Idx → EReal) (((cfg2.win 4).blk t).view.emb j) = (V c main_arg13 : S3x2x128.Idx → EReal) j
  refine congrArg (V c main_arg13 : S3x2x128.Idx → EReal) (funext fun a => Fin.ext ?_)
  match a with
  | ⟨0, _⟩ => show win2_4.index t (0 : Fin 3) * 3 + 1 * (j 0).val = (j 0).val; omega
  | ⟨1, _⟩ => show win2_4.index t (1 : Fin 3) * 2 + 1 * (j 1).val = (j 1).val; omega
  | ⟨2, _⟩ => show win2_4.index t (2 : Fin 3) * 128 + 1 * (j 2).val = (j 2).val; omega

theorem iblk_5 (c : Dev nD) (t : Fin cfg2.N) :
    (iblk2 V c 5 t : Vec Ideal S128x128 .f32) = V c main_arg14 := by
  obtain ⟨-, -, -, -, -, -, ⟨e0, e1⟩, -⟩ := idx_facts t
  funext j
  unfold iblk2
  rw [View.read_apply]
  show (V c main_arg14 : S128x128.Idx → EReal) (((cfg2.win 5).blk t).view.emb j) = (V c main_arg14 : S128x128.Idx → EReal) j
  refine congrArg (V c main_arg14 : S128x128.Idx → EReal) (funext fun a => Fin.ext ?_)
  match a with
  | ⟨0, _⟩ => show win2_5.index t (0 : Fin 2) * 128 + 1 * (j 0).val = (j 0).val; omega
  | ⟨1, _⟩ => show win2_5.index t (1 : Fin 2) * 128 + 1 * (j 1).val = (j 1).val; omega

theorem iblk_6 (c : Dev nD) (t : Fin cfg2.N) :
    (iblk2 V c 6 t : Vec Ideal S128 .f32) = V c main_arg15 := by
  obtain ⟨-, -, -, -, -, -, -, e0⟩ := idx_facts t
  funext j
  unfold iblk2
  rw [View.read_apply]
  show (V c main_arg15 : S128.Idx → EReal) (((cfg2.win 6).blk t).view.emb j) = (V c main_arg15 : S128.Idx → EReal) j
  refine congrArg (V c main_arg15 : S128.Idx → EReal) (funext fun a => Fin.ext ?_)
  match a with
  | ⟨0, _⟩ => show win2_6.index t (0 : Fin 1) * 128 + 1 * (j 0).val = (j 0).val; omega

/-! ## From the blocks to the array -/

/-- The head of the arrays the region finds. -/
abbrev G (c : Dev nD) : Cert.Spec.Mat 150000 128 :=
  Cert.Spec.head (V c main_v0_0) (V c main_v6) (V c main_arg0) (Cert.Spec.wres (V c main_arg12)) (Cert.Spec.bres (V c main_arg13))
    (V c main_arg14) (V c main_arg15)

/-- What the body leaves at point `t` is tile `t` of the head of the arrays. -/
theorem after_eq (c : Dev nD) (t : Fin cfg2.N) :
    (dat2 V c).after 7 t = Cert.Spec.tile 5000 (t.val * 5000) (tile_inb t) (G V c) := by
  rw [after2_7, out_eq (iblk2 V c 0 t) (iblk2 V c 1 t) (iblk2 V c 2 t) (iblk2 V c 3 t) (iblk2 V c 4 t) (iblk2 V c 5 t) (iblk2 V c 6 t),
    iblk_0 V c t, iblk_1 V c t, iblk_2 V c t, iblk_3 V c t, iblk_4 V c t, iblk_5 V c t, iblk_6 V c t]
  exact (Cert.Spec.tile_head 5000 (t.val * 5000) (tile_inb t) _ _ _ _ _ _ _).symm

/-- WHAT POINT `t` WRITES BACK is block `t` of the head of the arrays. -/
theorem flushed_eq (c : Dev nD) (t : Fin cfg2.N) :
    (dat2 V c).flushed 7 t = ((cfg2.win 7).blk t).view.read (Elt Ideal) (G V c) := by
  obtain ⟨-, -, -, ⟨e0, e1⟩, -⟩ := idx_facts t
  show (cfg2.win 7).cut (grid2.coords t) ((dat2 V c).after 7 t) = _
  rw [after_eq V c t]
  funext j
  obtain ⟨p, q, rfl⟩ : ∃ (p : Fin 5000) (q : Fin 128), j = ix2 p q := ⟨j 0, j 1, eq_ix2 j⟩
  rw [View.read_apply]
  show Cert.Spec.tile 5000 (t.val * 5000) (tile_inb t) (G V c) (ix2 p q) = (G V c : S150000x128.Idx → EReal) (((cfg2.win 7).blk t).view.emb (ix2 p q))
  rw [Cert.Spec.tile_apply]
  refine congrArg (G V c : S150000x128.Idx → EReal) (funext fun a => Fin.ext ?_)
  match a with
  | ⟨0, _⟩ => show t.val * 5000 + p.val = win2_7.index t (0 : Fin 2) * 5000 + 1 * p.val; omega
  | ⟨1, _⟩ => show q.val = win2_7.index t (1 : Fin 2) * 128 + 1 * q.val; omega

/-- An index of the output array is in point `t`'s block iff each coordinate is in the block's range on its axis. -/
theorem mem_blk (t : Fin cfg2.N) (i : S150000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v7).slice (win2_7.rect t)).set ↔ _
  rw [View.set_slice_whole, Rect.mem_set_unit]
  exact Iff.rfl

/-- Row `r` is in the block of point `r / 5000`: the thirty blocks cover the array. -/
theorem cover (i : S150000x128.Idx) : ∃ t : Fin cfg2.N, (cfg2.win 7).flush t = true ∧ i ∈ ((cfg2.win 7).blk t).view.set := by
  have hi0 : (i 0).val < 150000 := (i 0).isLt
  have hi1 : (i 1).val < 128 := (i 1).isLt
  have hN : cfg2.N = 30 := N_2
  let t : Fin cfg2.N := ⟨(i 0).val / 5000, by rw [hN]; omega⟩
  obtain ⟨-, -, -, ⟨e0, e1⟩, -⟩ := idx_facts t
  have e0' : win2_7.index t (0 : Fin 2) = (i 0).val / 5000 := e0
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

end Cert.Bridge.Region2

namespace Cert.Bridge

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- THE HEAD REGION'S OUTPUT ARRAY after its run is the head of the arrays the region finds. -/
theorem region2_out (c : Dev nD) :
    (dat2 (F := Ideal) V c).arrAt 7 cfg2.N
      = Cert.Spec.head (V c main_v0_0) (V c main_v6) (V c main_arg0) (Cert.Spec.wres (V c main_arg12)) (Cert.Spec.bres (V c main_arg13))
          (V c main_arg14) (V c main_arg15) :=
  (dat2 (F := Ideal) V c).arrAt_eq_of_cover 7 (Region2.G V c) (fun t _ => Region2.flushed_eq V c t) Region2.cover

end Cert.Bridge

end
-- ==== Proof.Take.lean ====
import proofs.«421744_j48490180772447_1_alg».proof.Proof.Gen.KernelIdeal.Launch
import Idealize.ShloMosaic.Lib.StableHlo.Run
import Idealize.ShloMosaic.Lib.StableHlo.Predicate
import Idealize.ShloMosaic.PureOps.Ideal

/-!
The row gather between the first and the second kernel region, on in-range start indices.

The program's take wraps a negative start index by the table's height, lays the indices as a column,
gathers one table row per index (the gather clamps its start index into the table), and then
replaces by a fill value every row whose wrapped index falls outside [0, 149999]: the row's mask
is the conjunction, over the column's one entry, of the two signed comparisons.
When every index word has an unsigned value below 150000 nothing is wrapped and every row's mask
is 1, so the result is the plain gather of the table at the index column.
-/

set_option maxRecDepth 16384

noncomputable section

namespace Cert.Bridge

open Idealize.ShloMosaic Idealize.ShloMosaic.TcCoe Idealize.SL.Sem Idealize.ShloMosaic.StableHlo
open Cert.KernelIdeal Cert.KernelIdeal.Gen

/-- The start-index column both programs gather with: a negative word wrapped by the table's height, then laid as a column. -/
def idxCol [Cert.KernelIdeal.Facts] (x3 : IVec S450000 32) : IVec S450000x1 32 :=
  broadcastInDim S450000x1 ![0] Facts₀.bcast_S450000_S450000x1_0
    (select (cmpi .slt x3 (broadcastInDim S450000 ![] Facts₀.bcast_S_S450000 (constantI S_ 32 0#32)))
      (addi x3 (broadcastInDim S450000 ![] Facts₀.bcast_S_S450000 (constantI S_ 32 150000#32))) x3)

namespace Take

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 by decide]
    exact foldl_andi_one f l fun n hn => h n (List.mem_cons_of_mem _ hn)

/-- A reduction by `and` from 1 of an array of ones is 1 at every result position. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

/-- A word with a small unsigned value is not negative when read signed. -/
theorem slt_zero_of_small {x : BitVec 32} (hx : x.toNat < 150000) : IntOp.cmpi .slt x 0#32 = 0#1 := by
  have h : ¬ (IntOp.cmpi .slt x 0#32 = 1#1) := by
    rw [StableHlo.Predicate.slt_iff_toNat (by omega) (by decide)]
    simp
  generalize IntOp.cmpi .slt x 0#32 = b at h
  revert h; revert b; decide

theorem sge_zero_of_small {x : BitVec 32} (hx : x.toNat < 150000) : IntOp.cmpi .sge x 0#32 = 1#1 := by
  rw [StableHlo.Predicate.sge_iff_toNat (by omega) (by decide)]
  simp

theorem sle_last_of_small {x : BitVec 32} (hx : x.toNat < 150000) : IntOp.cmpi .sle x 149999#32 = 1#1 := by
  rw [StableHlo.Predicate.sle_iff_toNat (by omega) (by decide)]
  show x.toNat ≤ 149999
  omega

variable [Cert.KernelIdeal.Facts]

/-- On in-range words the wrap of negative indices changes nothing. -/
theorem wrap_keeps (x3 : IVec S450000 32) (hin : ∀ i : S450000.Idx, (x3 i).toNat < 150000) :
    select (cmpi .slt x3 (broadcastInDim S450000 ![] Facts₀.bcast_S_S450000 (constantI S_ 32 0#32)))
      (addi x3 (broadcastInDim S450000 ![] Facts₀.bcast_S_S450000 (constantI S_ 32 150000#32))) x3 = x3 := by
  funext i
  show Scalar.select (IntOp.cmpi .slt (x3 i) 0#32) _ (x3 i) = x3 i
  rw [slt_zero_of_small (hin i)]
  exact if_neg (by decide)

/-- Every entry of the index column is an in-range word. -/
theorem idxCol_small (x3 : IVec S450000 32) (hin : ∀ i : S450000.Idx, (x3 i).toNat < 150000) (j : S450000x1.Idx) :
    (idxCol x3 j).toNat < 150000 := by
  unfold idxCol
  rw [wrap_keeps x3 hin]
  exact hin _

/-- The row mask of the take, over an index column `col`: per row, the conjunction over the column's one entry of
    "at least 0" and "at most 149999", both signed. -/
def rowMask (col : IVec S450000x1 32) : IVec S450000 1 :=
  Host.reduce IntOp.andi
    (andi (cmpi .sge col (broadcastInDim S450000x1 ![] Facts₀.bcast_S_S450000x1 (constantI S_ 32 0#32)))
      (cmpi .sle col (broadcastInDim S450000x1 ![0, 1] Facts₀.bcast_S1x1_S450000x1_0_1
        (broadcastInDim S1x1 ![1] Facts₀.bcast_S1_S1x1_1 (constantI S1 32 149999#32)))))
    (constantI S_ 1 1#1) Facts₀.reducesTo_S450000x1_S450000_d1 Facts₀.h_S_

/-- Over a column of in-range words every row's mask is 1. -/
theorem rowMask_one (col : IVec S450000x1 32) (hcol : ∀ j : S450000x1.Idx, (col j).toNat < 150000) (p : S450000.Idx) :
    rowMask col p = 1#1 := by
  unfold rowMask
  refine reduce_andi_of_all _ _ _ _ rfl (fun j => ?_) p
  show IntOp.andi (IntOp.cmpi .sge (col j) 0#32) (IntOp.cmpi .sle (col j) 149999#32) = 1#1
  rw [sge_zero_of_small (hcol j), sle_last_of_small (hcol j)]
  decide

/-- A select whose mask is the row mask of an in-range column, laid along the rows, keeps its first operand. -/
theorem select_rowMask {α : Type} (col : IVec S450000x1 32) (hcol : ∀ j : S450000x1.Idx, (col j).toNat < 150000)
    (g n : S450000x128.Idx → α) :
    select (broadcastInDim S450000x128 ![0] Facts₀.bcast_S450000_S450000x128_0 (rowMask col)) g n = g := by
  funext j
  have hm : broadcastInDim S450000x128 ![0] Facts₀.bcast_S450000_S450000x128_0 (rowMask col) j = 1#1 := rowMask_one col hcol _
  show Scalar.select (broadcastInDim S450000x128 ![0] Facts₀.bcast_S450000_S450000x128_0 (rowMask col) j) (g j) (n j) = g j
  rw [hm]
  exact if_pos rfl

end Take

/-- The buffer the take leaves, from any contents whose start-index words are in range: the gather of the table's
    rows at the index column. -/
theorem take_result (W : Valuation τ sig (Elt Ideal))
    (hin : ∀ i : S450000.Idx, ((W (Proc.devRef .tc main_arg3) : IVec S450000 32) i).toNat < 150000) :
    (StableHlo.after (hostOps1 (F := Ideal)) W (Proc.devRef .tc main_v1) : (⟨S450000x128, .f32⟩ : BufTy).Contents (Elt Ideal))
      = Host.gather gather_S150000x128_S450000x1_S450000x128_1_0_n_n_0_1_1128 (W (Proc.devRef .tc main_v0_1))
          (idxCol (W (Proc.devRef .tc main_arg3))) := by
  -- the buffer's contents as the composed term of the twenty-three operations over `W`
  after_results_simp
  simp only [TRef.toBuf, TRef.ofBuf, cast_eq]
  -- name the index column: it occurs under the mask, under the gather and on the right
  have hcol := Take.idxCol_small (W (Proc.devRef .tc main_arg3)) hin
  unfold idxCol at hcol ⊢
  revert hcol
  generalize broadcastInDim S450000x1 ![0] bcast_S450000_S450000x1_0
    (select (cmpi .slt (W (Proc.devRef .tc main_arg3)) (broadcastInDim S450000 ![] bcast_S_S450000 (constantI S_ 32 0#32)))
      (addi (W (Proc.devRef .tc main_arg3)) (broadcastInDim S450000 ![] bcast_S_S450000 (constantI S_ 32 150000#32)))
      (W (Proc.devRef .tc main_arg3))) = col
  intro hcol
  exact Take.select_rowMask col hcol _ _

end Cert.Bridge
-- ==== Proof.Assembly.lean ====
/-
  The idealized kernel's result buffer after the run, as ONE term of the launch contents.
  @main is three row-tiled regions among host operations. The buffer contents at each boundary are a fold from the
  launch memory; read at the buffers the next item takes, the fold gives: after the first region the two gated edge
  messages (dense layers of `x`, one multiplied by the radial projection); after the take, the rows of the second
  message gathered by `edge_idx_kj` (a plain gather, the indices being in range); after the second region the bilinear
  fuse of the gathered rows; after the scatter-add its sums by `edge_idx_ji`; after the third region the residual head.
  No host operation and no region writes a buffer it does not own, so every other buffer is carried unchanged.
-/
import proofs.«421744_j48490180772447_1_alg».proof.Proof.Spec
import proofs.«421744_j48490180772447_1_alg».proof.Proof.Region0
import proofs.«421744_j48490180772447_1_alg».proof.Proof.Region1
import proofs.«421744_j48490180772447_1_alg».proof.Proof.Region2
import proofs.«421744_j48490180772447_1_alg».proof.Proof.Take
import proofs.«421744_j48490180772447_1_alg».proof.Proof.Gen.KernelIdeal.Frame
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- A buffer no operation of a host stretch writes keeps its contents through the stretch. -/
local macro "keep_through " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## After the first region -/

theorem W1_xji : W1 m ρ c (Proc.devRef .tc main_v0_0)
    = Cert.Spec.dense (m ((c : Thread nD τ).loc main_arg0)) (m ((c : Thread nD τ).loc main_arg9)) (m ((c : Thread nD τ).loc main_arg10)) :=
  (W1_arr m ρ c 7).trans (region0_ji (V0 m ρ) c)

theorem W1_xkj : W1 m ρ c (Proc.devRef .tc main_v0_1)
    = Cert.Spec.gated (m ((c : Thread nD τ).loc main_arg0)) (m ((c : Thread nD τ).loc main_arg1)) (m ((c : Thread nD τ).loc main_arg5))
        (m ((c : Thread nD τ).loc main_arg7)) (m ((c : Thread nD τ).loc main_arg8)) :=
  (W1_arr m ρ c 8).trans (region0_kj (V0 m ρ) c)

/-- The arguments are as launched at every boundary the proof reads them at. -/
theorem W1_arg (b : Ref sig .tc) (hb : ∀ w, Pipeline.arrRef spec0 w ≠ b) :
    W1 m ρ c (Proc.devRef .tc b) = m ((c : Thread nD τ).loc b) :=
  W1_of_ne m ρ c b hb

theorem W1_arg3 : W1 m ρ c (Proc.devRef .tc main_arg3) = m ((c : Thread nD τ).loc main_arg3) := W1_arg m ρ c main_arg3 (by decide)

/-! ## Through the take and the transpose -/

theorem W2_tkj (hin : ∀ i : S450000.Idx, ((m ((c : Thread nD τ).loc main_arg3) : IVec S450000 32) i).toNat < 150000) :
    W2 m ρ c (Proc.devRef .tc main_v1)
      = Host.gather gather_S150000x128_S450000x1_S450000x128_1_0_n_n_0_1_1128 (W1 m ρ c (Proc.devRef .tc main_v0_1))
          (idxCol (m ((c : Thread nD τ).loc main_arg3))) := by
  have h := take_result (W1 m ρ c) (by rw [W1_arg3]; exact hin)
  rw [W1_arg3] at h
  exact h

theorem W3_tkj : W3 m ρ c (Proc.devRef .tc main_v1) = W2 m ρ c (Proc.devRef .tc main_v1) := by
  keep_through hostOps1_1

theorem W3_wbt : W3 m ρ c (Proc.devRef .tc main_v2)
    = transpose S8x128x128 [1, 2, 0] (W2 m ρ c (Proc.devRef .tc main_arg11)) Facts₀.transposes_S128x8x128_S8x128x128_1_2_0 := by
  show StableHlo.after hostOps1_1 (W2 m ρ c) (Proc.devRef .tc main_v2) = _
  after_results

/-! ## After the second region -/

theorem W4_m : W4 m ρ c (Proc.devRef .tc main_v3)
    = Cert.Spec.bilinear (W3 m ρ c (Proc.devRef .tc main_v1)) (W3 m ρ c (Proc.devRef .tc main_arg2)) (W3 m ρ c (Proc.devRef .tc main_arg6))
        (Cert.Spec.wbt (W3 m ρ c (Proc.devRef .tc main_v2))) :=
  (W4_arr m ρ c 4).trans (region1_m (V3 m ρ) c)

/-! ## Through the scatter-add -/

theorem W5_agg : W5 m ρ c (Proc.devRef .tc main_v6)
    = Host.scatterAdd scatter_S150000x128_S450000x1_S450000x128_1_0_0_1
        (broadcastInDim S150000x128 ![] Facts₀.bcast_S_S150000x128 (constant (F := Ideal) S_ .f32 0x00000000#32))
        (broadcastInDim S450000x1 ![0] Facts₀.bcast_S450000_S450000x1_0 (W4 m ρ c (Proc.devRef .tc main_arg4)))
        (W4 m ρ c (Proc.devRef .tc main_v3)) := by
  show StableHlo.after hostOps2 (W4 m ρ c) (Proc.devRef .tc main_v6) = _
  after_results

/-! ## After the third region -/

theorem W6_out : W6 m ρ c (Proc.devRef .tc main_v7)
    = Cert.Spec.head (W5 m ρ c (Proc.devRef .tc main_v0_0)) (W5 m ρ c (Proc.devRef .tc main_v6)) (W5 m ρ c (Proc.devRef .tc main_arg0))
        (Cert.Spec.wres (W5 m ρ c (Proc.devRef .tc main_arg12))) (Cert.Spec.bres (W5 m ρ c (Proc.devRef .tc main_arg13)))
        (W5 m ρ c (Proc.devRef .tc main_arg14)) (W5 m ρ c (Proc.devRef .tc main_arg15)) :=
  (W6_arr m ρ c 7).trans (region2_out (V5 m ρ) c)

/-! ## What is kept from one boundary to the next -/

/-- No operation of the stretch writes the buffer: each operation writes its one result buffer, another reference. -/
local macro "not_written " ops:ident : tactic =>
  `(tactic| (refine List.forall_iff_forall_mem.mp ?_
             simp only [$ops:ident, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

theorem W2_of_W1 {b : Ref sig .tc}
    (h1 : ∀ op ∈ (hostOps1 : List (HloOp τ sig (Elt Ideal))), (Proc.devRef .tc b : DevRef τ sig) ∉ op.writes) :
    W2 m ρ c (Proc.devRef .tc b) = W1 m ρ c (Proc.devRef .tc b) :=
  StableHlo.after_of_forall_not_mem _ _ h1

theorem W3_of_W1 {b : Ref sig .tc}
    (h11 : ∀ op ∈ (hostOps1_1 : List (HloOp τ sig (Elt Ideal))), (Proc.devRef .tc b : DevRef τ sig) ∉ op.writes)
    (h1 : ∀ op ∈ (hostOps1 : List (HloOp τ sig (Elt Ideal))), (Proc.devRef .tc b : DevRef τ sig) ∉ op.writes) :
    W3 m ρ c (Proc.devRef .tc b) = W1 m ρ c (Proc.devRef .tc b) :=
  (StableHlo.after_of_forall_not_mem _ _ h11).trans (W2_of_W1 m ρ c h1)

theorem W4_of_W1 {b : Ref sig .tc} (h4 : ∀ w, Pipeline.arrRef spec1 w ≠ b)
    (h11 : ∀ op ∈ (hostOps1_1 : List (HloOp τ sig (Elt Ideal))), (Proc.devRef .tc b : DevRef τ sig) ∉ op.writes)
    (h1 : ∀ op ∈ (hostOps1 : List (HloOp τ sig (Elt Ideal))), (Proc.devRef .tc b : DevRef τ sig) ∉ op.writes) :
    W4 m ρ c (Proc.devRef .tc b) = W1 m ρ c (Proc.devRef .tc b) :=
  (W4_of_ne m ρ c b h4).trans (W3_of_W1 m ρ c h11 h1)

theorem W5_of_W1 {b : Ref sig .tc}
    (h2 : ∀ op ∈ (hostOps2 : List (HloOp τ sig (Elt Ideal))), (Proc.devRef .tc b : DevRef τ sig) ∉ op.writes)
    (h4 : ∀ w, Pipeline.arrRef spec1 w ≠ b)
    (h11 : ∀ op ∈ (hostOps1_1 : List (HloOp τ sig (Elt Ideal))), (Proc.devRef .tc b : DevRef τ sig) ∉ op.writes)
    (h1 : ∀ op ∈ (hostOps1 : List (HloOp τ sig (Elt Ideal))), (Proc.devRef .tc b : DevRef τ sig) ∉ op.writes) :
    W5 m ρ c (Proc.devRef .tc b) = W1 m ρ c (Proc.devRef .tc b) :=
  (StableHlo.after_of_forall_not_mem _ _ h2).trans (W4_of_W1 m ρ c h4 h11 h1)

/-- The first region reads `x` through a window and leaves it as launched. -/
theorem W1_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))

theorem W5_xji : W5 m ρ c (Proc.devRef .tc main_v0_0) = W1 m ρ c (Proc.devRef .tc main_v0_0) :=
  W5_of_W1 m ρ c (by not_written hostOps2) (by decide) (by not_written hostOps1_1) (by not_written hostOps1)
theorem W5_arg0 : W5 m ρ c (Proc.devRef .tc main_arg0) = m ((c : Thread nD τ).loc main_arg0) :=
  (W5_of_W1 m ρ c (by not_written hostOps2) (by decide) (by not_written hostOps1_1) (by not_written hostOps1)).trans (W1_arg0 m ρ c)
theorem W5_arg12 : W5 m ρ c (Proc.devRef .tc main_arg12) = m ((c : Thread nD τ).loc main_arg12) :=
  (W5_of_W1 m ρ c (by not_written hostOps2) (by decide) (by not_written hostOps1_1) (by not_written hostOps1)).trans (W1_arg m ρ c main_arg12 (by decide))
theorem W5_arg13 : W5 m ρ c (Proc.devRef .tc main_arg13) = m ((c : Thread nD τ).loc main_arg13) :=
  (W5_of_W1 m ρ c (by not_written hostOps2) (by decide) (by not_written hostOps1_1) (by not_written hostOps1)).trans (W1_arg m ρ c main_arg13 (by decide))
theorem W5_arg14 : W5 m ρ c (Proc.devRef .tc main_arg14) = m ((c : Thread nD τ).loc main_arg14) :=
  (W5_of_W1 m ρ c (by not_written hostOps2) (by decide) (by not_written hostOps1_1) (by not_written hostOps1)).trans (W1_arg m ρ c main_arg14 (by decide))
theorem W5_arg15 : W5 m ρ c (Proc.devRef .tc main_arg15) = m ((c : Thread nD τ).loc main_arg15) :=
  (W5_of_W1 m ρ c (by not_written hostOps2) (by decide) (by not_written hostOps1_1) (by not_written hostOps1)).trans (W1_arg m ρ c main_arg15 (by decide))
theorem W4_arg4 : W4 m ρ c (Proc.devRef .tc main_arg4) = m ((c : Thread nD τ).loc main_arg4) :=
  (W4_of_W1 m ρ c (by decide) (by not_written hostOps1_1) (by not_written hostOps1)).trans (W1_arg m ρ c main_arg4 (by decide))
theorem W3_arg2 : W3 m ρ c (Proc.devRef .tc main_arg2) = m ((c : Thread nD τ).loc main_arg2) :=
  (W3_of_W1 m ρ c (by not_written hostOps1_1) (by not_written hostOps1)).trans (W1_arg m ρ c main_arg2 (by decide))
theorem W3_arg6 : W3 m ρ c (Proc.devRef .tc main_arg6) = m ((c : Thread nD τ).loc main_arg6) :=
  (W3_of_W1 m ρ c (by not_written hostOps1_1) (by not_written hostOps1)).trans (W1_arg m ρ c main_arg6 (by decide))
theorem W2_arg11 : W2 m ρ c (Proc.devRef .tc main_arg11) = m ((c : Thread nD τ).loc main_arg11) :=
  (W2_of_W1 m ρ c (by not_written hostOps1)).trans (W1_arg m ρ c main_arg11 (by decide))

/-! ## The result buffer after the run, as one term of the launch contents -/

/-- What the program leaves in its result buffer: the head of the gated messages `x_ji`, of the scatter-add (by
    `edge_idx_ji`) of the bilinear fuse of the gathered (by `edge_idx_kj`) gated messages `x_kj`, and of `x`. -/
theorem kernel_value (hin : ∀ i : S450000.Idx, ((m ((c : Thread nD τ).loc main_arg3) : IVec S450000 32) i).toNat < 150000) :
    W6 m ρ c (Proc.devRef .tc main_v7)
      = Cert.Spec.head
          (Cert.Spec.dense (m ((c : Thread nD τ).loc main_arg0)) (m ((c : Thread nD τ).loc main_arg9)) (m ((c : Thread nD τ).loc main_arg10)))
          (Host.scatterAdd scatter_S150000x128_S450000x1_S450000x128_1_0_0_1
            (broadcastInDim S150000x128 ![] Facts₀.bcast_S_S150000x128 (constant (F := Ideal) S_ .f32 0x00000000#32))
            (broadcastInDim S450000x1 ![0] Facts₀.bcast_S450000_S450000x1_0 (m ((c : Thread nD τ).loc main_arg4)))
            (Cert.Spec.bilinear
              (Host.gather gather_S150000x128_S450000x1_S450000x128_1_0_n_n_0_1_1128
                (Cert.Spec.gated (m ((c : Thread nD τ).loc main_arg0)) (m ((c : Thread nD τ).loc main_arg1)) (m ((c : Thread nD τ).loc main_arg5))
                  (m ((c : Thread nD τ).loc main_arg7)) (m ((c : Thread nD τ).loc main_arg8)))
                (idxCol (m ((c : Thread nD τ).loc main_arg3))))
              (m ((c : Thread nD τ).loc main_arg2)) (m ((c : Thread nD τ).loc main_arg6))
              (Cert.Spec.wbt (transpose S8x128x128 [1, 2, 0] (m ((c : Thread nD τ).loc main_arg11)) Facts₀.transposes_S128x8x128_S8x128x128_1_2_0))))
          (m ((c : Thread nD τ).loc main_arg0)) (Cert.Spec.wres (m ((c : Thread nD τ).loc main_arg12))) (Cert.Spec.bres (m ((c : Thread nD τ).loc main_arg13)))
          (m ((c : Thread nD τ).loc main_arg14)) (m ((c : Thread nD τ).loc main_arg15)) := by
  rw [W6_out, W5_agg, W5_xji, W1_xji, W5_arg0, W5_arg12, W5_arg13, W5_arg14, W5_arg15, W4_arg4, W4_m, W3_tkj, W2_tkj m ρ c hin, W1_xkj,
    W3_arg2, W3_arg6, W3_wbt, W2_arg11]

end Cert.Bridge

end
-- ==== Proof.Domain.lean ====
import proofs.«421744_j48490180772447_1_alg».proof.Pre_finite_inputs
import proofs.«421744_j48490180772447_1_alg».proof.Proof.Gen.Pre_finite_inputs
import Idealize.ShloMosaic.Lib.ReduceAll
import Idealize.ShloMosaic.Lib.StableHlo.Predicate
import Idealize.ShloMosaic.PureOps.Ideal

/-!
The index words are in range.

The printed precondition is a chain of conjunctions; its last conjunct says that every word of the
start-index vector (the fourth argument) is, read as a signed number, at least 0 and below 150000.
Read back at one position this gives the word's unsigned value below 150000: a word whose signed
reading is not negative reads the same signed and unsigned.
-/

noncomputable section

namespace Cert.Bridge

open Idealize.ShloMosaic

namespace Domain

open Cert.Pre_finite_inputs

/-- A word that is at least 0 and below 150000, both read signed, has an unsigned value below 150000. -/
theorem word_range {x : BitVec 32} (hge : IntOp.cmpi .sge x 0#32 = 1#1) (hlt : IntOp.cmpi .slt x 150000#32 = 1#1) :
    x.toNat < 150000 := by
  unfold IntOp.cmpi at hge hlt
  rw [StableHlo.Predicate.ofBool_eq_one_iff] at hge hlt
  simp only [BitVec.sle, BitVec.slt, decide_eq_true_eq] at hge hlt
  have h0 : (0#32 : BitVec 32).toInt = 0 := by decide
  have h1 : (150000#32 : BitVec 32).toInt = 150000 := by decide
  rw [h0] at hge; rw [h1] at hlt
  rw [BitVec.toInt_eq_toNat_cond] at hge hlt
  split at hge <;> omega

variable [Facts]

/-- The last stretch of the precondition: its final conjunct is the all-positions conjunction of the two signed
    comparisons of the index words, whatever the conjuncts before it are. -/
theorem last_conjunct_range {F : FTy → Type} [FloatOps F] (a3 : IVec S450000 32) (v63 v67 : IVec S_ 1)
    (h : fn_part4 (F := F) a3 v63 v67 = fun _ => 1#1) (i : S450000.Idx) : (a3 i).toNat < 150000 := by
  have h0 := congrFun h (fun a => a.elim0)
  unfold fn_part4 at h0
  dsimp only at h0
  have h1 := (IntOp.andi_eq_one.1 h0).2
  -- the rank-zero shape has one index, so the reduction is over every position
  haveI : Subsingleton S_.Idx := ⟨fun a b => funext fun d => d.elim0⟩
  have h2 := Host.reduce_andi_all _ _ _ _ _ h1 i
  obtain ⟨hge, hlt⟩ := IntOp.andi_eq_one.1 h2
  exact word_range hge hlt

end Domain

/-- Under the printed precondition every start-index word is below 150000 (so, read signed, neither negative nor
    past the table's last row). The earlier conjuncts (the float arguments' finiteness) are not opened: the whole
    predicate is its last stretch applied to what the earlier stretches computed. -/
theorem idx_in_range [Cert.Pre_finite_inputs.Facts]
    (a0 : FVec Ideal Cert.Pre_finite_inputs.S150000x128 .f32) (a1 : FVec Ideal Cert.Pre_finite_inputs.S150000x6 .f32)
    (a2 : FVec Ideal Cert.Pre_finite_inputs.S450000x42 .f32) (a3 : IVec Cert.Pre_finite_inputs.S450000 32)
    (a4 : IVec Cert.Pre_finite_inputs.S450000 32) (a5 : FVec Ideal Cert.Pre_finite_inputs.S6x128 .f32)
    (a6 : FVec Ideal Cert.Pre_finite_inputs.S42x8 .f32) (a7 : FVec Ideal Cert.Pre_finite_inputs.S128x128 .f32)
    (a8 : FVec Ideal Cert.Pre_finite_inputs.S128 .f32) (a9 : FVec Ideal Cert.Pre_finite_inputs.S128x128 .f32)
    (a10 : FVec Ideal Cert.Pre_finite_inputs.S128 .f32) (a11 : FVec Ideal Cert.Pre_finite_inputs.S128x8x128 .f32)
    (a12 : FVec Ideal Cert.Pre_finite_inputs.S3x2x128x128 .f32) (a13 : FVec Ideal Cert.Pre_finite_inputs.S3x2x128 .f32)
    (a14 : FVec Ideal Cert.Pre_finite_inputs.S128x128 .f32) (a15 : FVec Ideal Cert.Pre_finite_inputs.S128 .f32)
    (h : Cert.Pre_finite_inputs.fn (F := Ideal) a0 a1 a2 a3 a4 a5 a6 a7 a8 a9 a10 a11 a12 a13 a14 a15 = (fun _ => 1#1)) :
    ∀ i : Cert.Pre_finite_inputs.S450000.Idx, (a3 i).toNat < 150000 :=
  fun i => Domain.last_conjunct_range (F := Ideal) a3 _ _ h i

end Cert.Bridge
-- ==== Proof.Swish.lean ====
/-
  The swish `z · σ(z)`, `σ(z) = 1 / (1 + e^(-z))`, as a host program spells it: negate, exponential,
  one plus, one over, multiply, with the number one given as a single-precision word. On the extended reals
  that expression is the swish of the specification, for every `z`, the two infinities included, because the
  logistic function is by definition the quotient `1 / (1 + e^(-z))`.
-/
import proofs.«421744_j48490180772447_1_alg».proof.Proof.Spec
import Idealize.ShloMosaic.PureOps.Ideal
import Idealize.ShloMosaic.PureOps.Ideal.Laws

noncomputable section

namespace Cert.Bridge

open Idealize.ShloMosaic

/-- The single-precision word `0x3F800000` (sign 0, biased exponent 127, mantissa 0) is the number one:
    its value is `2^23 · 2^(-23)`. -/
theorem one_f32 : Ideal.ofBits .f32 0x3F800000#32 = 1 := by
  simp [Ideal.ofBits, Ideal.ieee]
  rw [← EReal.coe_mul]
  exact_mod_cast (by norm_num : (8388608 : ℝ) * (2 ^ 23)⁻¹ = 1)

/-- `z · (1 / (1 + e^(-z)))`, with one given by its word, is the swish of `z`. -/
theorem swish_host (z : EReal) :
    z * Ideal.div (Ideal.ofBits .f32 0x3F800000#32) (Ideal.ofBits .f32 0x3F800000#32 + Ideal.exp (-z)) = Cert.Spec.swish z := by
  rw [one_f32]
  rfl

/-- The same identity with multiplication, division, addition, exponential and negation written as the
    operations of the extended-real instance, which are these by definition. -/
theorem swish_host_ops (z : Elt Ideal .f32) :
    FloatOps.mulf z (FloatOps.hostDivf (FloatOps.ofBits (F := Ideal) .f32 0x3F800000#32)
      (FloatOps.addf (FloatOps.ofBits (F := Ideal) .f32 0x3F800000#32) (FloatOps.hostUnary .exp (FloatOps.hostNegf z))))
      = Cert.Spec.swish z :=
  swish_host z

end Cert.Bridge

end
-- ==== Proof.Ref0.lean ====
/-
  The edge transform, reference side. The reference computes, on whole arrays, an affine map of the edge
  features followed by the swish, spelt as negate, exponential, one plus, one over, multiply; and a second
  such layer multiplied entrywise by the radial basis times its weights. Read at an entry, each is the
  row-local function of the specification.
-/
import proofs.«421744_j48490180772447_1_alg».proof.Proof.Spec
import proofs.«421744_j48490180772447_1_alg».proof.Proof.Swish
import proofs.«421744_j48490180772447_1_alg».proof.Proof.RefRead

noncomputable section

namespace Cert.Bridge

open Idealize.ShloMosaic Idealize.ShloMosaic.ValueIdx Cert.ReferenceIdeal Cert.ReferenceIdeal.ReadP

/-! ## The two results at an entry -/

/-- The first result of the reference's edge transform is the dense layer with swish of the edge features. -/
theorem ref_ji (x0 : Cert.Spec.Mat 150000 128) (x9 : Cert.Spec.Mat 128 128) (x10 : Cert.Spec.Vc 128) :
    val_main_v6 (F := Ideal) x0 x9 x10 = Cert.Spec.dense x0 x9 x10 := by
  funext i
  obtain ⟨p, q, rfl⟩ : ∃ (p : Fin 150000) (q : Fin 128), i = ix2 p q := ⟨i 0, i 1, eq_ix2 i⟩
  have el : ∀ k : Fin 128, lidx_main_v2 (ix2 p q) k = ix2 p k := fun k => funext fun a => Fin.ext (by
    match a with
    | ⟨0, _⟩ => rfl
    | ⟨1, _⟩ => rfl)
  have er : ∀ k : Fin 128, ridx_main_v2 (ix2 p q) k = ix2 k q := fun k => funext fun a => Fin.ext (by
    match a with
    | ⟨0, _⟩ => rfl
    | ⟨1, _⟩ => rfl)
  have eb : idx_main_v3 (idx_main_v4 (ix2 p q)) = ix1 q := funext fun a => Fin.ext (by
    match a with
    | ⟨0, _⟩ => rfl)
  rw [Cert.Spec.dense_apply]
  rw [val_main_v6_apply, val_main_call0_v5_apply, val_main_call0_v4_apply, val_main_call0_cst_0_apply,
    val_main_call0_v3_apply, val_main_call0_v2_apply, val_main_call0_cst_apply, val_main_call0_v1_apply,
    val_main_call0_v0_apply, val_main_v5_apply, val_main_v2_apply, val_main_v4_apply, val_main_v3_apply]
  simp only [el, er, eb]
  exact swish_host_ops _

/-- The second result of the reference's edge transform is the gated edge message. -/
theorem ref_kj (x0 : Cert.Spec.Mat 150000 128) (x1 : Cert.Spec.Mat 150000 6) (x5 : Cert.Spec.Mat 6 128) (x7 : Cert.Spec.Mat 128 128) (x8 : Cert.Spec.Vc 128) :
    val_main_v12 (F := Ideal) x0 x1 x5 x7 x8 = Cert.Spec.gated x0 x1 x5 x7 x8 := by
  funext i
  obtain ⟨p, q, rfl⟩ : ∃ (p : Fin 150000) (q : Fin 128), i = ix2 p q := ⟨i 0, i 1, eq_ix2 i⟩
  have el : ∀ k : Fin 128, lidx_main_v7 (ix2 p q) k = ix2 p k := fun k => funext fun a => Fin.ext (by
    match a with
    | ⟨0, _⟩ => rfl
    | ⟨1, _⟩ => rfl)
  have er : ∀ k : Fin 128, ridx_main_v7 (ix2 p q) k = ix2 k q := fun k => funext fun a => Fin.ext (by
    match a with
    | ⟨0, _⟩ => rfl
    | ⟨1, _⟩ => rfl)
  have eb : idx_main_v8 (idx_main_v9 (ix2 p q)) = ix1 q := funext fun a => Fin.ext (by
    match a with
    | ⟨0, _⟩ => rfl)
  have fl : ∀ k : Fin 6, lidx_main_v0 (ix2 p q) k = ix2 p k := fun k => funext fun a => Fin.ext (by
    match a with
    | ⟨0, _⟩ => rfl
    | ⟨1, _⟩ => rfl)
  have fr : ∀ k : Fin 6, ridx_main_v0 (ix2 p q) k = ix2 k q := fun k => funext fun a => Fin.ext (by
    match a with
    | ⟨0, _⟩ => rfl
    | ⟨1, _⟩ => rfl)
  unfold Cert.Spec.gated
  rw [Cert.Spec.mmul_apply, Cert.Spec.dense_apply, Cert.Spec.lin_apply]
  rw [val_main_v12_apply, val_main_v11_apply, val_main_call1_v5_apply, val_main_call1_v4_apply, val_main_call1_cst_0_apply,
    val_main_call1_v3_apply, val_main_call1_v2_apply, val_main_call1_cst_apply, val_main_call1_v1_apply,
    val_main_call1_v0_apply, val_main_v10_apply, val_main_v7_apply, val_main_v9_apply, val_main_v8_apply, val_main_v0_apply]
  simp only [el, er, eb, fl, fr]
  exact congrArg (fun y => FloatOps.mulf y (∑ k : Fin 6, x1 (ix2 p k) * x5 (ix2 k q))) (swish_host_ops _)

end Cert.Bridge

end
-- ==== Proof.Ref1.lean ====
import proofs.«421744_j48490180772447_1_alg».proof.Proof.Spec
import proofs.«421744_j48490180772447_1_alg».proof.Proof.RefRead

noncomputable section

namespace Cert.Bridge

open Idealize.ShloMosaic Idealize.ShloMosaic.ValueIdx Cert.ReferenceIdeal Cert.ReferenceIdeal.Gen Cert.ReferenceIdeal.ReadP

namespace Ref1

/-! ## The reference's bilinear fuse, one slice of the weights at a time

For slice `b` the reference cuts column `b` out of the coefficients `SBF · Wsbf` and spreads it over the 128
output features; it cuts `W[:, b, :]` out of the `[out, 8, in]` weights, drops the unit axis and transposes it
to `(in, out)`; and it multiplies the spread column with the gathered messages sent through that matrix. -/

/-- Entry `(p, b)` of the coefficients `SBF · Wsbf`. -/
theorem coef_apply (x2 : Cert.Spec.Mat 450000 42) (x6 : Cert.Spec.Mat 42 8) (p : Fin 450000) (b : Fin 8) :
    val_main_v1 (F := Ideal) x2 x6 (ix2 p b) = Cert.Spec.lin x2 x6 (ix2 p b) := by
  rw [val_main_v1_apply, Cert.Spec.lin_apply]
  refine Finset.sum_congr rfl fun k _ => ?_
  have el : lidx_main_v1 (ix2 p b) k = ix2 p k :=
    funext fun a => Fin.ext (by match a with | ⟨0, _⟩ => rfl | ⟨1, _⟩ => rfl)
  have er : ridx_main_v1 (ix2 p b) k = ix2 k b :=
    funext fun a => Fin.ext (by match a with | ⟨0, _⟩ => rfl | ⟨1, _⟩ => rfl)
  rw [el, er]

/-- Entry `(p, q)` of the product of an array of 450000 rows with a `[128, 128]` matrix: the sum over the 128
    contracted features. -/
theorem dot_apply (T : FVec Ideal S450000x128 .f32) (M : FVec Ideal S128x128 .f32) (p : Fin 450000) (q : Fin 128) :
    Host.dotGeneral (F := Ideal) dot_S450000x128_S128x128_S450000x128_1_0_0_1_n_n none T M (ix2 p q) = ∑ k : Fin 128, T (ix2 p k) * M (ix2 k q) := by
  simp only [Host.dotGeneral]
  rw [Ideal.dotGeneral_apply, ← Equiv.sum_comp (ValueIdx.contrEquiv1 dot_S450000x128_S128x128_S450000x128_1_0_0_1_n_n 128 rfl rfl).symm]
  refine Finset.sum_congr rfl fun k _ => ?_
  have hk := ValueIdx.contrEquiv1_symm_val dot_S450000x128_S128x128_S450000x128_1_0_0_1_n_n 128 rfl rfl k
  have el : dot_S450000x128_S128x128_S450000x128_1_0_0_1_n_n.lhsIdx (ix2 p q) ((ValueIdx.contrEquiv1 dot_S450000x128_S128x128_S450000x128_1_0_0_1_n_n 128 rfl rfl).symm k) = ix2 p k := funext fun a => Fin.ext (by
    match a with
    | ⟨0, _⟩ => exact lhs_main_v24_0 _ _
    | ⟨1, _⟩ => exact (lhs_main_v24_1 _ _).trans hk)
  have er : dot_S450000x128_S128x128_S450000x128_1_0_0_1_n_n.rhsIdx (ix2 p q) ((ValueIdx.contrEquiv1 dot_S450000x128_S128x128_S450000x128_1_0_0_1_n_n 128 rfl rfl).symm k) = ix2 k q := funext fun a => Fin.ext (by
    match a with
    | ⟨0, _⟩ => exact (rhs_main_v24_0 _ _).trans hk
    | ⟨1, _⟩ => exact rhs_main_v24_1 _ _)
  rw [el, er]

/-- Slice `b` of the `[out, 8, in]` weights with its unit axis dropped, transposed: entry `(k, q)` is `W[q, b, k]`. -/
theorem wslice_apply (W : FVec Ideal S128x8x128 .f32) (off : Fin 3 → Nat) (hw : S128x8x128.Slices off S128x1x128) (b : Fin 8)
    (h0 : off 0 = 0) (h1 : off 1 = b.val) (h2 : off 2 = 0) (k q : Fin 128) :
    transpose S128x128 [1, 0] (shapeCast S128x128 (extractStridedSlice S128x1x128 off W hw) shapeCasts_S128x1x128_S128x128)
        transposes_S128x128_S128x128_1_0 (ix2 k q) = W (ix3 q b k) := by
  rw [transpose_apply [1, 0] _ transposes_S128x128_S128x128_1_0 (ix2 k q) (ix2 q k) (fun a => match a with
    | ⟨0, _⟩ => rfl
    | ⟨1, _⟩ => rfl)]
  rw [shapeCast_apply _ shapeCasts_S128x1x128_S128x128 (ix2 q k) (ix3 q 0 k) (by
    rewrite [Shape.rowMajor_val_three, Shape.rowMajor_val_two]
    show (q.val * 1 + 0) * 128 + k.val = q.val * 128 + k.val
    omega)]
  exact extractStridedSlice_apply off W hw (ix3 q 0 k) (ix3 q b k) (fun a => match a with
    | ⟨0, _⟩ => by show q.val = off 0 + q.val; omega
    | ⟨1, _⟩ => by show b.val = off 1 + 0; omega
    | ⟨2, _⟩ => by show k.val = off 2 + k.val; omega)

/-- Column `b` of the coefficients, cut out as a `[450000, 1]` column and spread over the 128 output features. -/
theorem col_apply (C : FVec Ideal S450000x8 .f32) (off : Fin 2 → Nat) (hs : S450000x8.Slices off S450000x1) (b : Fin 8)
    (h0 : off 0 = 0) (h1 : off 1 = b.val) (p : Fin 450000) (q : Fin 128) :
    broadcastInDim S450000x128 ![0, 1] bcast_S450000x1_S450000x128_0_1 (extractStridedSlice S450000x1 off C hs) (ix2 p q)
      = C (ix2 p b) := by
  rw [broadcastInDim_apply _ bcast_S450000x1_S450000x128_0_1 _ (ix2 p q) (ix2 p 0) (fun a => match a with
    | ⟨0, _⟩ => by show p.val = if (450000 : Nat) = 1 then 0 else p.val; rw [if_neg (by decide)]
    | ⟨1, _⟩ => by show 0 = if (1 : Nat) = 1 then 0 else q.val; rw [if_pos rfl])]
  exact extractStridedSlice_apply off C hs (ix2 p 0) (ix2 p b) (fun a => match a with
    | ⟨0, _⟩ => by show p.val = off 0 + p.val; omega
    | ⟨1, _⟩ => by show b.val = off 1 + 0; omega)

/-- One term of the reference's fuse at entry `(p, q)`: the coefficient of slice `b` in row `p`, times row `p` of
    the gathered messages sent through `W[:, b, :]` transposed. -/
theorem term_apply (T : FVec Ideal S450000x128 .f32) (C : FVec Ideal S450000x8 .f32) (W : FVec Ideal S128x8x128 .f32)
    (offs : Fin 2 → Nat) (hs : S450000x8.Slices offs S450000x1) (offw : Fin 3 → Nat) (hw : S128x8x128.Slices offw S128x1x128)
    (b : Fin 8) (hs0 : offs 0 = 0) (hs1 : offs 1 = b.val) (hw0 : offw 0 = 0) (hw1 : offw 1 = b.val) (hw2 : offw 2 = 0)
    (p : Fin 450000) (q : Fin 128) :
    mulf (broadcastInDim S450000x128 ![0, 1] bcast_S450000x1_S450000x128_0_1 (extractStridedSlice S450000x1 offs C hs))
        (Host.dotGeneral (F := Ideal) dot_S450000x128_S128x128_S450000x128_1_0_0_1_n_n none T
          (transpose S128x128 [1, 0] (shapeCast S128x128 (extractStridedSlice S128x1x128 offw W hw) shapeCasts_S128x1x128_S128x128)
            transposes_S128x128_S128x128_1_0)) (ix2 p q)
      = C (ix2 p b) * Cert.Spec.lin T (Cert.Spec.wbil W b) (ix2 p q) := by
  rw [mulf_apply, col_apply C offs hs b hs0 hs1, dot_apply, Cert.Spec.lin_apply]
  refine congrArg _ (Finset.sum_congr rfl fun k _ => ?_)
  rw [wslice_apply W offw hw b hw0 hw1 hw2, Cert.Spec.wbil_apply]

/-! The eight slices, in the order the reference takes them: each is the term above at its own offsets. -/

theorem term0 (x0 : Cert.Spec.Mat 150000 128) (x1 : Cert.Spec.Mat 150000 6) (x2 : Cert.Spec.Mat 450000 42) (x3 : IVec S450000 32) (x5 : Cert.Spec.Mat 6 128) (x6 : Cert.Spec.Mat 42 8) (x7 : Cert.Spec.Mat 128 128) (x8 : Cert.Spec.Vc 128) (x11 : FVec Ideal S128x8x128 .f32) (p : Fin 450000) (q : Fin 128) :
    val_main_v26 (F := Ideal) x0 x1 x2 x3 x5 x6 x7 x8 x11 (ix2 p q)
      = Cert.Spec.lin x2 x6 (ix2 p 0) * Cert.Spec.lin (val_main_v19 (F := Ideal) x0 x1 x3 x5 x7 x8) (Cert.Spec.wbil x11 0) (ix2 p q) := by
  unfold val_main_v26 val_main_v25 val_main_v24 val_main_v23 val_main_v22 val_main_v21 val_main_v20
  rw [term_apply _ (val_main_v1 (F := Ideal) x2 x6) x11 ![0, 0] slices_S450000x8_S450000x1_0_0 ![0, 0, 0]
    slices_S128x8x128_S128x1x128_0_0_0 0 rfl rfl rfl rfl rfl p q, coef_apply]

theorem term1 (x0 : Cert.Spec.Mat 150000 128) (x1 : Cert.Spec.Mat 150000 6) (x2 : Cert.Spec.Mat 450000 42) (x3 : IVec S450000 32) (x5 : Cert.Spec.Mat 6 128) (x6 : Cert.Spec.Mat 42 8) (x7 : Cert.Spec.Mat 128 128) (x8 : Cert.Spec.Vc 128) (x11 : FVec Ideal S128x8x128 .f32) (p : Fin 450000) (q : Fin 128) :
    val_main_v33 (F := Ideal) x0 x1 x2 x3 x5 x6 x7 x8 x11 (ix2 p q)
      = Cert.Spec.lin x2 x6 (ix2 p 1) * Cert.Spec.lin (val_main_v19 (F := Ideal) x0 x1 x3 x5 x7 x8) (Cert.Spec.wbil x11 1) (ix2 p q) := by
  unfold val_main_v33 val_main_v32 val_main_v31 val_main_v30 val_main_v29 val_main_v28 val_main_v27
  rw [term_apply _ (val_main_v1 (F := Ideal) x2 x6) x11 ![0, 1] slices_S450000x8_S450000x1_0_1 ![0, 1, 0]
    slices_S128x8x128_S128x1x128_0_1_0 1 rfl rfl rfl rfl rfl p q, coef_apply]

theorem term2 (x0 : Cert.Spec.Mat 150000 128) (x1 : Cert.Spec.Mat 150000 6) (x2 : Cert.Spec.Mat 450000 42) (x3 : IVec S450000 32) (x5 : Cert.Spec.Mat 6 128) (x6 : Cert.Spec.Mat 42 8) (x7 : Cert.Spec.Mat 128 128) (x8 : Cert.Spec.Vc 128) (x11 : FVec Ideal S128x8x128 .f32) (p : Fin 450000) (q : Fin 128) :
    val_main_v41 (F := Ideal) x0 x1 x2 x3 x5 x6 x7 x8 x11 (ix2 p q)
      = Cert.Spec.lin x2 x6 (ix2 p 2) * Cert.Spec.lin (val_main_v19 (F := Ideal) x0 x1 x3 x5 x7 x8) (Cert.Spec.wbil x11 2) (ix2 p q) := by
  unfold val_main_v41 val_main_v40 val_main_v39 val_main_v38 val_main_v37 val_main_v36 val_main_v35
  rw [term_apply _ (val_main_v1 (F := Ideal) x2 x6) x11 ![0, 2] slices_S450000x8_S450000x1_0_2 ![0, 2, 0]
    slices_S128x8x128_S128x1x128_0_2_0 2 rfl rfl rfl rfl rfl p q, coef_apply]

theorem term3 (x0 : Cert.Spec.Mat 150000 128) (x1 : Cert.Spec.Mat 150000 6) (x2 : Cert.Spec.Mat 450000 42) (x3 : IVec S450000 32) (x5 : Cert.Spec.Mat 6 128) (x6 : Cert.Spec.Mat 42 8) (x7 : Cert.Spec.Mat 128 128) (x8 : Cert.Spec.Vc 128) (x11 : FVec Ideal S128x8x128 .f32) (p : Fin 450000) (q : Fin 128) :
    val_main_v49 (F := Ideal) x0 x1 x2 x3 x5 x6 x7 x8 x11 (ix2 p q)
      = Cert.Spec.lin x2 x6 (ix2 p 3) * Cert.Spec.lin (val_main_v19 (F := Ideal) x0 x1 x3 x5 x7 x8) (Cert.Spec.wbil x11 3) (ix2 p q) := by
  unfold val_main_v49 val_main_v48 val_main_v47 val_main_v46 val_main_v45 val_main_v44 val_main_v43
  rw [term_apply _ (val_main_v1 (F := Ideal) x2 x6) x11 ![0, 3] slices_S450000x8_S450000x1_0_3 ![0, 3, 0]
    slices_S128x8x128_S128x1x128_0_3_0 3 rfl rfl rfl rfl rfl p q, coef_apply]

theorem term4 (x0 : Cert.Spec.Mat 150000 128) (x1 : Cert.Spec.Mat 150000 6) (x2 : Cert.Spec.Mat 450000 42) (x3 : IVec S450000 32) (x5 : Cert.Spec.Mat 6 128) (x6 : Cert.Spec.Mat 42 8) (x7 : Cert.Spec.Mat 128 128) (x8 : Cert.Spec.Vc 128) (x11 : FVec Ideal S128x8x128 .f32) (p : Fin 450000) (q : Fin 128) :
    val_main_v57 (F := Ideal) x0 x1 x2 x3 x5 x6 x7 x8 x11 (ix2 p q)
      = Cert.Spec.lin x2 x6 (ix2 p 4) * Cert.Spec.lin (val_main_v19 (F := Ideal) x0 x1 x3 x5 x7 x8) (Cert.Spec.wbil x11 4) (ix2 p q) := by
  unfold val_main_v57 val_main_v56 val_main_v55 val_main_v54 val_main_v53 val_main_v52 val_main_v51
  rw [term_apply _ (val_main_v1 (F := Ideal) x2 x6) x11 ![0, 4] slices_S450000x8_S450000x1_0_4 ![0, 4, 0]
    slices_S128x8x128_S128x1x128_0_4_0 4 rfl rfl rfl rfl rfl p q, coef_apply]

theorem term5 (x0 : Cert.Spec.Mat 150000 128) (x1 : Cert.Spec.Mat 150000 6) (x2 : Cert.Spec.Mat 450000 42) (x3 : IVec S450000 32) (x5 : Cert.Spec.Mat 6 128) (x6 : Cert.Spec.Mat 42 8) (x7 : Cert.Spec.Mat 128 128) (x8 : Cert.Spec.Vc 128) (x11 : FVec Ideal S128x8x128 .f32) (p : Fin 450000) (q : Fin 128) :
    val_main_v65 (F := Ideal) x0 x1 x2 x3 x5 x6 x7 x8 x11 (ix2 p q)
      = Cert.Spec.lin x2 x6 (ix2 p 5) * Cert.Spec.lin (val_main_v19 (F := Ideal) x0 x1 x3 x5 x7 x8) (Cert.Spec.wbil x11 5) (ix2 p q) := by
  unfold val_main_v65 val_main_v64 val_main_v63 val_main_v62 val_main_v61 val_main_v60 val_main_v59
  rw [term_apply _ (val_main_v1 (F := Ideal) x2 x6) x11 ![0, 5] slices_S450000x8_S450000x1_0_5 ![0, 5, 0]
    slices_S128x8x128_S128x1x128_0_5_0 5 rfl rfl rfl rfl rfl p q, coef_apply]

theorem term6 (x0 : Cert.Spec.Mat 150000 128) (x1 : Cert.Spec.Mat 150000 6) (x2 : Cert.Spec.Mat 450000 42) (x3 : IVec S450000 32) (x5 : Cert.Spec.Mat 6 128) (x6 : Cert.Spec.Mat 42 8) (x7 : Cert.Spec.Mat 128 128) (x8 : Cert.Spec.Vc 128) (x11 : FVec Ideal S128x8x128 .f32) (p : Fin 450000) (q : Fin 128) :
    val_main_v73 (F := Ideal) x0 x1 x2 x3 x5 x6 x7 x8 x11 (ix2 p q)
      = Cert.Spec.lin x2 x6 (ix2 p 6) * Cert.Spec.lin (val_main_v19 (F := Ideal) x0 x1 x3 x5 x7 x8) (Cert.Spec.wbil x11 6) (ix2 p q) := by
  unfold val_main_v73 val_main_v72 val_main_v71 val_main_v70 val_main_v69 val_main_v68 val_main_v67
  rw [term_apply _ (val_main_v1 (F := Ideal) x2 x6) x11 ![0, 6] slices_S450000x8_S450000x1_0_6 ![0, 6, 0]
    slices_S128x8x128_S128x1x128_0_6_0 6 rfl rfl rfl rfl rfl p q, coef_apply]

theorem term7 (x0 : Cert.Spec.Mat 150000 128) (x1 : Cert.Spec.Mat 150000 6) (x2 : Cert.Spec.Mat 450000 42) (x3 : IVec S450000 32) (x5 : Cert.Spec.Mat 6 128) (x6 : Cert.Spec.Mat 42 8) (x7 : Cert.Spec.Mat 128 128) (x8 : Cert.Spec.Vc 128) (x11 : FVec Ideal S128x8x128 .f32) (p : Fin 450000) (q : Fin 128) :
    val_main_v81 (F := Ideal) x0 x1 x2 x3 x5 x6 x7 x8 x11 (ix2 p q)
      = Cert.Spec.lin x2 x6 (ix2 p 7) * Cert.Spec.lin (val_main_v19 (F := Ideal) x0 x1 x3 x5 x7 x8) (Cert.Spec.wbil x11 7) (ix2 p q) := by
  unfold val_main_v81 val_main_v80 val_main_v79 val_main_v78 val_main_v77 val_main_v76 val_main_v75
  rw [term_apply _ (val_main_v1 (F := Ideal) x2 x6) x11 ![0, 7] slices_S450000x8_S450000x1_0_7 ![0, 7, 0]
    slices_S128x8x128_S128x1x128_0_7_0 7 rfl rfl rfl rfl rfl p q, coef_apply]

end Ref1

/-- The reference's `m` is the bilinear fuse of the gathered messages (kept as one array), the spherical basis,
    its projection and the eight transposed slices `W[:, b, :]`: the eight terms added from the left. -/
theorem ref_m (x0 : Cert.Spec.Mat 150000 128) (x1 : Cert.Spec.Mat 150000 6) (x2 : Cert.Spec.Mat 450000 42) (x3 : IVec S450000 32) (x5 : Cert.Spec.Mat 6 128) (x6 : Cert.Spec.Mat 42 8) (x7 : Cert.Spec.Mat 128 128) (x8 : Cert.Spec.Vc 128) (x11 : FVec Ideal S128x8x128 .f32) :
    val_main_v82 (F := Ideal) x0 x1 x2 x3 x5 x6 x7 x8 x11
      = Cert.Spec.bilinear (val_main_v19 (F := Ideal) x0 x1 x3 x5 x7 x8) x2 x6 (Cert.Spec.wbil x11) := by
  funext i
  obtain ⟨p, q, rfl⟩ : ∃ (p : Fin 450000) (q : Fin 128), i = ix2 p q := ⟨i 0, i 1, eq_ix2 i⟩
  rw [val_main_v82_apply, val_main_v74_apply, val_main_v66_apply, val_main_v58_apply, val_main_v50_apply, val_main_v42_apply, val_main_v34_apply,
    Ref1.term7, Ref1.term6, Ref1.term5, Ref1.term4, Ref1.term3, Ref1.term2, Ref1.term1, Ref1.term0, Cert.Spec.bilinear_apply]
  rfl

end Cert.Bridge

end
-- ==== Proof.Ref2.lean ====
/-
  The reference's head, one operation at a time, is the head of the specification applied to the reference's own
  `x_ji` and aggregate (both kept opaque), the input `x` and the weights. Each of its seven swish layers is a
  `dot_general` with a slice of the stacked weights, the matching slice of the stacked biases broadcast over the
  rows, their sum, and `z · (1 / (1 + e^(-z)))` of it; the residual sums and the skip are entrywise.
-/
import proofs.«421744_j48490180772447_1_alg».proof.Proof.Spec
import proofs.«421744_j48490180772447_1_alg».proof.Proof.RefRead
import Idealize.ShloMosaic.Lib.IdealHost

noncomputable section

namespace Cert.Bridge.Ref2

open Idealize.ShloMosaic Idealize.ShloMosaic.ValueIdx Cert.ReferenceIdeal Cert.ReferenceIdeal.ReadP

/-- The reference's swish, in the operations it is printed with: the bit pattern of one is the extended real one. -/
theorem swish_ops (z : EReal) :
    FloatOps.mulf (F := Ideal) (φ := .f32) z (FloatOps.hostDivf (FloatOps.ofBits (F := Ideal) .f32 0x3F800000#32)
      (FloatOps.addf (FloatOps.ofBits (F := Ideal) .f32 0x3F800000#32) (FloatOps.hostUnary .exp (FloatOps.hostNegf z)))) = Cert.Spec.swish z := by
  show z * Ideal.div (Ideal.ofBits .f32 0x3F800000#32) (Ideal.ofBits .f32 0x3F800000#32 + Ideal.exp (-z)) = z * Ideal.div 1 (1 + Ideal.exp (-z))
  rw [Ideal.ofBits_one_f32]

/-- A dense layer read entry by entry: the product, the bias in every row, their sum, the swish of it. -/
theorem dense_of (A : Cert.Spec.Mat 150000 128) (w : Cert.Spec.Mat 128 128) (b : Cert.Spec.Vc 128) (D Bc Z out : Cert.Spec.Mat 150000 128)
    (hD : ∀ (p : Fin 150000) (q : Fin 128), D (ix2 p q) = ∑ k : Fin 128, A (ix2 p k) * w (ix2 k q))
    (hB : ∀ (p : Fin 150000) (q : Fin 128), Bc (ix2 p q) = b (ix1 q))
    (hZ : ∀ i, Z i = D i + Bc i)
    (hout : ∀ i, out i = Cert.Spec.swish (Z i)) : out = Cert.Spec.dense A w b := by
  funext j
  obtain ⟨p, q, rfl⟩ : ∃ (p : Fin 150000) (q : Fin 128), j = ix2 p q := ⟨j 0, j 1, eq_ix2 j⟩
  rw [hout, hZ, hD, hB, Cert.Spec.dense_apply]

variable (x0 : Cert.Spec.Mat 150000 128) (x1 : Cert.Spec.Mat 150000 6) (x2 : Cert.Spec.Mat 450000 42) (x3 x4 : IVec S450000 32)
  (x5 : Cert.Spec.Mat 6 128) (x6 : Cert.Spec.Mat 42 8) (x7 : Cert.Spec.Mat 128 128) (x8 : Cert.Spec.Vc 128) (x9 : Cert.Spec.Mat 128 128)
  (x10 : Cert.Spec.Vc 128) (x11 : FVec Ideal S128x8x128 .f32) (x12 : FVec Ideal S3x2x128x128 .f32) (x13 : FVec Ideal S3x2x128 .f32)
  (x14 : Cert.Spec.Mat 128 128) (x15 : Cert.Spec.Vc 128)

/-! ## The stacked weights and biases, block by block: a slice of one block, then the unit axis dropped -/

theorem slabW0 (s : Fin 2) (k q : Fin 128) : val_main_v88 (F := Ideal) x12 (ix3 s k q) = x12 (ix4 (0 : Fin 3) s k q) := by
  have hs := s.isLt; have hk := k.isLt; have hq := q.isLt
  rw [val_main_v88_apply, val_main_v87_apply]
  refine congrArg x12 (funext fun a => Fin.ext ?_)
  match a with
  | ⟨0, _⟩ => rfl
  | ⟨1, _⟩ => show ((s.val * 128 + k.val) * 128 + q.val) / 16384 % 2 = s.val; omega
  | ⟨2, _⟩ => show ((s.val * 128 + k.val) * 128 + q.val) / 128 % 128 = k.val; omega
  | ⟨3, _⟩ => show ((s.val * 128 + k.val) * 128 + q.val) % 128 = q.val; omega

theorem slabW1 (s : Fin 2) (k q : Fin 128) : val_main_v117 (F := Ideal) x12 (ix3 s k q) = x12 (ix4 (1 : Fin 3) s k q) := by
  have hs := s.isLt; have hk := k.isLt; have hq := q.isLt
  rw [val_main_v117_apply, val_main_v116_apply]
  refine congrArg x12 (funext fun a => Fin.ext ?_)
  match a with
  | ⟨0, _⟩ => rfl
  | ⟨1, _⟩ => show ((s.val * 128 + k.val) * 128 + q.val) / 16384 % 2 = s.val; omega
  | ⟨2, _⟩ => show ((s.val * 128 + k.val) * 128 + q.val) / 128 % 128 = k.val; omega
  | ⟨3, _⟩ => show ((s.val * 128 + k.val) * 128 + q.val) % 128 = q.val; omega

theorem slabW2 (s : Fin 2) (k q : Fin 128) : val_main_v140 (F := Ideal) x12 (ix3 s k q) = x12 (ix4 (2 : Fin 3) s k q) := by
  have hs := s.isLt; have hk := k.isLt; have hq := q.isLt
  rw [val_main_v140_apply, val_main_v139_apply]
  refine congrArg x12 (funext fun a => Fin.ext ?_)
  match a with
  | ⟨0, _⟩ => rfl
  | ⟨1, _⟩ => show ((s.val * 128 + k.val) * 128 + q.val) / 16384 % 2 = s.val; omega
  | ⟨2, _⟩ => show ((s.val * 128 + k.val) * 128 + q.val) / 128 % 128 = k.val; omega
  | ⟨3, _⟩ => show ((s.val * 128 + k.val) * 128 + q.val) % 128 = q.val; omega

theorem slabB0 (s : Fin 2) (q : Fin 128) : val_main_v90 (F := Ideal) x13 (ix2 s q) = x13 (ix3 (0 : Fin 3) s q) := by
  have hs := s.isLt; have hq := q.isLt
  rw [val_main_v90_apply, val_main_v89_apply]
  refine congrArg x13 (funext fun a => Fin.ext ?_)
  match a with
  | ⟨0, _⟩ => rfl
  | ⟨1, _⟩ => show (s.val * 128 + q.val) / 128 % 2 = s.val; omega
  | ⟨2, _⟩ => show (s.val * 128 + q.val) % 128 = q.val; omega

theorem slabB1 (s : Fin 2) (q : Fin 128) : val_main_v119 (F := Ideal) x13 (ix2 s q) = x13 (ix3 (1 : Fin 3) s q) := by
  have hs := s.isLt; have hq := q.isLt
  rw [val_main_v119_apply, val_main_v118_apply]
  refine congrArg x13 (funext fun a => Fin.ext ?_)
  match a with
  | ⟨0, _⟩ => rfl
  | ⟨1, _⟩ => show (s.val * 128 + q.val) / 128 % 2 = s.val; omega
  | ⟨2, _⟩ => show (s.val * 128 + q.val) % 128 = q.val; omega

theorem slabB2 (s : Fin 2) (q : Fin 128) : val_main_v142 (F := Ideal) x13 (ix2 s q) = x13 (ix3 (2 : Fin 3) s q) := by
  have hs := s.isLt; have hq := q.isLt
  rw [val_main_v142_apply, val_main_v141_apply]
  refine congrArg x13 (funext fun a => Fin.ext ?_)
  match a with
  | ⟨0, _⟩ => rfl
  | ⟨1, _⟩ => show (s.val * 128 + q.val) / 128 % 2 = s.val; omega
  | ⟨2, _⟩ => show (s.val * 128 + q.val) % 128 = q.val; omega

/-! ## The weight of each layer: one of the two matrices of its block -/

theorem w00 : val_main_v92 (F := Ideal) x12 = Cert.Spec.wres x12 0 0 := by
  funext j
  obtain ⟨k, q, rfl⟩ : ∃ (k : Fin 128) (q : Fin 128), j = ix2 k q := ⟨j 0, j 1, eq_ix2 j⟩
  have hk := k.isLt; have hq := q.isLt
  rw [val_main_v92_apply, val_main_v91_apply, Cert.Spec.wres_apply, ← slabW0 x12 0 k q]
  refine congrArg (val_main_v88 (F := Ideal) x12) (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

theorem w01 : val_main_v101 (F := Ideal) x12 = Cert.Spec.wres x12 0 1 := by
  funext j
  obtain ⟨k, q, rfl⟩ : ∃ (k : Fin 128) (q : Fin 128), j = ix2 k q := ⟨j 0, j 1, eq_ix2 j⟩
  have hk := k.isLt; have hq := q.isLt
  rw [val_main_v101_apply, val_main_v100_apply, Cert.Spec.wres_apply, ← slabW0 x12 1 k q]
  refine congrArg (val_main_v88 (F := Ideal) x12) (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

theorem w10 : val_main_v121 (F := Ideal) x12 = Cert.Spec.wres x12 1 0 := by
  funext j
  obtain ⟨k, q, rfl⟩ : ∃ (k : Fin 128) (q : Fin 128), j = ix2 k q := ⟨j 0, j 1, eq_ix2 j⟩
  have hk := k.isLt; have hq := q.isLt
  rw [val_main_v121_apply, val_main_v120_apply, Cert.Spec.wres_apply, ← slabW1 x12 0 k q]
  refine congrArg (val_main_v117 (F := Ideal) x12) (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

theorem w11 : val_main_v130 (F := Ideal) x12 = Cert.Spec.wres x12 1 1 := by
  funext j
  obtain ⟨k, q, rfl⟩ : ∃ (k : Fin 128) (q : Fin 128), j = ix2 k q := ⟨j 0, j 1, eq_ix2 j⟩
  have hk := k.isLt; have hq := q.isLt
  rw [val_main_v130_apply, val_main_v129_apply, Cert.Spec.wres_apply, ← slabW1 x12 1 k q]
  refine congrArg (val_main_v117 (F := Ideal) x12) (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

theorem w20 : val_main_v144 (F := Ideal) x12 = Cert.Spec.wres x12 2 0 := by
  funext j
  obtain ⟨k, q, rfl⟩ : ∃ (k : Fin 128) (q : Fin 128), j = ix2 k q := ⟨j 0, j 1, eq_ix2 j⟩
  have hk := k.isLt; have hq := q.isLt
  rw [val_main_v144_apply, val_main_v143_apply, Cert.Spec.wres_apply, ← slabW2 x12 0 k q]
  refine congrArg (val_main_v140 (F := Ideal) x12) (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

theorem w21 : val_main_v153 (F := Ideal) x12 = Cert.Spec.wres x12 2 1 := by
  funext j
  obtain ⟨k, q, rfl⟩ : ∃ (k : Fin 128) (q : Fin 128), j = ix2 k q := ⟨j 0, j 1, eq_ix2 j⟩
  have hk := k.isLt; have hq := q.isLt
  rw [val_main_v153_apply, val_main_v152_apply, Cert.Spec.wres_apply, ← slabW2 x12 1 k q]
  refine congrArg (val_main_v140 (F := Ideal) x12) (funext fun a => Fin.ext ?_)
  match a with
  | ⟨0, _⟩ => rfl
  | ⟨1, _⟩ => show (k.val * 128 + q.val) / 128 % 128 = k.val; omega
  | ⟨2, _⟩ => show (k.val * 128 + q.val) % 128 = q.val; omega

/-! ## The bias of each layer, broadcast over the rows -/

theorem b00 (p : Fin 150000) (q : Fin 128) : val_main_v97 (F := Ideal) x13 (ix2 p q) = Cert.Spec.bres x13 0 0 (ix1 q) := by
  have hq := q.isLt
  rw [val_main_v97_apply, val_main_v96_apply, val_main_v95_apply, val_main_v94_apply, Cert.Spec.bres_apply, ← slabB0 x13 0 q]
  refine congrArg (val_main_v90 (F := Ideal) x13) (funext fun a => Fin.ext ?_)
  match a with
  | ⟨0, _⟩ => rfl
  | ⟨1, _⟩ => show q.val % 128 = q.val; omega

theorem b01 (p : Fin 150000) (q : Fin 128) : val_main_v106 (F := Ideal) x13 (ix2 p q) = Cert.Spec.bres x13 0 1 (ix1 q) := by
  have hq := q.isLt
  rw [val_main_v106_apply, val_main_v105_apply, val_main_v104_apply, val_main_v103_apply, Cert.Spec.bres_apply, ← slabB0 x13 1 q]
  refine congrArg (val_main_v90 (F := Ideal) x13) (funext fun a => Fin.ext ?_)
  match a with
  | ⟨0, _⟩ => rfl
  | ⟨1, _⟩ => show q.val % 128 = q.val; omega

theorem b10 (p : Fin 150000) (q : Fin 128) : val_main_v126 (F := Ideal) x13 (ix2 p q) = Cert.Spec.bres x13 1 0 (ix1 q) := by
  have hq := q.isLt
  rw [val_main_v126_apply, val_main_v125_apply, val_main_v124_apply, val_main_v123_apply, Cert.Spec.bres_apply, ← slabB1 x13 0 q]
  refine congrArg (val_main_v119 (F := Ideal) x13) (funext fun a => Fin.ext ?_)
  match a with
  | ⟨0, _⟩ => rfl
  | ⟨1, _⟩ => show q.val % 128 = q.val; omega

theorem b11 (p : Fin 150000) (q : Fin 128) : val_main_v135 (F := Ideal) x13 (ix2 p q) = Cert.Spec.bres x13 1 1 (ix1 q) := by
  have hq := q.isLt
  rw [val_main_v135_apply, val_main_v134_apply, val_main_v133_apply, val_main_v132_apply, Cert.Spec.bres_apply, ← slabB1 x13 1 q]
  refine congrArg (val_main_v119 (F := Ideal) x13) (funext fun a => Fin.ext ?_)
  match a with
  | ⟨0, _⟩ => rfl
  | ⟨1, _⟩ => show q.val % 128 = q.val; omega

theorem b20 (p : Fin 150000) (q : Fin 128) : val_main_v149 (F := Ideal) x13 (ix2 p q) = Cert.Spec.bres x13 2 0 (ix1 q) := by
  have hq := q.isLt
  rw [val_main_v149_apply, val_main_v148_apply, val_main_v147_apply, val_main_v146_apply, Cert.Spec.bres_apply, ← slabB2 x13 0 q]
  refine congrArg (val_main_v142 (F := Ideal) x13) (funext fun a => Fin.ext ?_)
  match a with
  | ⟨0, _⟩ => rfl
  | ⟨1, _⟩ => show q.val % 128 = q.val; omega

theorem b21 (p : Fin 150000) (q : Fin 128) : val_main_v158 (F := Ideal) x13 (ix2 p q) = Cert.Spec.bres x13 2 1 (ix1 q) := by
  have hq := q.isLt
  rw [val_main_v158_apply, val_main_v157_apply, val_main_v156_apply, val_main_v155_apply, Cert.Spec.bres_apply, ← slabB2 x13 1 q]
  refine congrArg (val_main_v142 (F := Ideal) x13) (funext fun a => Fin.ext ?_)
  match a with
  | ⟨0, _⟩ => rfl
  | ⟨1, _⟩ => show q.val % 128 = q.val; omega

theorem bout (p : Fin 150000) (q : Fin 128) : val_main_v112 (F := Ideal) x15 (ix2 p q) = x15 (ix1 q) := by
  rw [val_main_v112_apply, val_main_v111_apply]
  refine congrArg x15 (funext fun a => Fin.ext ?_)
  match a with
  | ⟨0, _⟩ => rfl

/-! ## The seven layers -/

theorem layer1 :
    val_main_v99 (F := Ideal) x0 x1 x2 x3 x4 x5 x6 x7 x8 x9 x10 x11 x12 x13
      = Cert.Spec.dense (val_main_v86 (F := Ideal) x0 x1 x2 x3 x4 x5 x6 x7 x8 x9 x10 x11) (Cert.Spec.wres x12 0 0) (Cert.Spec.bres x13 0 0) := by
  refine dense_of _ _ _ (val_main_v93 (F := Ideal) x0 x1 x2 x3 x4 x5 x6 x7 x8 x9 x10 x11 x12) (val_main_v97 (F := Ideal) x13)
    (val_main_v98 (F := Ideal) x0 x1 x2 x3 x4 x5 x6 x7 x8 x9 x10 x11 x12 x13) _ (fun p q => ?_) (fun p q => b00 x13 p q) (fun i => rfl) (fun i => ?_)
  · rw [val_main_v93_apply, w00]
    refine Finset.sum_congr rfl fun k _ => ?_
    have hl : lidx_main_v93 (ix2 p q) k = ix2 p k := funext fun a => Fin.ext (by match a with | ⟨0, _⟩ => rfl | ⟨1, _⟩ => rfl)
    have hr : ridx_main_v93 (ix2 p q) k = ix2 k q := funext fun a => Fin.ext (by match a with | ⟨0, _⟩ => rfl | ⟨1, _⟩ => rfl)
    rw [hl, hr]
  · rw [val_main_v99_apply, val_main_call2_v5_apply, val_main_call2_v4_apply, val_main_call2_cst_0_apply, val_main_call2_v3_apply,
      val_main_call2_v2_apply, val_main_call2_cst_apply, val_main_call2_v1_apply, val_main_call2_v0_apply]
    exact swish_ops _

theorem layer2 :
    val_main_v108 (F := Ideal) x0 x1 x2 x3 x4 x5 x6 x7 x8 x9 x10 x11 x12 x13
      = Cert.Spec.dense (val_main_v99 (F := Ideal) x0 x1 x2 x3 x4 x5 x6 x7 x8 x9 x10 x11 x12 x13) (Cert.Spec.wres x12 0 1) (Cert.Spec.bres x13 0 1) := by
  refine dense_of _ _ _ (val_main_v102 (F := Ideal) x0 x1 x2 x3 x4 x5 x6 x7 x8 x9 x10 x11 x12 x13) (val_main_v106 (F := Ideal) x13)
    (val_main_v107 (F := Ideal) x0 x1 x2 x3 x4 x5 x6 x7 x8 x9 x10 x11 x12 x13) _ (fun p q => ?_) (fun p q => b01 x13 p q) (fun i => rfl) (fun i => ?_)
  · rw [val_main_v102_apply, w01]
    refine Finset.sum_congr rfl fun k _ => ?_
    have hl : lidx_main_v102 (ix2 p q) k = ix2 p k := funext fun a => Fin.ext (by match a with | ⟨0, _⟩ => rfl | ⟨1, _⟩ => rfl)
    have hr : ridx_main_v102 (ix2 p q) k = ix2 k q := funext fun a => Fin.ext (by match a with | ⟨0, _⟩ => rfl | ⟨1, _⟩ => rfl)
    rw [hl, hr]
  · rw [val_main_v108_apply, val_main_call3_v5_apply, val_main_call3_v4_apply, val_main_call3_cst_0_apply, val_main_call3_v3_apply,
      val_main_call3_v2_apply, val_main_call3_cst_apply, val_main_call3_v1_apply, val_main_call3_v0_apply]
    exact swish_ops _

theorem layer3 :
    val_main_v114 (F := Ideal) x0 x1 x2 x3 x4 x5 x6 x7 x8 x9 x10 x11 x12 x13 x14 x15
      = Cert.Spec.dense (val_main_v109 (F := Ideal) x0 x1 x2 x3 x4 x5 x6 x7 x8 x9 x10 x11 x12 x13) x14 x15 := by
  refine dense_of _ _ _ (val_main_v110 (F := Ideal) x0 x1 x2 x3 x4 x5 x6 x7 x8 x9 x10 x11 x12 x13 x14) (val_main_v112 (F := Ideal) x15)
    (val_main_v113 (F := Ideal) x0 x1 x2 x3 x4 x5 x6 x7 x8 x9 x10 x11 x12 x13 x14 x15) _ (fun p q => ?_) (fun p q => bout x15 p q) (fun i => rfl) (fun i => ?_)
  · rw [val_main_v110_apply]
    refine Finset.sum_congr rfl fun k _ => ?_
    have hl : lidx_main_v110 (ix2 p q) k = ix2 p k := funext fun a => Fin.ext (by match a with | ⟨0, _⟩ => rfl | ⟨1, _⟩ => rfl)
    have hr : ridx_main_v110 (ix2 p q) k = ix2 k q := funext fun a => Fin.ext (by match a with | ⟨0, _⟩ => rfl | ⟨1, _⟩ => rfl)
    rw [hl, hr]
  · rw [val_main_v114_apply, val_main_call4_v5_apply, val_main_call4_v4_apply, val_main_call4_cst_0_apply, val_main_call4_v3_apply,
      val_main_call4_v2_apply, val_main_call4_cst_apply, val_main_call4_v1_apply, val_main_call4_v0_apply]
    exact swish_ops _

theorem layer4 :
    val_main_v128 (F := Ideal) x0 x1 x2 x3 x4 x5 x6 x7 x8 x9 x10 x11 x12 x13 x14 x15
      = Cert.Spec.dense (val_main_v115 (F := Ideal) x0 x1 x2 x3 x4 x5 x6 x7 x8 x9 x10 x11 x12 x13 x14 x15) (Cert.Spec.wres x12 1 0) (Cert.Spec.bres x13 1 0) := by
  refine dense_of _ _ _ (val_main_v122 (F := Ideal) x0 x1 x2 x3 x4 x5 x6 x7 x8 x9 x10 x11 x12 x13 x14 x15) (val_main_v126 (F := Ideal) x13)
    (val_main_v127 (F := Ideal) x0 x1 x2 x3 x4 x5 x6 x7 x8 x9 x10 x11 x12 x13 x14 x15) _ (fun p q => ?_) (fun p q => b10 x13 p q) (fun i => rfl) (fun i => ?_)
  · rw [val_main_v122_apply, w10]
    refine Finset.sum_congr rfl fun k _ => ?_
    have hl : lidx_main_v122 (ix2 p q) k = ix2 p k := funext fun a => Fin.ext (by match a with | ⟨0, _⟩ => rfl | ⟨1, _⟩ => rfl)
    have hr : ridx_main_v122 (ix2 p q) k = ix2 k q := funext fun a => Fin.ext (by match a with | ⟨0, _⟩ => rfl | ⟨1, _⟩ => rfl)
    rw [hl, hr]
  · rw [val_main_v128_apply, val_main_call5_v5_apply, val_main_call5_v4_apply, val_main_call5_cst_0_apply, val_main_call5_v3_apply,
      val_main_call5_v2_apply, val_main_call5_cst_apply, val_main_call5_v1_apply, val_main_call5_v0_apply]
    exact swish_ops _

theorem layer5 :
    val_main_v137 (F := Ideal) x0 x1 x2 x3 x4 x5 x6 x7 x8 x9 x10 x11 x12 x13 x14 x15
      = Cert.Spec.dense (val_main_v128 (F := Ideal) x0 x1 x2 x3 x4 x5 x6 x7 x8 x9 x10 x11 x12 x13 x14 x15) (Cert.Spec.wres x12 1 1) (Cert.Spec.bres x13 1 1) := by
  refine dense_of _ _ _ (val_main_v131 (F := Ideal) x0 x1 x2 x3 x4 x5 x6 x7 x8 x9 x10 x11 x12 x13 x14 x15) (val_main_v135 (F := Ideal) x13)
    (val_main_v136 (F := Ideal) x0 x1 x2 x3 x4 x5 x6 x7 x8 x9 x10 x11 x12 x13 x14 x15) _ (fun p q => ?_) (fun p q => b11 x13 p q) (fun i => rfl) (fun i => ?_)
  · rw [val_main_v131_apply, w11]
    refine Finset.sum_congr rfl fun k _ => ?_
    have hl : lidx_main_v131 (ix2 p q) k = ix2 p k := funext fun a => Fin.ext (by match a with | ⟨0, _⟩ => rfl | ⟨1, _⟩ => rfl)
    have hr : ridx_main_v131 (ix2 p q) k = ix2 k q := funext fun a => Fin.ext (by match a with | ⟨0, _⟩ => rfl | ⟨1, _⟩ => rfl)
    rw [hl, hr]
  · rw [val_main_v137_apply, val_main_call6_v5_apply, val_main_call6_v4_apply, val_main_call6_cst_0_apply, val_main_call6_v3_apply,
      val_main_call6_v2_apply, val_main_call6_cst_apply, val_main_call6_v1_apply, val_main_call6_v0_apply]
    exact swish_ops _

theorem layer6 :
    val_main_v151 (F := Ideal) x0 x1 x2 x3 x4 x5 x6 x7 x8 x9 x10 x11 x12 x13 x14 x15
      = Cert.Spec.dense (val_main_v138 (F := Ideal) x0 x1 x2 x3 x4 x5 x6 x7 x8 x9 x10 x11 x12 x13 x14 x15) (Cert.Spec.wres x12 2 0) (Cert.Spec.bres x13 2 0) := by
  refine dense_of _ _ _ (val_main_v145 (F := Ideal) x0 x1 x2 x3 x4 x5 x6 x7 x8 x9 x10 x11 x12 x13 x14 x15) (val_main_v149 (F := Ideal) x13)
    (val_main_v150 (F := Ideal) x0 x1 x2 x3 x4 x5 x6 x7 x8 x9 x10 x11 x12 x13 x14 x15) _ (fun p q => ?_) (fun p q => b20 x13 p q) (fun i => rfl) (fun i => ?_)
  · rw [val_main_v145_apply, w20]
    refine Finset.sum_congr rfl fun k _ => ?_
    have hl : lidx_main_v145 (ix2 p q) k = ix2 p k := funext fun a => Fin.ext (by match a with | ⟨0, _⟩ => rfl | ⟨1, _⟩ => rfl)
    have hr : ridx_main_v145 (ix2 p q) k = ix2 k q := funext fun a => Fin.ext (by match a with | ⟨0, _⟩ => rfl | ⟨1, _⟩ => rfl)
    rw [hl, hr]
  · rw [val_main_v151_apply, val_main_call7_v5_apply, val_main_call7_v4_apply, val_main_call7_cst_0_apply, val_main_call7_v3_apply,
      val_main_call7_v2_apply, val_main_call7_cst_apply, val_main_call7_v1_apply, val_main_call7_v0_apply]
    exact swish_ops _

theorem layer7 :
    val_main_v160 (F := Ideal) x0 x1 x2 x3 x4 x5 x6 x7 x8 x9 x10 x11 x12 x13 x14 x15
      = Cert.Spec.dense (val_main_v151 (F := Ideal) x0 x1 x2 x3 x4 x5 x6 x7 x8 x9 x10 x11 x12 x13 x14 x15) (Cert.Spec.wres x12 2 1) (Cert.Spec.bres x13 2 1) := by
  refine dense_of _ _ _ (val_main_v154 (F := Ideal) x0 x1 x2 x3 x4 x5 x6 x7 x8 x9 x10 x11 x12 x13 x14 x15) (val_main_v158 (F := Ideal) x13)
    (val_main_v159 (F := Ideal) x0 x1 x2 x3 x4 x5 x6 x7 x8 x9 x10 x11 x12 x13 x14 x15) _ (fun p q => ?_) (fun p q => b21 x13 p q) (fun i => rfl) (fun i => ?_)
  · rw [val_main_v154_apply, w21]
    refine Finset.sum_congr rfl fun k _ => ?_
    have hl : lidx_main_v154 (ix2 p q) k = ix2 p k := funext fun a => Fin.ext (by match a with | ⟨0, _⟩ => rfl | ⟨1, _⟩ => rfl)
    have hr : ridx_main_v154 (ix2 p q) k = ix2 k q := funext fun a => Fin.ext (by match a with | ⟨0, _⟩ => rfl | ⟨1, _⟩ => rfl)
    rw [hl, hr]
  · rw [val_main_v160_apply, val_main_call8_v5_apply, val_main_call8_v4_apply, val_main_call8_cst_0_apply, val_main_call8_v3_apply,
      val_main_call8_v2_apply, val_main_call8_cst_apply, val_main_call8_v1_apply, val_main_call8_v0_apply]
    exact swish_ops _

/-! ## The entrywise sums: the two inputs, the three residual sums, the skip -/

theorem sum0 :
    val_main_v86 (F := Ideal) x0 x1 x2 x3 x4 x5 x6 x7 x8 x9 x10 x11
      = Cert.Spec.madd (val_main_v6 (F := Ideal) x0 x9 x10) (val_main_v85 (F := Ideal) x0 x1 x2 x3 x4 x5 x6 x7 x8 x11) :=
  funext fun i => val_main_v86_apply (F := Ideal) x0 x1 x2 x3 x4 x5 x6 x7 x8 x9 x10 x11 i

theorem sum1 :
    val_main_v109 (F := Ideal) x0 x1 x2 x3 x4 x5 x6 x7 x8 x9 x10 x11 x12 x13
      = Cert.Spec.madd (val_main_v86 (F := Ideal) x0 x1 x2 x3 x4 x5 x6 x7 x8 x9 x10 x11) (val_main_v108 (F := Ideal) x0 x1 x2 x3 x4 x5 x6 x7 x8 x9 x10 x11 x12 x13) :=
  funext fun i => val_main_v109_apply (F := Ideal) x0 x1 x2 x3 x4 x5 x6 x7 x8 x9 x10 x11 x12 x13 i

theorem sum2 :
    val_main_v115 (F := Ideal) x0 x1 x2 x3 x4 x5 x6 x7 x8 x9 x10 x11 x12 x13 x14 x15
      = Cert.Spec.madd (val_main_v114 (F := Ideal) x0 x1 x2 x3 x4 x5 x6 x7 x8 x9 x10 x11 x12 x13 x14 x15) x0 :=
  funext fun i => val_main_v115_apply (F := Ideal) x0 x1 x2 x3 x4 x5 x6 x7 x8 x9 x10 x11 x12 x13 x14 x15 i

theorem sum3 :
    val_main_v138 (F := Ideal) x0 x1 x2 x3 x4 x5 x6 x7 x8 x9 x10 x11 x12 x13 x14 x15
      = Cert.Spec.madd (val_main_v115 (F := Ideal) x0 x1 x2 x3 x4 x5 x6 x7 x8 x9 x10 x11 x12 x13 x14 x15) (val_main_v137 (F := Ideal) x0 x1 x2 x3 x4 x5 x6 x7 x8 x9 x10 x11 x12 x13 x14 x15) :=
  funext fun i => val_main_v138_apply (F := Ideal) x0 x1 x2 x3 x4 x5 x6 x7 x8 x9 x10 x11 x12 x13 x14 x15 i

theorem sum4 :
    val_main_v161 (F := Ideal) x0 x1 x2 x3 x4 x5 x6 x7 x8 x9 x10 x11 x12 x13 x14 x15
      = Cert.Spec.madd (val_main_v138 (F := Ideal) x0 x1 x2 x3 x4 x5 x6 x7 x8 x9 x10 x11 x12 x13 x14 x15) (val_main_v160 (F := Ideal) x0 x1 x2 x3 x4 x5 x6 x7 x8 x9 x10 x11 x12 x13 x14 x15) :=
  funext fun i => val_main_v161_apply (F := Ideal) x0 x1 x2 x3 x4 x5 x6 x7 x8 x9 x10 x11 x12 x13 x14 x15 i

end Cert.Bridge.Ref2

namespace Cert.Bridge

open Idealize.ShloMosaic Idealize.ShloMosaic.ValueIdx Cert.ReferenceIdeal Cert.ReferenceIdeal.ReadP

/-- THE REFERENCE'S RESULT is the head of its own `x_ji` and aggregate, the input and the weights. -/
theorem ref_out (x0 : Cert.Spec.Mat 150000 128) (x1 : Cert.Spec.Mat 150000 6) (x2 : Cert.Spec.Mat 450000 42) (x3 x4 : IVec S450000 32)
    (x5 : Cert.Spec.Mat 6 128) (x6 : Cert.Spec.Mat 42 8) (x7 : Cert.Spec.Mat 128 128) (x8 : Cert.Spec.Vc 128) (x9 : Cert.Spec.Mat 128 128)
    (x10 : Cert.Spec.Vc 128) (x11 : FVec Ideal S128x8x128 .f32) (x12 : FVec Ideal S3x2x128x128 .f32) (x13 : FVec Ideal S3x2x128 .f32)
    (x14 : Cert.Spec.Mat 128 128) (x15 : Cert.Spec.Vc 128) :
    val_main_v161 (F := Ideal) x0 x1 x2 x3 x4 x5 x6 x7 x8 x9 x10 x11 x12 x13 x14 x15
      = Cert.Spec.head (val_main_v6 (F := Ideal) x0 x9 x10) (val_main_v85 (F := Ideal) x0 x1 x2 x3 x4 x5 x6 x7 x8 x11) x0
          (Cert.Spec.wres x12) (Cert.Spec.bres x13) x14 x15 := by
  rw [Ref2.sum4 x0 x1 x2 x3 x4 x5 x6 x7 x8 x9 x10 x11 x12 x13 x14 x15, Ref2.layer7 x0 x1 x2 x3 x4 x5 x6 x7 x8 x9 x10 x11 x12 x13 x14 x15, Ref2.layer6 x0 x1 x2 x3 x4 x5 x6 x7 x8 x9 x10 x11 x12 x13 x14 x15, Ref2.sum3 x0 x1 x2 x3 x4 x5 x6 x7 x8 x9 x10 x11 x12 x13 x14 x15, Ref2.layer5 x0 x1 x2 x3 x4 x5 x6 x7 x8 x9 x10 x11 x12 x13 x14 x15,
    Ref2.layer4 x0 x1 x2 x3 x4 x5 x6 x7 x8 x9 x10 x11 x12 x13 x14 x15, Ref2.sum2 x0 x1 x2 x3 x4 x5 x6 x7 x8 x9 x10 x11 x12 x13 x14 x15, Ref2.layer3 x0 x1 x2 x3 x4 x5 x6 x7 x8 x9 x10 x11 x12 x13 x14 x15, Ref2.sum1 x0 x1 x2 x3 x4 x5 x6 x7 x8 x9 x10 x11 x12 x13, Ref2.layer2 x0 x1 x2 x3 x4 x5 x6 x7 x8 x9 x10 x11 x12 x13,
    Ref2.layer1 x0 x1 x2 x3 x4 x5 x6 x7 x8 x9 x10 x11 x12 x13, Ref2.sum0 x0 x1 x2 x3 x4 x5 x6 x7 x8 x9 x10 x11]
  rfl

end Cert.Bridge

end
-- ==== Proof.RefRunHead.lean ====
/-
  The head's half of the reference's run, evaluated by hand, one stretch of operations at a time. Each stretch is
  a list of host operations; the buffer contents after it are a fold over the list, and at the stretch's last result
  the fold is the composition of the operations' functions applied to what the stretch reads: the weights, the input,
  and the previous stretch's last result. That composition unfolds, definition by definition, to the value that the
  stage-by-stage reading of the reference gives for the same result. No operation of these stretches writes an argument of @main.
-/
import proofs.«421744_j48490180772447_1_alg».proof.Proof.RefOpsC
import proofs.«421744_j48490180772447_1_alg».proof.Proof.RefRead
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The sixteen arguments of @main. -/
def argRefs : List (Ref sig .tc) := [main_arg0, main_arg1, main_arg2, main_arg3, main_arg4, main_arg5, main_arg6, main_arg7, main_arg8, main_arg9, main_arg10, main_arg11, main_arg12, main_arg13, main_arg14, main_arg15]

/-! ## The first residual block: the operations after the sum of the two inputs, through the block's closing sum -/

set_option maxRecDepth 8192 in
theorem chunk5 (W : Valuation τ sig (Elt F)) (x0 : (⟨S150000x128, .f32⟩ : BufTy).Contents (Elt F)) (x1 : (⟨S150000x6, .f32⟩ : BufTy).Contents (Elt F)) (x2 : (⟨S450000x42, .f32⟩ : BufTy).Contents (Elt F)) (x3 x4 : (⟨S450000, .i32⟩ : BufTy).Contents (Elt F)) (x5 : (⟨S6x128, .f32⟩ : BufTy).Contents (Elt F)) (x6 : (⟨S42x8, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x8x128, .f32⟩ : BufTy).Contents (Elt F)) (x12 : (⟨S3x2x128x128, .f32⟩ : BufTy).Contents (Elt F)) (x13 : (⟨S3x2x128, .f32⟩ : BufTy).Contents (Elt F)) (x14 : (⟨S128x128, .f32⟩ : BufTy).Contents (Elt F)) (x15 : (⟨S128, .f32⟩ : BufTy).Contents (Elt F))
    (h12 : W (Proc.devRef .tc main_arg12) = x12) (h13 : W (Proc.devRef .tc main_arg13) = x13)
    (h86 : W (Proc.devRef .tc main_v86) = ReadP.val_main_v86 (F := F) x0 x1 x2 x3 x4 x5 x6 x7 x8 x9 x10 x11) :
    after (ValueC.ops5 (F := F)) W (Proc.devRef .tc main_v109) = ReadP.val_main_v109 (F := F) x0 x1 x2 x3 x4 x5 x6 x7 x8 x9 x10 x11 x12 x13 := by
  after_results_simp
  rw [h12, h13, h86]
  unfold ReadP.val_main_v109 ReadP.val_main_v108 ReadP.val_main_call3_v5 ReadP.val_main_call3_v4 ReadP.val_main_call3_cst_0 ReadP.val_main_call3_v3 ReadP.val_main_call3_v2 ReadP.val_main_call3_cst ReadP.val_main_call3_v1 ReadP.val_main_call3_v0 ReadP.val_main_v107 ReadP.val_main_v106 ReadP.val_main_v105 ReadP.val_main_v104 ReadP.val_main_v103 ReadP.val_main_v102 ReadP.val_main_v101 ReadP.val_main_v100 ReadP.val_main_v99 ReadP.val_main_call2_v5 ReadP.val_main_call2_v4 ReadP.val_main_call2_cst_0 ReadP.val_main_call2_v3 ReadP.val_main_call2_v2 ReadP.val_main_call2_cst ReadP.val_main_call2_v1 ReadP.val_main_call2_v0 ReadP.val_main_v98 ReadP.val_main_v97 ReadP.val_main_v96 ReadP.val_main_v95 ReadP.val_main_v94 ReadP.val_main_v93 ReadP.val_main_v92 ReadP.val_main_v91 ReadP.val_main_v90 ReadP.val_main_v89 ReadP.val_main_v88 ReadP.val_main_v87
  rfl

/-! ## The dense layer and the skip -/

set_option maxRecDepth 8192 in
theorem chunk6 (W : Valuation τ sig (Elt F)) (x0 : (⟨S150000x128, .f32⟩ : BufTy).Contents (Elt F)) (x1 : (⟨S150000x6, .f32⟩ : BufTy).Contents (Elt F)) (x2 : (⟨S450000x42, .f32⟩ : BufTy).Contents (Elt F)) (x3 x4 : (⟨S450000, .i32⟩ : BufTy).Contents (Elt F)) (x5 : (⟨S6x128, .f32⟩ : BufTy).Contents (Elt F)) (x6 : (⟨S42x8, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x8x128, .f32⟩ : BufTy).Contents (Elt F)) (x12 : (⟨S3x2x128x128, .f32⟩ : BufTy).Contents (Elt F)) (x13 : (⟨S3x2x128, .f32⟩ : BufTy).Contents (Elt F)) (x14 : (⟨S128x128, .f32⟩ : BufTy).Contents (Elt F)) (x15 : (⟨S128, .f32⟩ : BufTy).Contents (Elt F))
    (h0 : W (Proc.devRef .tc main_arg0) = x0) (h14 : W (Proc.devRef .tc main_arg14) = x14) (h15 : W (Proc.devRef .tc main_arg15) = x15)
    (h109 : W (Proc.devRef .tc main_v109) = ReadP.val_main_v109 (F := F) x0 x1 x2 x3 x4 x5 x6 x7 x8 x9 x10 x11 x12 x13) :
    after (ValueC.ops6 (F := F)) W (Proc.devRef .tc main_v115) = ReadP.val_main_v115 (F := F) x0 x1 x2 x3 x4 x5 x6 x7 x8 x9 x10 x11 x12 x13 x14 x15 := by
  after_results_simp
  rw [h0, h14, h15, h109]
  unfold ReadP.val_main_v115 ReadP.val_main_v114 ReadP.val_main_call4_v5 ReadP.val_main_call4_v4 ReadP.val_main_call4_cst_0 ReadP.val_main_call4_v3 ReadP.val_main_call4_v2 ReadP.val_main_call4_cst ReadP.val_main_call4_v1 ReadP.val_main_call4_v0 ReadP.val_main_v113 ReadP.val_main_v112 ReadP.val_main_v111 ReadP.val_main_v110
  rfl

/-! ## The second residual block -/

set_option maxRecDepth 8192 in
theorem chunk7 (W : Valuation τ sig (Elt F)) (x0 : (⟨S150000x128, .f32⟩ : BufTy).Contents (Elt F)) (x1 : (⟨S150000x6, .f32⟩ : BufTy).Contents (Elt F)) (x2 : (⟨S450000x42, .f32⟩ : BufTy).Contents (Elt F)) (x3 x4 : (⟨S450000, .i32⟩ : BufTy).Contents (Elt F)) (x5 : (⟨S6x128, .f32⟩ : BufTy).Contents (Elt F)) (x6 : (⟨S42x8, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x8x128, .f32⟩ : BufTy).Contents (Elt F)) (x12 : (⟨S3x2x128x128, .f32⟩ : BufTy).Contents (Elt F)) (x13 : (⟨S3x2x128, .f32⟩ : BufTy).Contents (Elt F)) (x14 : (⟨S128x128, .f32⟩ : BufTy).Contents (Elt F)) (x15 : (⟨S128, .f32⟩ : BufTy).Contents (Elt F))
    (h12 : W (Proc.devRef .tc main_arg12) = x12) (h13 : W (Proc.devRef .tc main_arg13) = x13)
    (h115 : W (Proc.devRef .tc main_v115) = ReadP.val_main_v115 (F := F) x0 x1 x2 x3 x4 x5 x6 x7 x8 x9 x10 x11 x12 x13 x14 x15) :
    after (ValueC.ops7 (F := F)) W (Proc.devRef .tc main_v138) = ReadP.val_main_v138 (F := F) x0 x1 x2 x3 x4 x5 x6 x7 x8 x9 x10 x11 x12 x13 x14 x15 := by
  after_results_simp
  rw [h12, h13, h115]
  unfold ReadP.val_main_v138 ReadP.val_main_v137 ReadP.val_main_call6_v5 ReadP.val_main_call6_v4 ReadP.val_main_call6_cst_0 ReadP.val_main_call6_v3 ReadP.val_main_call6_v2 ReadP.val_main_call6_cst ReadP.val_main_call6_v1 ReadP.val_main_call6_v0 ReadP.val_main_v136 ReadP.val_main_v135 ReadP.val_main_v134 ReadP.val_main_v133 ReadP.val_main_v132 ReadP.val_main_v131 ReadP.val_main_v130 ReadP.val_main_v129 ReadP.val_main_v128 ReadP.val_main_call5_v5 ReadP.val_main_call5_v4 ReadP.val_main_call5_cst_0 ReadP.val_main_call5_v3 ReadP.val_main_call5_v2 ReadP.val_main_call5_cst ReadP.val_main_call5_v1 ReadP.val_main_call5_v0 ReadP.val_main_v127 ReadP.val_main_v126 ReadP.val_main_v125 ReadP.val_main_v124 ReadP.val_main_v123 ReadP.val_main_v122 ReadP.val_main_v121 ReadP.val_main_v120 ReadP.val_main_v119 ReadP.val_main_v118 ReadP.val_main_v117 ReadP.val_main_v116
  rfl

/-! ## The third residual block -/

set_option maxRecDepth 8192 in
theorem chunk8 (W : Valuation τ sig (Elt F)) (x0 : (⟨S150000x128, .f32⟩ : BufTy).Contents (Elt F)) (x1 : (⟨S150000x6, .f32⟩ : BufTy).Contents (Elt F)) (x2 : (⟨S450000x42, .f32⟩ : BufTy).Contents (Elt F)) (x3 x4 : (⟨S450000, .i32⟩ : BufTy).Contents (Elt F)) (x5 : (⟨S6x128, .f32⟩ : BufTy).Contents (Elt F)) (x6 : (⟨S42x8, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x8x128, .f32⟩ : BufTy).Contents (Elt F)) (x12 : (⟨S3x2x128x128, .f32⟩ : BufTy).Contents (Elt F)) (x13 : (⟨S3x2x128, .f32⟩ : BufTy).Contents (Elt F)) (x14 : (⟨S128x128, .f32⟩ : BufTy).Contents (Elt F)) (x15 : (⟨S128, .f32⟩ : BufTy).Contents (Elt F))
    (h12 : W (Proc.devRef .tc main_arg12) = x12) (h13 : W (Proc.devRef .tc main_arg13) = x13)
    (h138 : W (Proc.devRef .tc main_v138) = ReadP.val_main_v138 (F := F) x0 x1 x2 x3 x4 x5 x6 x7 x8 x9 x10 x11 x12 x13 x14 x15) :
    after (ValueC.ops8 (F := F)) W (Proc.devRef .tc main_v161) = ReadP.val_main_v161 (F := F) x0 x1 x2 x3 x4 x5 x6 x7 x8 x9 x10 x11 x12 x13 x14 x15 := by
  after_results_simp
  rw [h12, h13, h138]
  unfold ReadP.val_main_v161 ReadP.val_main_v160 ReadP.val_main_call8_v5 ReadP.val_main_call8_v4 ReadP.val_main_call8_cst_0 ReadP.val_main_call8_v3 ReadP.val_main_call8_v2 ReadP.val_main_call8_cst ReadP.val_main_call8_v1 ReadP.val_main_call8_v0 ReadP.val_main_v159 ReadP.val_main_v158 ReadP.val_main_v157 ReadP.val_main_v156 ReadP.val_main_v155 ReadP.val_main_v154 ReadP.val_main_v153 ReadP.val_main_v152 ReadP.val_main_v151 ReadP.val_main_call7_v5 ReadP.val_main_call7_v4 ReadP.val_main_call7_cst_0 ReadP.val_main_call7_v3 ReadP.val_main_call7_v2 ReadP.val_main_call7_cst ReadP.val_main_call7_v1 ReadP.val_main_call7_v0 ReadP.val_main_v150 ReadP.val_main_v149 ReadP.val_main_v148 ReadP.val_main_v147 ReadP.val_main_v146 ReadP.val_main_v145 ReadP.val_main_v144 ReadP.val_main_v143 ReadP.val_main_v142 ReadP.val_main_v141 ReadP.val_main_v140 ReadP.val_main_v139
  rfl

/-! ## None of these operations writes an argument -/

set_option maxRecDepth 8192 in
theorem kept5 (W : Valuation τ sig (Elt F)) (b : Ref sig .tc) (hb : b ∈ argRefs) :
    after (ValueC.ops5 (F := F)) W (Proc.devRef .tc b) = W (Proc.devRef .tc b) := by
  refine after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl
  all_goals
    simp only [ValueC.ops5, List.Forall, StableHlo.nullary_writes, StableHlo.unary_writes, StableHlo.binary_writes, StableHlo.reshape_writes, Finset.mem_singleton]
    repeat' apply And.intro
    all_goals exact StableHlo.devRef_ne_of_ne (by decide)

set_option maxRecDepth 8192 in
theorem kept6 (W : Valuation τ sig (Elt F)) (b : Ref sig .tc) (hb : b ∈ argRefs) :
    after (ValueC.ops6 (F := F)) W (Proc.devRef .tc b) = W (Proc.devRef .tc b) := by
  refine after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl
  all_goals
    simp only [ValueC.ops6, List.Forall, StableHlo.nullary_writes, StableHlo.unary_writes, StableHlo.binary_writes, StableHlo.reshape_writes, Finset.mem_singleton]
    repeat' apply And.intro
    all_goals exact StableHlo.devRef_ne_of_ne (by decide)

set_option maxRecDepth 8192 in
theorem kept7 (W : Valuation τ sig (Elt F)) (b : Ref sig .tc) (hb : b ∈ argRefs) :
    after (ValueC.ops7 (F := F)) W (Proc.devRef .tc b) = W (Proc.devRef .tc b) := by
  refine after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl
  all_goals
    simp only [ValueC.ops7, List.Forall, StableHlo.nullary_writes, StableHlo.unary_writes, StableHlo.binary_writes, StableHlo.reshape_writes, Finset.mem_singleton]
    repeat' apply And.intro
    all_goals exact StableHlo.devRef_ne_of_ne (by decide)

set_option maxRecDepth 8192 in
theorem kept8 (W : Valuation τ sig (Elt F)) (b : Ref sig .tc) (hb : b ∈ argRefs) :
    after (ValueC.ops8 (F := F)) W (Proc.devRef .tc b) = W (Proc.devRef .tc b) := by
  refine after_of_forall_not_mem (b := Proc.devRef .tc b) _ _ (List.forall_iff_forall_mem.mp ?_)
  simp only [argRefs, List.mem_cons, List.not_mem_nil, or_false] at hb
  rcases hb with rfl | rfl | rfl | rfl | rfl | rfl | rfl | rfl | rfl | rfl | rfl | rfl | rfl | rfl | rfl | rfl
  all_goals
    simp only [ValueC.ops8, List.Forall, StableHlo.nullary_writes, StableHlo.unary_writes, StableHlo.binary_writes, StableHlo.reshape_writes, Finset.mem_singleton]
    repeat' apply And.intro
    all_goals exact StableHlo.devRef_ne_of_ne (by decide)

end Cert.ReferenceIdeal.HandRun

end
-- ==== Proof.RefRun.lean ====
import proofs.«421744_j48490180772447_1_alg».proof.Proof.RefOpsC
import proofs.«421744_j48490180772447_1_alg».proof.Proof.RefRead
import proofs.«421744_j48490180772447_1_alg».proof.Proof.RefRunHead
import Idealize.ShloMosaic.Lib.StableHlo.Run
import Idealize.ShloMosaic.Lib.Pipeline.Frame

/-!
The reference program's run, evaluated chunk by chunk.

The program is a straight line of host operations, cut into eight chunks where few buffers are live.
For a chunk entered at buffer contents `W`, each buffer it leaves for later chunks holds that stage's
value as a function of the program's arguments, provided the buffers it reads from earlier chunks
hold theirs and the arguments' buffers hold the arguments; a buffer it does not write is kept.
Stages shared by several later operations are thus never written out twice: between chunks they
are the named stage functions. Chaining the chunks gives the result buffer after the whole line.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The arguments are never written

The arguments of @main are the sixteen references of index below 16; every operation writes one reference of
index 16 or more. -/

/-- A reference of index below 16 differs from one of index 16 or more. -/
theorem ne_of_low {r y : Ref sig .tc} (hr : r.idx.val < 16) (hy : 16 ≤ y.idx.val) : r ≠ y :=
  fun h => by subst h; omega

/-- No operation of chunk 1 (the two edge transforms) writes an argument of @main. -/
theorem ops1_low : (ValueC.ops1 (F := F)).Forall fun op =>
    ∀ r : Ref sig .tc, r.idx.val < 16 → Proc.devRef (τ := τ) .tc r ∉ op.writes := by
  simp only [ValueC.ops1, List.Forall, nullary_writes, unary_writes, binary_writes, ternary_writes, reshape_writes,
    Finset.mem_singleton]
  repeat' apply And.intro
  all_goals exact fun r hr => devRef_ne_of_ne (ne_of_low hr (by decide))

/-- An argument's buffer is kept through chunk 1. -/
theorem kept1 (W : Valuation τ sig (Elt F)) (r : Ref sig .tc) (hr : r.idx.val < 16) :
    after (ValueC.ops1 (F := F)) W (Proc.devRef .tc r) = W (Proc.devRef .tc r) :=
  after_of_forall_not_mem _ _ fun op hop => (List.forall_iff_forall_mem.mp ops1_low) op hop r hr

/-- No operation of chunk 2 (the row gather) writes an argument of @main. -/
theorem ops2_low : (ValueC.ops2 (F := F)).Forall fun op =>
    ∀ r : Ref sig .tc, r.idx.val < 16 → Proc.devRef (τ := τ) .tc r ∉ op.writes := by
  simp only [ValueC.ops2, List.Forall, nullary_writes, unary_writes, binary_writes, ternary_writes, reshape_writes,
    Finset.mem_singleton]
  repeat' apply And.intro
  all_goals exact fun r hr => devRef_ne_of_ne (ne_of_low hr (by decide))

/-- An argument's buffer is kept through chunk 2. -/
theorem kept2 (W : Valuation τ sig (Elt F)) (r : Ref sig .tc) (hr : r.idx.val < 16) :
    after (ValueC.ops2 (F := F)) W (Proc.devRef .tc r) = W (Proc.devRef .tc r) :=
  after_of_forall_not_mem _ _ fun op hop => (List.forall_iff_forall_mem.mp ops2_low) op hop r hr

/-- No operation of chunk 3 (the bilinear sum) writes an argument of @main. -/
theorem ops3_low : (ValueC.ops3 (F := F)).Forall fun op =>
    ∀ r : Ref sig .tc, r.idx.val < 16 → Proc.devRef (τ := τ) .tc r ∉ op.writes := by
  simp only [ValueC.ops3, List.Forall, nullary_writes, unary_writes, binary_writes, ternary_writes, reshape_writes,
    Finset.mem_singleton]
  repeat' apply And.intro
  all_goals exact fun r hr => devRef_ne_of_ne (ne_of_low hr (by decide))

/-- An argument's buffer is kept through chunk 3. -/
theorem kept3 (W : Valuation τ sig (Elt F)) (r : Ref sig .tc) (hr : r.idx.val < 16) :
    after (ValueC.ops3 (F := F)) W (Proc.devRef .tc r) = W (Proc.devRef .tc r) :=
  after_of_forall_not_mem _ _ fun op hop => (List.forall_iff_forall_mem.mp ops3_low) op hop r hr

/-- No operation of chunk 4 (the scatter-add) writes an argument of @main. -/
theorem ops4_low : (ValueC.ops4 (F := F)).Forall fun op =>
    ∀ r : Ref sig .tc, r.idx.val < 16 → Proc.devRef (τ := τ) .tc r ∉ op.writes := by
  simp only [ValueC.ops4, List.Forall, nullary_writes, unary_writes, binary_writes, ternary_writes, reshape_writes,
    Finset.mem_singleton]
  repeat' apply And.intro
  all_goals exact fun r hr => devRef_ne_of_ne (ne_of_low hr (by decide))

/-- An argument's buffer is kept through chunk 4. -/
theorem kept4 (W : Valuation τ sig (Elt F)) (r : Ref sig .tc) (hr : r.idx.val < 16) :
    after (ValueC.ops4 (F := F)) W (Proc.devRef .tc r) = W (Proc.devRef .tc r) :=
  after_of_forall_not_mem _ _ fun op hop => (List.forall_iff_forall_mem.mp ops4_low) op hop r hr

variable (x0 : (⟨S150000x128, .f32⟩ : BufTy).Contents (Elt F)) (x1 : (⟨S150000x6, .f32⟩ : BufTy).Contents (Elt F))
  (x2 : (⟨S450000x42, .f32⟩ : BufTy).Contents (Elt F)) (x3 x4 : (⟨S450000, .i32⟩ : BufTy).Contents (Elt F))
  (x5 : (⟨S6x128, .f32⟩ : BufTy).Contents (Elt F)) (x6 : (⟨S42x8, .f32⟩ : BufTy).Contents (Elt F))
  (x7 : (⟨S128x128, .f32⟩ : BufTy).Contents (Elt F)) (x8 : (⟨S128, .f32⟩ : BufTy).Contents (Elt F))
  (x9 : (⟨S128x128, .f32⟩ : BufTy).Contents (Elt F)) (x10 : (⟨S128, .f32⟩ : BufTy).Contents (Elt F))
  (x11 : (⟨S128x8x128, .f32⟩ : BufTy).Contents (Elt F))

/-! ## Chunk 1: the two edge transforms (operations %0 … %12)

It leaves three buffers for later chunks: the angular basis product %1, the first transform %6 and the
second, gated by the radial basis, %12. -/

theorem chunk1_v1 (W : Valuation τ sig (Elt F))
    (h2 : W (Proc.devRef .tc main_arg2) = x2) (h6 : W (Proc.devRef .tc main_arg6) = x6) :
    after (ValueC.ops1 (F := F)) W (Proc.devRef .tc main_v1) = ReadP.val_main_v1 (F := F) x2 x6 := by
  after_results_simp
  try simp only [TRef.toBuf, TRef.ofBuf, cast_eq]
  rw [h2, h6]
  rfl

theorem chunk1_v6 (W : Valuation τ sig (Elt F))
    (h0 : W (Proc.devRef .tc main_arg0) = x0) (h9 : W (Proc.devRef .tc main_arg9) = x9)
    (h10 : W (Proc.devRef .tc main_arg10) = x10) :
    after (ValueC.ops1 (F := F)) W (Proc.devRef .tc main_v6) = ReadP.val_main_v6 (F := F) x0 x9 x10 := by
  after_results_simp
  try simp only [TRef.toBuf, TRef.ofBuf, cast_eq]
  rw [h0, h9, h10]
  rfl

theorem chunk1_v12 (W : Valuation τ sig (Elt F))
    (h0 : W (Proc.devRef .tc main_arg0) = x0) (h1 : W (Proc.devRef .tc main_arg1) = x1)
    (h5 : W (Proc.devRef .tc main_arg5) = x5) (h7 : W (Proc.devRef .tc main_arg7) = x7)
    (h8 : W (Proc.devRef .tc main_arg8) = x8) :
    after (ValueC.ops1 (F := F)) W (Proc.devRef .tc main_v12) = ReadP.val_main_v12 (F := F) x0 x1 x5 x7 x8 := by
  after_results_simp
  try simp only [TRef.toBuf, TRef.ofBuf, cast_eq]
  rw [h0, h1, h5, h7, h8]
  rfl

/-! ## Chunk 2: the row gather (operations %c … %19); %1 and %6 are carried across -/

theorem chunk2 (W : Valuation τ sig (Elt F))
    (h3 : W (Proc.devRef .tc main_arg3) = x3)
    (h12 : W (Proc.devRef .tc main_v12) = ReadP.val_main_v12 (F := F) x0 x1 x5 x7 x8) :
    after (ValueC.ops2 (F := F)) W (Proc.devRef .tc main_v19) = ReadP.val_main_v19 (F := F) x0 x1 x3 x5 x7 x8 := by
  after_results_simp
  rw [h12, h3]
  rfl

theorem chunk2_v1 (W : Valuation τ sig (Elt F)) :
    after (ValueC.ops2 (F := F)) W (Proc.devRef .tc main_v1) = W (Proc.devRef .tc main_v1) := by
  after_results_simp

theorem chunk2_v6 (W : Valuation τ sig (Elt F)) :
    after (ValueC.ops2 (F := F)) W (Proc.devRef .tc main_v6) = W (Proc.devRef .tc main_v6) := by
  after_results_simp

/-! ## Chunk 3: the eight-term bilinear sum (operations %20 … %82); %6 is carried across -/

theorem chunk3 (W : Valuation τ sig (Elt F))
    (h11 : W (Proc.devRef .tc main_arg11) = x11)
    (h1 : W (Proc.devRef .tc main_v1) = ReadP.val_main_v1 (F := F) x2 x6)
    (h19 : W (Proc.devRef .tc main_v19) = ReadP.val_main_v19 (F := F) x0 x1 x3 x5 x7 x8) :
    after (ValueC.ops3 (F := F)) W (Proc.devRef .tc main_v82)
      = ReadP.val_main_v82 (F := F) x0 x1 x2 x3 x5 x6 x7 x8 x11 := by
  after_results_simp
  rw [h11, h1, h19]
  rfl

theorem chunk3_v6 (W : Valuation τ sig (Elt F)) :
    after (ValueC.ops3 (F := F)) W (Proc.devRef .tc main_v6) = W (Proc.devRef .tc main_v6) := by
  after_results_simp

/-! ## Chunk 4: the scatter-add into zeros and the sum with the first transform (operations %cst … %86) -/

theorem chunk4 (W : Valuation τ sig (Elt F))
    (h4 : W (Proc.devRef .tc main_arg4) = x4)
    (h6 : W (Proc.devRef .tc main_v6) = ReadP.val_main_v6 (F := F) x0 x9 x10)
    (h82 : W (Proc.devRef .tc main_v82) = ReadP.val_main_v82 (F := F) x0 x1 x2 x3 x5 x6 x7 x8 x11) :
    after (ValueC.ops4 (F := F)) W (Proc.devRef .tc main_v86)
      = ReadP.val_main_v86 (F := F) x0 x1 x2 x3 x4 x5 x6 x7 x8 x9 x10 x11 := by
  after_results_simp
  rw [h4, h6, h82]
  rfl

/-! ## The first four chunks chained -/

/-- After the first four chunks, from any contents `V`: the sum %86 at its stage value of `V`'s arguments. -/
theorem after4_v86 (V : Valuation τ sig (Elt F)) :
    after (ValueC.ops4 (F := F)) (after (ValueC.ops3 (F := F)) (after (ValueC.ops2 (F := F)) (after (ValueC.ops1 (F := F)) V)))
        (Proc.devRef .tc main_v86)
      = ReadP.val_main_v86 (F := F) (V (Proc.devRef .tc main_arg0)) (V (Proc.devRef .tc main_arg1))
          (V (Proc.devRef .tc main_arg2)) (V (Proc.devRef .tc main_arg3)) (V (Proc.devRef .tc main_arg4))
          (V (Proc.devRef .tc main_arg5)) (V (Proc.devRef .tc main_arg6)) (V (Proc.devRef .tc main_arg7))
          (V (Proc.devRef .tc main_arg8)) (V (Proc.devRef .tc main_arg9)) (V (Proc.devRef .tc main_arg10))
          (V (Proc.devRef .tc main_arg11)) := by
  -- the arguments' buffers after one, two and three chunks
  have k1 := kept1 V
  have k2 : ∀ r : Ref sig .tc, r.idx.val < 16 →
      after (ValueC.ops2 (F := F)) (after (ValueC.ops1 (F := F)) V) (Proc.devRef .tc r) = V (Proc.devRef .tc r) :=
    fun r hr => (kept2 _ r hr).trans (k1 r hr)
  have k3 : ∀ r : Ref sig .tc, r.idx.val < 16 →
      after (ValueC.ops3 (F := F)) (after (ValueC.ops2 (F := F)) (after (ValueC.ops1 (F := F)) V)) (Proc.devRef .tc r)
        = V (Proc.devRef .tc r) :=
    fun r hr => (kept3 _ r hr).trans (k2 r hr)
  -- chunk 1's three buffers
  have e1 := chunk1_v1 _ _ V rfl rfl
  have e6 := chunk1_v6 _ _ _ V rfl rfl rfl
  have e12 := chunk1_v12 _ _ _ _ _ V rfl rfl rfl rfl rfl
  -- chunk 2
  have e19 := chunk2 _ _ _ _ _ _ (after (ValueC.ops1 (F := F)) V) (k1 main_arg3 (by decide)) e12
  have e1' := (chunk2_v1 (after (ValueC.ops1 (F := F)) V)).trans e1
  have e6' := (chunk2_v6 (after (ValueC.ops1 (F := F)) V)).trans e6
  -- chunk 3
  have e82 := chunk3 _ _ _ _ _ _ _ _ _ (after (ValueC.ops2 (F := F)) (after (ValueC.ops1 (F := F)) V))
    (k2 main_arg11 (by decide)) e1' e19
  have e6'' := (chunk3_v6 (after (ValueC.ops2 (F := F)) (after (ValueC.ops1 (F := F)) V))).trans e6'
  -- chunk 4
  exact chunk4 _ _ _ _ _ _ _ _ _ _ _ _ _ (k3 main_arg4 (by decide)) e6'' e82

/-! ## The whole line

The last four chunks (the three residual blocks and the dense layer between them) are evaluated in the module
imported above, in the same form; they are chained here after the first four. -/

/-- Each of the sixteen argument references has index below 16. -/
theorem idx_lt_of_mem_argRefs : ∀ b ∈ argRefs, b.idx.val < 16 := by decide

/-- After the whole line, from any contents `V`, the result buffer holds the last stage's value of `V`'s arguments. -/
theorem after_out (V : Valuation τ sig (Elt F)) :
    after (ValueC.ops (F := F)) V (Proc.devRef .tc main_v161)
      = ReadP.val_main_v161 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) := by
  simp only [ValueC.ops, StableHlo.after_append]
  -- the contents after four chunks: the sum %86 at its stage value, the arguments as in `V`
  have e86 := after4_v86 V
  have k4 : ∀ r : Ref sig .tc, r.idx.val < 16 →
      after (ValueC.ops4 (F := F)) (after (ValueC.ops3 (F := F)) (after (ValueC.ops2 (F := F)) (after (ValueC.ops1 (F := F)) V))) (Proc.devRef .tc r) = V (Proc.devRef .tc r) :=
    fun r hr => (kept4 _ r hr).trans ((kept3 _ r hr).trans ((kept2 _ r hr).trans (kept1 V r hr)))
  generalize after (ValueC.ops4 (F := F)) (after (ValueC.ops3 (F := F)) (after (ValueC.ops2 (F := F)) (after (ValueC.ops1 (F := F)) V))) = W4 at e86 k4 ⊢
  -- chunk 5
  have e109 := chunk5 (W := W4) (x14 := V (Proc.devRef .tc main_arg14)) (x15 := V (Proc.devRef .tc main_arg15)) (h12 := k4 main_arg12 (by decide)) (h13 := k4 main_arg13 (by decide)) (h86 := e86)
  have k5 : ∀ b ∈ argRefs, after (ValueC.ops5 (F := F)) W4 (Proc.devRef .tc b) = V (Proc.devRef .tc b) :=
    fun b hb => (kept5 W4 b hb).trans (k4 b (idx_lt_of_mem_argRefs b hb))
  generalize after (ValueC.ops5 (F := F)) W4 = W5 at e109 k5 ⊢
  -- chunk 6
  have e115 := chunk6 (W := W5) (h0 := k5 main_arg0 (by decide)) (h14 := k5 main_arg14 (by decide))
    (h15 := k5 main_arg15 (by decide)) (h109 := e109)
  have k6 : ∀ b ∈ argRefs, after (ValueC.ops6 (F := F)) W5 (Proc.devRef .tc b) = V (Proc.devRef .tc b) :=
    fun b hb => (kept6 W5 b hb).trans (k5 b hb)
  generalize after (ValueC.ops6 (F := F)) W5 = W6 at e115 k6 ⊢
  -- chunk 7
  have e138 := chunk7 (W := W6) (h12 := k6 main_arg12 (by decide)) (h13 := k6 main_arg13 (by decide)) (h115 := e115)
  have k7 : ∀ b ∈ argRefs, after (ValueC.ops7 (F := F)) W6 (Proc.devRef .tc b) = V (Proc.devRef .tc b) :=
    fun b hb => (kept7 W6 b hb).trans (k6 b hb)
  generalize after (ValueC.ops7 (F := F)) W6 = W7 at e138 k7 ⊢
  -- chunk 8
  exact chunk8 (W := W7) (h12 := k7 main_arg12 (by decide)) (h13 := k7 main_arg13 (by decide)) (h138 := e138)

/-- After the whole line an argument's buffer is as it was. -/
theorem after_arg (V : Valuation τ sig (Elt F)) (b : Ref sig .tc) (hb : b ∈ argRefs) :
    after (ValueC.ops (F := F)) V (Proc.devRef .tc b) = V (Proc.devRef .tc b) := by
  have hr := idx_lt_of_mem_argRefs b hb
  simp only [ValueC.ops, StableHlo.after_append]
  rw [kept8 _ b hb, kept7 _ b hb, kept6 _ b hb, kept5 _ b hb, kept4 _ b hr, kept3 _ b hr, kept2 _ b hr, kept1 _ b hr]

/-- On every device, for any float values, from any memory with zero counters: every weakly fair execution of
    @main terminates with the result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161)
        = ReadP.val_main_v161 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v161).trans (after_out (launchContents m c)),
      (h c main_arg0).trans (after_arg (launchContents m c) main_arg0 (by decide)),
      (h c main_arg1).trans (after_arg (launchContents m c) main_arg1 (by decide)),
      (h c main_arg2).trans (after_arg (launchContents m c) main_arg2 (by decide)),
      (h c main_arg3).trans (after_arg (launchContents m c) main_arg3 (by decide)),
      (h c main_arg4).trans (after_arg (launchContents m c) main_arg4 (by decide)),
      (h c main_arg5).trans (after_arg (launchContents m c) main_arg5 (by decide)),
      (h c main_arg6).trans (after_arg (launchContents m c) main_arg6 (by decide)),
      (h c main_arg7).trans (after_arg (launchContents m c) main_arg7 (by decide)),
      (h c main_arg8).trans (after_arg (launchContents m c) main_arg8 (by decide)),
      (h c main_arg9).trans (after_arg (launchContents m c) main_arg9 (by decide)),
      (h c main_arg10).trans (after_arg (launchContents m c) main_arg10 (by decide)),
      (h c main_arg11).trans (after_arg (launchContents m c) main_arg11 (by decide)),
      (h c main_arg12).trans (after_arg (launchContents m c) main_arg12 (by decide)),
      (h c main_arg13).trans (after_arg (launchContents m c) main_arg13 (by decide)),
      (h c main_arg14).trans (after_arg (launchContents m c) main_arg14 (by decide)),
      (h c main_arg15).trans (after_arg (launchContents m c) main_arg15 (by decide))⟩)
    (ValueC.run_after m ρ)

end Cert.ReferenceIdeal.HandRun

end
-- ==== Proof.Claims.lean ====
/-
  The claims. At the ideal instance both programs end with ONE function of the arguments in the result buffer: the
  residual head of `x_ji = dense x W_ji b_ji`, of the scatter-add by `edge_idx_ji` of the bilinear fuse of the rows of
  `x_kj = dense x W_kj b_kj ⊙ (rbf · W_rbf)` gathered by `edge_idx_kj`, and of `x`. The kernel computes it tile by tile
  in three regions (a tile of a row-local stage is the stage of the tile); the reference computes it on whole arrays.
  The two programs differ in one host step: the kernel's take replaces a row whose index is out of range by a fill
  value, the reference's gather clamps the index. Under the precondition every index is in range, the fill is never
  taken, and both gather the same rows with the same start-index column. The scatter-add is the same operation on
  both sides; the bilinear weights reach the kernel transposed once on the host, the reference transposes each slice.
-/
import proofs.«421744_j48490180772447_1_alg».proof.Defs
import proofs.«421744_j48490180772447_1_alg».proof.Proof.Gen.Kernel.Frame
import proofs.«421744_j48490180772447_1_alg».proof.Proof.Gen.Pre_finite_inputs
import proofs.«421744_j48490180772447_1_alg».proof.Proof.Assembly
import proofs.«421744_j48490180772447_1_alg».proof.Proof.KernelRun
import proofs.«421744_j48490180772447_1_alg».proof.Proof.Domain
import proofs.«421744_j48490180772447_1_alg».proof.Proof.Ref0
import proofs.«421744_j48490180772447_1_alg».proof.Proof.Ref1
import proofs.«421744_j48490180772447_1_alg».proof.Proof.Ref2
import proofs.«421744_j48490180772447_1_alg».proof.Proof.RefRun
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Cert.ReferenceIdeal.ReadP

/-! ## The reference's result, in the stages' own words -/

/-- The reference's last stage is the head of its `x_ji`, its scatter-add and `x`; its scatter-add adds its bilinear
    fuse; its bilinear fuse reads its gather; its gather reads its gated message. -/
theorem ref_value (x0 : Cert.Spec.Mat 150000 128) (x1 : Cert.Spec.Mat 150000 6) (x2 : Cert.Spec.Mat 450000 42) (x3 x4 : IVec Cert.ReferenceIdeal.S450000 32)
    (x5 : Cert.Spec.Mat 6 128) (x6 : Cert.Spec.Mat 42 8) (x7 : Cert.Spec.Mat 128 128) (x8 : Cert.Spec.Vc 128) (x9 : Cert.Spec.Mat 128 128) (x10 : Cert.Spec.Vc 128)
    (x11 : FVec Ideal Cert.ReferenceIdeal.S128x8x128 .f32) (x12 : FVec Ideal Cert.ReferenceIdeal.S3x2x128x128 .f32) (x13 : FVec Ideal Cert.ReferenceIdeal.S3x2x128 .f32)
    (x14 : Cert.Spec.Mat 128 128) (x15 : Cert.Spec.Vc 128) :
    val_main_v161 (F := Ideal) x0 x1 x2 x3 x4 x5 x6 x7 x8 x9 x10 x11 x12 x13 x14 x15
      = Cert.Spec.head (Cert.Spec.dense x0 x9 x10)
          (Host.scatterAdd Cert.ReferenceIdeal.scatter_S150000x128_S450000x1_S450000x128_1_0_0_1 (val_main_v83 (F := Ideal)) (val_main_v84 (F := Ideal) x4)
            (Cert.Spec.bilinear
              (Host.gather Cert.ReferenceIdeal.gather_S150000x128_S450000x1_S450000x128_1_0_n_n_0_1_1128 (Cert.Spec.gated x0 x1 x5 x7 x8) (val_main_v18 (F := Ideal) x3))
              x2 x6 (Cert.Spec.wbil x11)))
          x0 (Cert.Spec.wres x12) (Cert.Spec.bres x13) x14 x15 := by
  rw [ref_out, ref_ji]
  unfold val_main_v85
  rw [ref_m]
  unfold val_main_v19
  rw [ref_kj]

/-! ## The one host step in which the programs differ, and the rest of the glue -/

/-- Both programs gather with the same start-index column: a negative word wrapped by the table's height, as a column. -/
theorem idxCol_eq (x3 : IVec Cert.ReferenceIdeal.S450000 32) : idxCol x3 = val_main_v18 (F := Ideal) x3 := by
  unfold idxCol val_main_v18 val_main_v17 val_main_v16 val_main_v15 val_main_v14 val_main_v13 val_main_c val_main_c_0
  rfl

/-- The kernel's bilinear weights, transposed once to `[8, in, out]`, give slice by slice the matrices the reference
    takes as transposed slices of `[out, 8, in]`. -/
theorem wbt_transpose (x11 : FVec Ideal Cert.KernelIdeal.S128x8x128 .f32) :
    Cert.Spec.wbt (transpose Cert.KernelIdeal.S8x128x128 [1, 2, 0] x11 Cert.KernelIdeal.Facts₀.transposes_S128x8x128_S8x128x128_1_2_0) = Cert.Spec.wbil x11 := by
  funext b
  funext i
  obtain ⟨j, o, rfl⟩ : ∃ (j o : Fin 128), i = ix2 j o := ⟨_, _, eq_ix2 i⟩
  rw [Cert.Spec.wbt_apply, Cert.Spec.wbil_apply]
  exact transpose_apply [1, 2, 0] x11 _ (ix3 b j o) (ix3 o b j) (fun a => by
    match a with
    | ⟨0, _⟩ => rfl
    | ⟨1, _⟩ => rfl
    | ⟨2, _⟩ => rfl)

/-- The gather and scatter dimension records are printed once per program, with the same fields. -/
theorem gather_rec_eq : Cert.KernelIdeal.gather_S150000x128_S450000x1_S450000x128_1_0_n_n_0_1_1128
    = Cert.ReferenceIdeal.gather_S150000x128_S450000x1_S450000x128_1_0_n_n_0_1_1128 := rfl
theorem scatter_rec_eq : Cert.KernelIdeal.scatter_S150000x128_S450000x1_S450000x128_1_0_0_1
    = Cert.ReferenceIdeal.scatter_S150000x128_S450000x1_S450000x128_1_0_0_1 := rfl

/-- The kernel's result buffer after its run is the reference's last stage of the same arguments. -/
theorem kernel_eq_ref (m : (ℓ : Loc Cert.KernelIdeal.nD Cert.KernelIdeal.τ Cert.KernelIdeal.sig) → Buf (Elt Ideal) ℓ) (ρ : Dev Cert.KernelIdeal.nD → PrngReg)
    (c : Dev Cert.KernelIdeal.nD)
    (hin : ∀ i : Cert.KernelIdeal.S450000.Idx, ((m ((c : Thread Cert.KernelIdeal.nD Cert.KernelIdeal.τ).loc Cert.KernelIdeal.main_arg3) : IVec Cert.KernelIdeal.S450000 32) i).toNat < 150000) :
    Cert.KernelIdeal.Gen.W6 m ρ c (Proc.devRef .tc Cert.KernelIdeal.main_v7)
      = val_main_v161 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  rw [kernel_value m ρ c hin, ref_value, idxCol_eq, wbt_transpose, gather_rec_eq, scatter_rec_eq]
  rfl

/-! ## The claims -/

theorem frame_p : Cert.frame_Kernel := fun m ρ _ => Cert.Kernel.Gen.frame m ρ
theorem frame_pi : Cert.frame_KernelIdeal := fun m ρ _ => Cert.KernelIdeal.Gen.frame m ρ
/-- The reference's run with the result dropped. -/
theorem frame_ri : Cert.frame_ReferenceIdeal := fun m ρ _ =>
  (θ_run Cert.ReferenceIdeal.defs _ _).mono (fun _ h c => (h c).2) (Cert.ReferenceIdeal.HandRun.run m ρ)

/-- The ideal pass rewrote no operation of the kernel. -/
theorem preserves : Cert.preserves_Kernel_KernelIdeal := trivial

/-- Both runs end with the reference's last stage of the (agreeing) arguments in the result buffer. The precondition is
    used once: every `edge_idx_kj` is in `[0, 150000)`, so the kernel's take never fills a row. -/
theorem algebraic : Cert.algebraic_KernelIdeal_ReferenceIdeal := by
  intro m ρ m' ρ' hpre hagree
  refine ⟨fun c => val_main_v161 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (kernel_eq_ref m ρ c (idx_in_range _ _ _ _ _ _ _ _ _ _ _ _ _ _ _ _ (hpre c))), (h c).2⟩)
      (Cert.KernelIdeal.Launched.run_named (F := Ideal) m ρ)
  · refine (θ_run Cert.ReferenceIdeal.defs _ _).mono (fun r h c => ⟨?_, (h c).2⟩) (Cert.ReferenceIdeal.HandRun.run m' ρ')
    obtain ⟨e0, e1, e2, e3, e4, e5, e6, e7, e8, e9, e10, e11, e12, e13, e14, e15⟩ := hagree c
    rw [(h c).1, e0, e1, e2, e3, e4, e5, e6, e7, e8, e9, e10, e11, e12, e13, e14, e15]

end Cert.Bridge

end
-- ==== Proof.lean ====
/-
  The certificate of the DimeNet interaction block: a kernel of three row-tiled regions (the edge transform, the
  bilinear fuse over triplets, the residual head) with a host take, a host transpose and a host scatter-add between
  them, against the same mathematics written as host operations on whole arrays.
  Every stage acts row by row, so a tile of a stage of whole arrays is the stage of the tiles (Proof/Spec.lean); each
  region's output array is therefore its stage of the arrays the region finds (Proof/Region0.lean, Region1.lean,
  Region2.lean), and reading the buffer contents from boundary to boundary gives the kernel's result as one term of the
  arguments (Proof/Assembly.lean). The reference's stages are the same functions (Proof/Ref0.lean, Ref1.lean,
  Ref2.lean) and its run ends with its last stage in the result buffer (Proof/RefRun.lean). The two meet in
  Proof/Claims.lean; the precondition is used once, for the indices of the take (Proof/Domain.lean, Proof/Take.lean).
-/
import proofs.«421744_j48490180772447_1_alg».proof.Defs
import proofs.«421744_j48490180772447_1_alg».proof.Proof.Gen.Kernel
import proofs.«421744_j48490180772447_1_alg».proof.Proof.Gen.Kernel.Skeleton
import proofs.«421744_j48490180772447_1_alg».proof.Proof.Gen.Kernel.Launch
import proofs.«421744_j48490180772447_1_alg».proof.Proof.Gen.Kernel.Points
import proofs.«421744_j48490180772447_1_alg».proof.Proof.Gen.Kernel.Frame
import proofs.«421744_j48490180772447_1_alg».proof.Proof.Gen.KernelIdeal
import proofs.«421744_j48490180772447_1_alg».proof.Proof.Gen.KernelIdeal.Skeleton
import proofs.«421744_j48490180772447_1_alg».proof.Proof.Gen.KernelIdeal.Launch
import proofs.«421744_j48490180772447_1_alg».proof.Proof.Gen.KernelIdeal.Points
import proofs.«421744_j48490180772447_1_alg».proof.Proof.Gen.KernelIdeal.Frame
import proofs.«421744_j48490180772447_1_alg».proof.Proof.Gen.ReferenceIdeal
import proofs.«421744_j48490180772447_1_alg».proof.Proof.Gen.Pre_finite_inputs
import proofs.«421744_j48490180772447_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Bridge.frame_p, Cert.Bridge.frame_pi, Cert.Bridge.frame_ri, Cert.Bridge.preserves, Cert.Bridge.algebraic⟩

end Cert.Proof

end
